-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S128x64 : Shape := ⟨2, ![128, 64]⟩
abbrev S64x2 : Shape := ⟨2, ![64, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg11 : FVec F S64 .f32) (main_arg12 : FVec F S64x2 .f32) (main_arg13 : FVec F S2 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg12
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg13
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg8 : FVec F S64x64 .f32) (main_arg9 : FVec F S64 .f32) (main_arg10 : FVec F S128x64 .f32) (main_arg11 : FVec F S64 .f32) (main_arg12 : FVec F S64x2 .f32) (main_arg13 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg11 main_arg12 main_arg13 main_v33

def fn {F : FTy → Type} [FloatOps F] (main_arg0 : FVec F S100000x16 .f32) (main_arg1 : IVec S2x1600000 32) (main_arg2 : IVec S100000 32) (main_arg3 : FVec F S100000x16 .f32) (main_arg4 : IVec S2x1600000 32) (main_arg5 : IVec S100000 32) (main_arg6 : FVec F S16x64 .f32) (main_arg7 : FVec F S64 .f32) (main_arg8 : FVec F S64x64 .f32) (main_arg9 : FVec F S64 .f32) (main_arg10 : FVec F S128x64 .f32) (main_arg11 : FVec F S64 .f32) (main_arg12 : FVec F S64x2 .f32) (main_arg13 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg3
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S16x64 .f32 := Host.absf main_arg6
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S128x64 : Shape := ⟨2, ![128, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x64 : Shape := ⟨2, ![1, 64]⟩
abbrev S100000x64 : Shape := ⟨2, ![100000, 64]⟩
abbrev S10000x16 : Shape := ⟨2, ![10000, 16]⟩
abbrev S10000x64 : Shape := ⟨2, ![10000, 64]⟩
abbrev S1700000x64 : Shape := ⟨2, ![1700000, 64]⟩
abbrev S100000x1 : Shape := ⟨2, ![100000, 1]⟩
abbrev S256x64 : Shape := ⟨2, ![256, 64]⟩
abbrev S1x256 : Shape := ⟨2, ![1, 256]⟩
abbrev S5000x64 : Shape := ⟨2, ![5000, 64]⟩
abbrev S5000x1 : Shape := ⟨2, ![5000, 1]⟩
abbrev S5000x256 : Shape := ⟨2, ![5000, 256]⟩
abbrev S256 : Shape := ⟨1, ![256]⟩
abbrev S256x1 : Shape := ⟨2, ![256, 1]⟩
abbrev S256x128 : Shape := ⟨2, ![256, 128]⟩
abbrev S1x2 : Shape := ⟨2, ![1, 2]⟩
abbrev S256x2 : Shape := ⟨2, ![256, 2]⟩

abbrev nBuf : Space → Nat
  | .hbm => 172
  | .vmem => 42
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S100000x16, .f32⟩
  | 4 => ⟨S2x1600000, .i32⟩
  | 5 => ⟨S100000, .i32⟩
  | 6 => ⟨S16x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x2, .f32⟩
  | 13 => ⟨S2, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x16, .f32⟩
  | 57 => ⟨S1700000x16, .f32⟩
  | 58 => ⟨S1700000x16, .f32⟩
  | 59 => ⟨S_, .f32⟩
  | 60 => ⟨S100000x16, .f32⟩
  | 61 => ⟨S1700000x1, .i32⟩
  | 62 => ⟨S100000x16, .f32⟩
  | 63 => ⟨S1x64, .f32⟩
  | 64 => ⟨S100000x64, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S1x64, .f32⟩
  | 82 => ⟨S100000x1, .i32⟩
  | 83 => ⟨S256x64, .f32⟩
  | 84 => ⟨S1x256, .f32⟩
  | 85 => ⟨S256x1, .f32⟩
  | 86 => ⟨S_, .f32⟩
  | 87 => ⟨S256x1, .f32⟩
  | 88 => ⟨S256x1, .f32⟩
  | 89 => ⟨S256x64, .f32⟩
  | 90 => ⟨S256x64, .f32⟩
  | 91 => ⟨S1x1600000, .i32⟩
  | 92 => ⟨S1600000, .i32⟩
  | 93 => ⟨S1x1600000, .i32⟩
  | 94 => ⟨S1600000, .i32⟩
  | 95 => ⟨S100000, .i32⟩
  | 96 => ⟨S1700000, .i32⟩
  | 97 => ⟨S1700000, .i32⟩
  | 98 => ⟨S_, .f32⟩
  | 99 => ⟨S1700000, .f32⟩
  | 100 => ⟨S_, .f32⟩
  | 101 => ⟨S100000, .f32⟩
  | 102 => ⟨S1700000x1, .i32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S1700000, .f32⟩
  | 124 => ⟨S1700000x1, .f32⟩
  | 125 => ⟨S_, .i32⟩
  | 126 => ⟨S1700000, .i32⟩
  | 127 => ⟨S1700000, .i1⟩
  | _ => ⟨S100000x16, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x16, .f32⟩
  | 6 => ⟨S1700000x16, .f32⟩
  | 7 => ⟨S1700000x16, .f32⟩
  | 8 => ⟨S_, .f32⟩
  | 9 => ⟨S100000x16, .f32⟩
  | 10 => ⟨S1700000x1, .i32⟩
  | 11 => ⟨S100000x16, .f32⟩
  | 12 => ⟨S1x64, .f32⟩
  | 13 => ⟨S100000x64, .f32⟩
  | 14 => ⟨S100000x64, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x64, .f32⟩
  | 24 => ⟨S1700000x64, .f32⟩
  | 25 => ⟨S1700000x64, .f32⟩
  | 26 => ⟨S_, .f32⟩
  | 27 => ⟨S100000x64, .f32⟩
  | 28 => ⟨S1700000x1, .i32⟩
  | 29 => ⟨S100000x64, .f32⟩
  | 30 => ⟨S1x64, .f32⟩
  | 31 => ⟨S100000x1, .i32⟩
  | 32 => ⟨S256x64, .f32⟩
  | 33 => ⟨S1x256, .f32⟩
  | 34 => ⟨S256x1, .f32⟩
  | 35 => ⟨S_, .f32⟩
  | 36 => ⟨S256x1, .f32⟩
  | 37 => ⟨S256x1, .f32⟩
  | 38 => ⟨S256x64, .f32⟩
  | 39 => ⟨S256x64, .f32⟩
  | 40 => ⟨S256x128, .f32⟩
  | 41 => ⟨S1x64, .f32⟩
  | 42 => ⟨S1x2, .f32⟩
  | 43 => ⟨S256x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x1, .i32⟩
  | .local _ .vmem, ⟨15, _⟩ => ⟨S5000x1, .i32⟩
  | .local _ .vmem, ⟨16, _⟩ => ⟨S256x64, .f32⟩
  | .local _ .vmem, ⟨17, _⟩ => ⟨S1x256, .f32⟩
  | .local _ .vmem, ⟨18, _⟩ => ⟨S10000x16, .f32⟩
  | .local _ .vmem, ⟨19, _⟩ => ⟨S10000x16, .f32⟩
  | .local _ .vmem, ⟨20, _⟩ => ⟨S16x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S5000x1, .i32⟩
  | .local _ .vmem, ⟨33, _⟩ => ⟨S5000x1, .i32⟩
  | .local _ .vmem, ⟨34, _⟩ => ⟨S256x64, .f32⟩
  | .local _ .vmem, ⟨35, _⟩ => ⟨S1x256, .f32⟩
  | .local _ .vmem, ⟨36, _⟩ => ⟨S256x128, .f32⟩
  | .local _ .vmem, ⟨37, _⟩ => ⟨S128x64, .f32⟩
  | .local _ .vmem, ⟨38, _⟩ => ⟨S1x64, .f32⟩
  | .local _ .vmem, ⟨39, _⟩ => ⟨S64x2, .f32⟩
  | .local _ .vmem, ⟨40, _⟩ => ⟨S1x2, .f32⟩
  | .local _ .vmem, ⟨41, _⟩ => ⟨S256x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57_0 : Ref sig .tc := ⟨.hbm, 83, rfl⟩
abbrev main_v57_1 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_17 : Ref sig .tc := ⟨.hbm, 125, rfl⟩
abbrev main_v91 : Ref sig .tc := ⟨.hbm, 126, rfl⟩
abbrev main_v92 : Ref sig .tc := ⟨.hbm, 127, rfl⟩
abbrev main_c_18 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_c_21 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_22 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120_0 : Ref sig .tc := ⟨.hbm, 160, rfl⟩
abbrev main_v120_1 : Ref sig .tc := ⟨.hbm, 161, rfl⟩
abbrev main_v121 : Ref sig .tc := ⟨.hbm, 162, rfl⟩
abbrev main_cst_23 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg4_0 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem4_0 : DmaSem sig := 35
abbrev cc6_sem0_0 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem5_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S100000_S100000x1 : S100000.ShapeCasts S100000x1
  inb_S256x64_S256x64_0_0 : ∀ a, (![0, 0] : Fin 2 → Nat) a + S256x64.size a ≤ S256x64.size a
  h_S256x64 : 0 < S256x64.numel
  inb_S1x256_S1x256_0_0 : ∀ a, (![0, 0] : Fin 2 → Nat) a + S1x256.size a ≤ S1x256.size a
  h_S1x256 : 0 < S1x256.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  shapeCasts_S256x64_S256x64 : S256x64.ShapeCasts S256x64
  reduces_S5000x256_S256 : S5000x256.Reduces [0] S256
  shapeCasts_S256_S1x256 : S256.ShapeCasts S1x256
  shapeCasts_S1x256_S1x256 : S1x256.ShapeCasts S1x256
  shapeCasts_S1x256_S256x1 : S1x256.ShapeCasts S256x1
  bcast_S_S256x1 : S_.BroadcastsInDim S256x1 (![] : Fin 0 → Fin S256x1.rank)
  bcast_S256x1_S256x64_0_1 : S256x1.BroadcastsInDim S256x64 (![0, 1] : Fin 2 → Fin S256x64.rank)
  concatenates_S256x64_S256x64_S256x128_d1 : Shape.Concatenates [S256x64, S256x64] S256x128 1
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  broadcasts_S1x64_S256x64 : S1x64.Broadcasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x64_S10000x64_1_0_0_1_n_n_wf : DotDims.WF S10000x16 S16x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x256_S5000x64_S256x64_0_0_1_1_n_n_wf : DotDims.WF S5000x256 S5000x64 S256x64 [0] [0] [1] [1] [] []
  dot_S256x128_S128x64_S256x64_1_0_0_1_n_n_wf : DotDims.WF S256x128 S128x64 S256x64 [1] [0] [0] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x64.size a ≤ S256x64.size a
  hwx2_3 : ∀ i : grid2.Coords, EltTy.bits .f32 = 32 ∨ (Rect.block (s := S256x64) S256x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x64.size a ≤ S16x64.size a
  hwx3_1 : ∀ i : grid3.Coords, EltTy.bits .f32 = 32 ∨ (Rect.block (s := S16x64) S16x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .i32 = 32 ∨ (Rect.block (s := S100000x1) S5000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x64.size a ≤ S256x64.size a
  hwx5_3 : ∀ i : grid5.Coords, EltTy.bits .f32 = 32 ∨ (Rect.block (s := S256x64) S256x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S256x128.size a
  hwx6_0 : ∀ i : grid6.Coords, EltTy.bits .f32 = 32 ∨ (Rect.block (s := S256x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x2.size a ≤ S256x2.size a
  hwx6_5 : ∀ i : grid6.Coords, EltTy.bits .f32 = 32 ∨ (Rect.block (s := S256x2) S256x2.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_v39) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57_0) S256x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57_1) S1x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v102) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v104) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v104) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v117) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v120_0) S256x64.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120_1) S1x256.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v126) S256x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v127) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v128) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v129) S256x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S16x64 : Shape := ⟨2, ![16, 64]⟩
abbrev S64 : Shape := ⟨1, ![64]⟩
abbrev S64x64 : Shape := ⟨2, ![64, 64]⟩
abbrev S128x64 : Shape := ⟨2, ![128, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x128 : Shape := ⟨2, ![256, 128]⟩
abbrev S256x2 : Shape := ⟨2, ![256, 2]⟩
abbrev S1x2 : Shape := ⟨2, ![1, 2]⟩

abbrev nBuf : Space → Nat
  | .hbm => 274
  | .vmem => 0
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S100000x16, .f32⟩
  | 4 => ⟨S2x1600000, .i32⟩
  | 5 => ⟨S100000, .i32⟩
  | 6 => ⟨S16x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x2, .f32⟩
  | 13 => ⟨S2, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S100000, .f32⟩
  | 28 => ⟨S100000x64, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S100000, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S256x64, .f32⟩
  | 124 => ⟨S100000x1, .i32⟩
  | 125 => ⟨S256x64, .f32⟩
  | 126 => ⟨S_, .f32⟩
  | 127 => ⟨S100000, .f32⟩
  | _ => ⟨S100000x16, .f32⟩

abbrev hbmTy0_1 (i : Nat) : BufTy := match i % 128 with
  | 0 => ⟨S_, .f32⟩
  | 1 => ⟨S256, .f32⟩
  | 2 => ⟨S100000x1, .i32⟩
  | 3 => ⟨S256, .f32⟩
  | 4 => ⟨S_, .f32⟩
  | 5 => ⟨S256, .f32⟩
  | 6 => ⟨S256, .f32⟩
  | 7 => ⟨S256x1, .f32⟩
  | 8 => ⟨S256x64, .f32⟩
  | 9 => ⟨S256x64, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S100000x64, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S1700000x1, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x64, .f32⟩
  | 55 => ⟨S1700000x64, .f32⟩
  | 56 => ⟨S_, .f32⟩
  | 57 => ⟨S100000x64, .f32⟩
  | 58 => ⟨S1700000x1, .i32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000, .i32⟩
  | 67 => ⟨S1700000, .i32⟩
  | 68 => ⟨S1700000, .i32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S100000, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S1700000x1, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S256x64, .f32⟩
  | 120 => ⟨S100000x1, .i32⟩
  | 121 => ⟨S256x64, .f32⟩
  | 122 => ⟨S_, .f32⟩
  | 123 => ⟨S100000, .f32⟩
  | 124 => ⟨S_, .f32⟩
  | 125 => ⟨S256, .f32⟩
  | 126 => ⟨S100000x1, .i32⟩
  | 127 => ⟨S256, .f32⟩
  | _ => ⟨S100000x16, .f32⟩

abbrev hbmTy0_2 (i : Nat) : BufTy := match i % 128 with
  | 0 => ⟨S_, .f32⟩
  | 1 => ⟨S256, .f32⟩
  | 2 => ⟨S256, .f32⟩
  | 3 => ⟨S256x1, .f32⟩
  | 4 => ⟨S256x64, .f32⟩
  | 5 => ⟨S256x64, .f32⟩
  | 6 => ⟨S256x128, .f32⟩
  | 7 => ⟨S256x64, .f32⟩
  | 8 => ⟨S1x64, .f32⟩
  | 9 => ⟨S256x64, .f32⟩
  | 10 => ⟨S256x64, .f32⟩
  | 11 => ⟨S_, .f32⟩
  | 12 => ⟨S256x64, .f32⟩
  | 13 => ⟨S256x64, .f32⟩
  | 14 => ⟨S256x2, .f32⟩
  | 15 => ⟨S1x2, .f32⟩
  | 16 => ⟨S256x2, .f32⟩
  | 17 => ⟨S256x2, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_cst : Ref sig .tc := ⟨.hbm, 67, rfl⟩
abbrev main_call0_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call1_cst : Ref sig .tc := ⟨.hbm, 119, rfl⟩
abbrev main_call1_v0 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_cst_18 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_20 : Ref sig .tc := ⟨.hbm, 145, rfl⟩
abbrev main_v105 : Ref sig .tc := ⟨.hbm, 146, rfl⟩
abbrev main_cst_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_22 : Ref sig .tc := ⟨.hbm, 153, rfl⟩
abbrev main_v111 : Ref sig .tc := ⟨.hbm, 154, rfl⟩
abbrev main_v112 : Ref sig .tc := ⟨.hbm, 155, rfl⟩
abbrev main_c_23 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_24 : Ref sig .tc := ⟨.hbm, 162, rfl⟩
abbrev main_v118 : Ref sig .tc := ⟨.hbm, 163, rfl⟩
abbrev main_v119 : Ref sig .tc := ⟨.hbm, 164, rfl⟩
abbrev main_c_25 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_26 : Ref sig .tc := ⟨.hbm, 173, rfl⟩
abbrev main_v127 : Ref sig .tc := ⟨.hbm, 174, rfl⟩
abbrev main_v128 : Ref sig .tc := ⟨.hbm, 175, rfl⟩
abbrev main_c_27 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_28 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_call2_cst : Ref sig .tc := ⟨.hbm, 191, rfl⟩
abbrev main_call2_v0 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_29 : Ref sig .tc := ⟨.hbm, 197, rfl⟩
abbrev main_v146 : Ref sig .tc := ⟨.hbm, 198, rfl⟩
abbrev main_cst_30 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_c_31 : Ref sig .tc := ⟨.hbm, 205, rfl⟩
abbrev main_v152 : Ref sig .tc := ⟨.hbm, 206, rfl⟩
abbrev main_v153 : Ref sig .tc := ⟨.hbm, 207, rfl⟩
abbrev main_c_32 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_33 : Ref sig .tc := ⟨.hbm, 214, rfl⟩
abbrev main_v159 : Ref sig .tc := ⟨.hbm, 215, rfl⟩
abbrev main_v160 : Ref sig .tc := ⟨.hbm, 216, rfl⟩
abbrev main_c_34 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_35 : Ref sig .tc := ⟨.hbm, 225, rfl⟩
abbrev main_v168 : Ref sig .tc := ⟨.hbm, 226, rfl⟩
abbrev main_v169 : Ref sig .tc := ⟨.hbm, 227, rfl⟩
abbrev main_c_36 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_37 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_call3_cst : Ref sig .tc := ⟨.hbm, 243, rfl⟩
abbrev main_call3_v0 : Ref sig .tc := ⟨.hbm, 244, rfl⟩
abbrev main_v183 : Ref sig .tc := ⟨.hbm, 245, rfl⟩
abbrev main_cst_38 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_cst_39 : Ref sig .tc := ⟨.hbm, 250, rfl⟩
abbrev main_v187 : Ref sig .tc := ⟨.hbm, 251, rfl⟩
abbrev main_cst_40 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_cst_41 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_call4_cst : Ref sig .tc := ⟨.hbm, 267, rfl⟩
abbrev main_call4_v0 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x64_S256x64_S256x128_d1 : Shape.Concatenates [S256x64, S256x64] S256x128 1
  bcast_S1x64_S256x64_0_1 : S1x64.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1700000x1_S1700000_n_0_0_1_wf : ScatterDims.WF S100000 S1700000x1 S1700000 [] [0] [0] 1
  dot_S100000x16_S16x64_S100000x64_1_0_0_1_n_n_wf : DotDims.WF S100000x16 S16x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x2_S256x2_1_0_0_1_n_n_wf : DotDims.WF S256x64 S64x2 S256x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.Spec.lean ====
/-
  The dense stages of the graph network as plain functions on matrices of extended reals, index by index.

  `dense x w` is the matrix product; `layer1 x w b` the first convolution's transform of already aggregated rows,
  `max (x·w + b) 0`; `poolSum G a b bt` adds, for each graph `g < G`, the rows `max (a r + b) 0` of the nodes `r` whose
  graph number `bt r` (read signed) is `g`, and `poolCnt G bt` counts those nodes; `head` is the two-layer
  perceptron `max (c·w1 + b1) 0 · w2 + b2`.  Biases are single rows `[1, p]`, graph numbers a column `[n, 1]` of words.
-/
import Idealize.ShloMosaic.PureOps.Ideal
import Idealize.ShloMosaic.Lib.ValueIdx

noncomputable section

open scoped BigOperators

namespace GCN

open Idealize.ShloMosaic Idealize.ShloMosaic.ValueIdx

/-- An `r × c` matrix of extended reals. -/
abbrev Mat (r c : Nat) : Type := (⟨2, ![r, c]⟩ : Shape).Idx → EReal
/-- A column of `n` 32-bit words. -/
abbrev ICol (n : Nat) : Type := (⟨2, ![n, 1]⟩ : Shape).Idx → BitVec 32

/-- The matrix product: entry `(r, j)` is `∑ a, x (r, a) * w (a, j)`. -/
def dense {n k p : Nat} (x : Mat n k) (w : Mat k p) : Mat n p :=
  fun i => ∑ a : Fin k, x (ix2 (i 0) a) * w (ix2 a (i 1))

/-- `max (x·w + b) 0`, the bias one row. -/
def layer1 {n k p : Nat} (x : Mat n k) (w : Mat k p) (b : Mat 1 p) : Mat n p :=
  fun i => max (dense x w i + b (ix2 0 (i 1))) 0

/-- Per graph `g`, the sum over the nodes `r` of graph `g` of `max (a (r, j) + b (0, j)) 0`. -/
def poolSum {n p : Nat} (G : Nat) (a : Mat n p) (b : Mat 1 p) (bt : ICol n) : Mat G p :=
  fun i => ∑ r ∈ Finset.univ.filter (fun r : Fin n => (bt (ix2 r 0)).toInt = (((i 0).val : Nat) : Int)),
    max (a (ix2 r (i 1)) + b (ix2 0 (i 1))) 0

/-- Per graph `g`, the number of its nodes, as a row `[1, G]`. -/
def poolCnt {n : Nat} (G : Nat) (bt : ICol n) : Mat 1 G :=
  fun i => ∑ _r ∈ Finset.univ.filter (fun r : Fin n => (bt (ix2 r 0)).toInt = (((i 1).val : Nat) : Int)), (1 : EReal)

/-- The two-layer head: `max (c·w1 + b1) 0 · w2 + b2`. -/
def head {g d h o : Nat} (c : Mat g d) (w1 : Mat d h) (b1 : Mat 1 h) (w2 : Mat h o) (b2 : Mat 1 o) : Mat g o :=
  fun i => dense (layer1 c w1 b1) w2 i + b2 (ix2 0 (i 1))

theorem dense_apply {n k p : Nat} (x : Mat n k) (w : Mat k p) (r : Fin n) (j : Fin p) :
    dense x w (ix2 r j) = ∑ a : Fin k, x (ix2 r a) * w (ix2 a j) := rfl

theorem layer1_apply {n k p : Nat} (x : Mat n k) (w : Mat k p) (b : Mat 1 p) (r : Fin n) (j : Fin p) :
    layer1 x w b (ix2 r j) = max ((∑ a : Fin k, x (ix2 r a) * w (ix2 a j)) + b (ix2 0 j)) 0 := rfl

theorem poolSum_apply {n p : Nat} (G : Nat) (a : Mat n p) (b : Mat 1 p) (bt : ICol n) (g : Fin G) (j : Fin p) :
    poolSum G a b bt (ix2 g j)
      = ∑ r ∈ Finset.univ.filter (fun r : Fin n => (bt (ix2 r 0)).toInt = ((g.val : Nat) : Int)), max (a (ix2 r j) + b (ix2 0 j)) 0 := rfl

theorem poolCnt_apply {n : Nat} (G : Nat) (bt : ICol n) (g : Fin G) :
    poolCnt G bt (ix2 0 g)
      = ∑ _r ∈ Finset.univ.filter (fun r : Fin n => (bt (ix2 r 0)).toInt = ((g.val : Nat) : Int)), (1 : EReal) := rfl

theorem head_apply {g d h o : Nat} (c : Mat g d) (w1 : Mat d h) (b1 : Mat 1 h) (w2 : Mat h o) (b2 : Mat 1 o) (r : Fin g) (j : Fin o) :
    head c w1 b1 w2 b2 (ix2 r j)
      = (∑ a : Fin h, max ((∑ q : Fin d, c (ix2 r q) * w1 (ix2 q a)) + b1 (ix2 0 a)) 0 * w2 (ix2 a j)) + b2 (ix2 0 j) := rfl

end GCN

end
-- ==== Proof.KernelStages.lean ====
/-
  The kernel program's stages as functions of its arguments, at the extended reals.

  For one graph side: `ends0 e` / `ends1 e` are the source and target columns of the edge list with one self loop per
  node appended; `deg e` counts, per node, the edges that end in it (self loop included), `dinv` is its inverse square
  root, and `norm e` the per-edge factor `dinv (source) · dinv (target)` as a column.  `agg16` adds, per target node, the
  16 features of the source node scaled by the factor; `h1` is the first convolution's output `max (agg16 · W1 + b1) 0`;
  `lin` its product with `W2`; `agg64` the same aggregation of those 64-wide rows; `psum` / `pcnt` the per-graph sums of
  `max (agg64 + b2) 0` and node counts, and `emb` their quotient with the count floored at one.  `out` is the head
  applied to the two sides' embeddings side by side.
-/
import proofs.«425248_j7627861918208_2_alg».proof.Proof.Gen.KernelIdeal
import proofs.«425248_j7627861918208_2_alg».proof.Proof.Spec

noncomputable section

namespace Cert.KernelIdeal.Stages

open Cert.KernelIdeal Cert.KernelIdeal.Facts₀ Cert.KernelIdeal.Facts Idealize.ShloMosaic

/-- A word array and a float array of the given shape, at the extended reals. -/
abbrev IArr (S : Shape) : Type := IVec S 32
abbrev FArr (S : Shape) : Type := FVec Ideal S .f32

/-- Row `0` of the edge list (the sources), then the node numbers `0 … 99999`. -/
def ends0 (e : IArr S2x1600000) : IArr S1700000 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Row `1` of the edge list (the targets), then the node numbers. -/
def ends1 (e : IArr S2x1600000) : IArr S1700000 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node number counted from the end. -/
def wrap (v : IArr S1700000) : IArr S1700000 :=
  select (cmpi .slt v (broadcastInDim S1700000 ![] bcast_S_S1700000 (constantI S_ 32 0#32))) (addi v (broadcastInDim S1700000 ![] bcast_S_S1700000 (constantI S_ 32 100000#32))) v

/-- A vector of node numbers as a column. -/
def col (v : IArr S1700000) : IArr S1700000x1 := broadcastInDim S1700000x1 ![0] bcast_S1700000_S1700000x1_0 v

/-- Per node, the number of edges ending in it. -/
def deg (e : IArr S2x1600000) : FArr S100000 :=
  Host.scatterAdd scatter_S100000_S1700000x1_S1700000_n_0_0_1 (broadcastInDim S100000 ![] bcast_S_S100000 (constant (F := Ideal) S_ .f32 0x00000000#32)) (col (ends1 e)) (broadcastInDim S1700000 ![] bcast_S_S1700000 (constant (F := Ideal) S_ .f32 0x3F800000#32))

def dinv (e : IArr S2x1600000) : FArr S100000 := Host.rsqrt (F := Ideal) (deg e)

/-- Per edge, `dinv (source) · dinv (target)`, as a column. -/
def norm (e : IArr S2x1600000) : FArr S1700000x1 :=
  broadcastInDim S1700000x1 ![0] bcast_S1700000_S1700000x1_0 (mulf (Host.gather gather_S100000_S1700000x1_S1700000_n_0_n_n_0_1_1 (dinv e) (col (wrap (ends0 e)))) (Host.gather gather_S100000_S1700000x1_S1700000_n_0_n_n_0_1_1 (dinv e) (col (wrap (ends1 e)))))

/-- Per target node, the sum of the source nodes' 16 features times the edge's factor. -/
def agg16 (x : FArr S100000x16) (e : IArr S2x1600000) : FArr S100000x16 :=
  Host.scatterAdd scatter_S100000x16_S1700000x1_S1700000x16_1_0_0_1 (broadcastInDim S100000x16 ![] bcast_S_S100000x16 (constant (F := Ideal) S_ .f32 0x00000000#32)) (col (ends1 e)) (mulf (Host.gather gather_S100000x16_S1700000x1_S1700000x16_1_0_n_n_0_1_116 x (col (wrap (ends0 e)))) (broadcastInDim S1700000x16 ![0, 1] bcast_S1700000x1_S1700000x16_0_1 (norm e)))

/-- A 64-vector as one row. -/
def row64 (b : FArr S64) : FArr S1x64 := shapeCast _ b shapeCasts_S64_S1x64

def h1 (x : FArr S100000x16) (e : IArr S2x1600000) (W1 : FArr S16x64) (b1 : FArr S64) : FArr S100000x64 :=
  GCN.layer1 (agg16 x e) W1 (row64 b1)

def lin (x : FArr S100000x16) (e : IArr S2x1600000) (W1 : FArr S16x64) (b1 : FArr S64) (W2 : FArr S64x64) : FArr S100000x64 :=
  GCN.dense (h1 x e W1 b1) W2

/-- Per target node, the sum of the source nodes' 64-wide rows times the edge's factor. -/
def agg64 (x : FArr S100000x16) (e : IArr S2x1600000) (W1 : FArr S16x64) (b1 : FArr S64) (W2 : FArr S64x64) : FArr S100000x64 :=
  Host.scatterAdd scatter_S100000x64_S1700000x1_S1700000x64_1_0_0_1 (broadcastInDim S100000x64 ![] bcast_S_S100000x64 (constant (F := Ideal) S_ .f32 0x00000000#32)) (col (ends1 e)) (mulf (Host.gather gather_S100000x64_S1700000x1_S1700000x64_1_0_n_n_0_1_164 (lin x e W1 b1 W2) (col (wrap (ends0 e)))) (broadcastInDim S1700000x64 ![0, 1] bcast_S1700000x1_S1700000x64_0_1 (norm e)))

/-- The graph numbers as a column. -/
def bcol (bt : IArr S100000) : IArr S100000x1 := shapeCast _ bt shapeCasts_S100000_S100000x1

def psum (x : FArr S100000x16) (e : IArr S2x1600000) (bt : IArr S100000) (W1 : FArr S16x64) (b1 : FArr S64) (W2 : FArr S64x64) (b2 : FArr S64) : FArr S256x64 :=
  GCN.poolSum 256 (agg64 x e W1 b1 W2) (row64 b2) (bcol bt)

def pcnt (bt : IArr S100000) : FArr S1x256 := GCN.poolCnt 256 (bcol bt)

/-- One side's embedding: the per-graph sums over the per-graph counts floored at one. -/
def emb (x : FArr S100000x16) (e : IArr S2x1600000) (bt : IArr S100000) (W1 : FArr S16x64) (b1 : FArr S64) (W2 : FArr S64x64) (b2 : FArr S64) : FArr S256x64 :=
  Host.divf (F := Ideal) (psum x e bt W1 b1 W2 b2) (broadcastInDim S256x64 ![0, 1] bcast_S256x1_S256x64_0_1 (maximumf (shapeCast _ (pcnt bt) shapeCasts_S1x256_S256x1) (broadcastInDim S256x1 ![] bcast_S_S256x1 (constant (F := Ideal) S_ .f32 0x3F800000#32))))

/-- The program's result as a function of its fourteen arguments. -/
def out (x1 : FArr S100000x16) (e1 : IArr S2x1600000) (bt1 : IArr S100000) (x2 : FArr S100000x16) (e2 : IArr S2x1600000) (bt2 : IArr S100000)
    (W1 : FArr S16x64) (b1 : FArr S64) (W2 : FArr S64x64) (b2 : FArr S64) (Wf1 : FArr S128x64) (bf1 : FArr S64) (Wf2 : FArr S64x2) (bf2 : FArr S2) : FArr S256x2 :=
  GCN.head (concatenate S256x128 1 [⟨S256x64, emb x1 e1 bt1 W1 b1 W2 b2⟩, ⟨S256x64, emb x2 e2 bt2 W1 b1 W2 b2⟩] concatenates_S256x64_S256x64_S256x128_d1)
    Wf1 (row64 bf1) Wf2 (shapeCast _ bf2 shapeCasts_S2_S1x2)

end Cert.KernelIdeal.Stages

end
-- ==== Proof.RegionFacts.lean ====
/-
  What each of the seven kernel regions leaves in its output arrays, as whole-array functions of the region's input
  arrays at the region's entry contents `V` (any contents): the facts the run of the whole program is threaded through.
  Regions 0 and 3 are the first convolution's dense transform, 1 and 4 the second convolution's product, 2 and 5 the
  pooling (per-graph sums and counts), 6 the head.
-/
import proofs.«425248_j7627861918208_2_alg».proof.Proof.Gen.KernelIdeal.Frame
import proofs.«425248_j7627861918208_2_alg».proof.Proof.Spec

set_option maxRecDepth 16384

noncomputable section

namespace Cert.KernelIdeal.Thread

open Cert.KernelIdeal Cert.KernelIdeal.Gen Idealize.ShloMosaic Idealize.ShloMosaic.TcCoe

structure RegionFacts : Prop where
  r0 : ∀ (V : (c : Dev nD) → (b : Ref sig .tc) → Buf (Elt Ideal) ((c : Thread nD τ).loc b)) (c : Dev nD), (dat0 (F := Ideal) V c).arrAt 3 cfg0.N = GCN.layer1 (V c (Pipeline.arrRef spec0 0)) (V c (Pipeline.arrRef spec0 1)) (V c (Pipeline.arrRef spec0 2))
  r1 : ∀ (V : (c : Dev nD) → (b : Ref sig .tc) → Buf (Elt Ideal) ((c : Thread nD τ).loc b)) (c : Dev nD), (dat1 (F := Ideal) V c).arrAt 2 cfg1.N = GCN.dense (V c (Pipeline.arrRef spec1 0)) (V c (Pipeline.arrRef spec1 1))
  r2s : ∀ (V : (c : Dev nD) → (b : Ref sig .tc) → Buf (Elt Ideal) ((c : Thread nD τ).loc b)) (c : Dev nD), (dat2 (F := Ideal) V c).arrAt 3 cfg2.N = GCN.poolSum 256 (V c (Pipeline.arrRef spec2 0)) (V c (Pipeline.arrRef spec2 1)) (V c (Pipeline.arrRef spec2 2))
  r2c : ∀ (V : (c : Dev nD) → (b : Ref sig .tc) → Buf (Elt Ideal) ((c : Thread nD τ).loc b)) (c : Dev nD), (dat2 (F := Ideal) V c).arrAt 4 cfg2.N = GCN.poolCnt 256 (V c (Pipeline.arrRef spec2 2))
  r3 : ∀ (V : (c : Dev nD) → (b : Ref sig .tc) → Buf (Elt Ideal) ((c : Thread nD τ).loc b)) (c : Dev nD), (dat3 (F := Ideal) V c).arrAt 3 cfg3.N = GCN.layer1 (V c (Pipeline.arrRef spec3 0)) (V c (Pipeline.arrRef spec3 1)) (V c (Pipeline.arrRef spec3 2))
  r4 : ∀ (V : (c : Dev nD) → (b : Ref sig .tc) → Buf (Elt Ideal) ((c : Thread nD τ).loc b)) (c : Dev nD), (dat4 (F := Ideal) V c).arrAt 2 cfg4.N = GCN.dense (V c (Pipeline.arrRef spec4 0)) (V c (Pipeline.arrRef spec4 1))
  r5s : ∀ (V : (c : Dev nD) → (b : Ref sig .tc) → Buf (Elt Ideal) ((c : Thread nD τ).loc b)) (c : Dev nD), (dat5 (F := Ideal) V c).arrAt 3 cfg5.N = GCN.poolSum 256 (V c (Pipeline.arrRef spec5 0)) (V c (Pipeline.arrRef spec5 1)) (V c (Pipeline.arrRef spec5 2))
  r5c : ∀ (V : (c : Dev nD) → (b : Ref sig .tc) → Buf (Elt Ideal) ((c : Thread nD τ).loc b)) (c : Dev nD), (dat5 (F := Ideal) V c).arrAt 4 cfg5.N = GCN.poolCnt 256 (V c (Pipeline.arrRef spec5 2))
  r6 : ∀ (V : (c : Dev nD) → (b : Ref sig .tc) → Buf (Elt Ideal) ((c : Thread nD τ).loc b)) (c : Dev nD), (dat6 (F := Ideal) V c).arrAt 5 cfg6.N = GCN.head (V c (Pipeline.arrRef spec6 0)) (V c (Pipeline.arrRef spec6 1)) (V c (Pipeline.arrRef spec6 2)) (V c (Pipeline.arrRef spec6 3)) (V c (Pipeline.arrRef spec6 4))

end Cert.KernelIdeal.Thread

end
-- ==== Proof.KernelThread1.lean ====
/-
  Side 1 of the program, threaded through the buffer contents at the segment boundaries: from the launch memory through
  the first stretch of host operations (edge ends with self loops, degrees, per-edge factors, the 16-wide aggregation),
  the first convolution's two regions, the second stretch (the 64-wide aggregation), the pooling region and the first
  operations of the third stretch (sums over floored counts), to the first graph batch's embedding, which then stays
  untouched up to the entry of the last stretch.

  Each stretch is first read at ARBITRARY entry contents `V`: the buffer a stretch writes holds its operations applied
  to `V` at the buffers it reads, and a buffer it does not write holds what `V` held.  The boundaries are then walked in
  order, every buffer's contents stated as a stage of `Stages` over the launch memory's arguments.
-/
import proofs.«425248_j7627861918208_2_alg».proof.Proof.Gen.KernelIdeal.Frame
import proofs.«425248_j7627861918208_2_alg».proof.Proof.KernelStages
import proofs.«425248_j7627861918208_2_alg».proof.Proof.RegionFacts
import Idealize.ShloMosaic.Lib.StableHlo.Run

set_option maxRecDepth 16384

noncomputable section

namespace Cert.KernelIdeal.Thread

open Cert.KernelIdeal Cert.KernelIdeal.Gen
open Idealize.ShloMosaic Idealize.ShloMosaic.TcCoe

/-! ## The stretches of host operations at arbitrary entry contents -/

section Host

variable (V : Valuation τ sig (Elt Ideal))

/-- A buffer that none of a line's operations writes keeps its contents: the operations' result buffers are told
    apart from every reference of the list `K`. -/
theorem keep_of (ops : List (HloOp τ sig (Elt Ideal))) (K : List (Ref sig .tc))
    (hK : ops.Forall fun op => ∀ r ∈ K, Proc.devRef (τ := τ) .tc r ∉ op.writes) {r : Ref sig .tc} (hr : r ∈ K) :
    StableHlo.after ops V (Proc.devRef .tc r) = V (Proc.devRef .tc r) :=
  StableHlo.after_of_forall_not_mem ops V fun op hop => List.forall_iff_forall_mem.mp hK op hop r hr

/-- The arguments side 1 reads after the first stretch. -/
abbrev lateArgs : List (Ref sig .tc) := [main_arg2, main_arg6, main_arg8, main_arg9]

theorem h0_keep {r : Ref sig .tc} (hr : r ∈ lateArgs) :
    StableHlo.after (hostOps0 (F := Ideal)) V (Proc.devRef .tc r) = V (Proc.devRef .tc r) :=
  keep_of V _ lateArgs (by
    simp only [hostOps0, List.Forall, StableHlo.nullary_writes, StableHlo.unary_writes, StableHlo.binary_writes,
      StableHlo.ternary_writes, StableHlo.reshape_writes, Finset.mem_singleton]
    repeat' apply And.intro
    all_goals exact fun r hr => StableHlo.devRef_ne_of_ne (ne_of_mem_of_not_mem hr (by decide))) hr

/-- The edge ends with the self loops appended. -/
theorem h0_v5 : StableHlo.after (hostOps0 (F := Ideal)) V (Proc.devRef .tc main_v5) = Stages.ends0 (V (Proc.devRef .tc main_arg1)) := by
  after_results
  rfl

theorem h0_v6 : StableHlo.after (hostOps0 (F := Ideal)) V (Proc.devRef .tc main_v6) = Stages.ends1 (V (Proc.devRef .tc main_arg1)) := by
  after_results
  rfl

/-- The first bias as a row. -/
theorem h0_v40 : StableHlo.after (hostOps0 (F := Ideal)) V (Proc.devRef .tc main_v40) = Stages.row64 (V (Proc.devRef .tc main_arg7)) := by
  after_results
  rfl

/-- The per-edge factors: the inverse square roots of the two ends' degrees, multiplied.  The one-pass reading of the
    results stops at the operands of a concatenation (its evidence depends on them); the loop reads those. -/
theorem h0_v27 : StableHlo.after (hostOps0 (F := Ideal)) V (Proc.devRef .tc main_v27) = Stages.norm (V (Proc.devRef .tc main_arg1)) := by
  after_results_simp
  repeat (first
    | rw [StableHlo.reshape_result] | rw [StableHlo.unary_result] | rw [StableHlo.nullary_result]
    | (rw [StableHlo.binary_result_ne]; rotate_left; decide) | (rw [StableHlo.nullary_result_ne]; rotate_left; decide)
    | (rw [StableHlo.reshape_result_ne]; rotate_left; decide) | (rw [StableHlo.unary_result_ne]; rotate_left; decide))
  rfl

/-- The 16-wide aggregation. -/
theorem h0_v39 : StableHlo.after (hostOps0 (F := Ideal)) V (Proc.devRef .tc main_v39)
    = Stages.agg16 (V (Proc.devRef .tc main_arg0)) (V (Proc.devRef .tc main_arg1)) := by
  after_results_simp
  repeat (first
    | rw [StableHlo.reshape_result] | rw [StableHlo.unary_result] | rw [StableHlo.nullary_result]
    | (rw [StableHlo.binary_result_ne]; rotate_left; decide) | (rw [StableHlo.nullary_result_ne]; rotate_left; decide)
    | (rw [StableHlo.reshape_result_ne]; rotate_left; decide) | (rw [StableHlo.unary_result_ne]; rotate_left; decide))
  rfl

/-- The 64-wide aggregation over the entry contents' edge ends, factors and rows. -/
theorem h2_v54 : StableHlo.after (hostOps2 (F := Ideal)) V (Proc.devRef .tc main_v54)
    = Host.scatterAdd scatter_S100000x64_S1700000x1_S1700000x64_1_0_0_1
        (broadcastInDim S100000x64 ![] Facts₀.bcast_S_S100000x64 (constant (F := Ideal) S_ .f32 0x00000000#32))
        (Stages.col (V (Proc.devRef .tc main_v6)))
        (mulf (Host.gather gather_S100000x64_S1700000x1_S1700000x64_1_0_n_n_0_1_164 (V (Proc.devRef .tc main_v42))
            (Stages.col (Stages.wrap (V (Proc.devRef .tc main_v5)))))
          (broadcastInDim S1700000x64 ![0, 1] Facts₀.bcast_S1700000x1_S1700000x64_0_1 (V (Proc.devRef .tc main_v27)))) := by
  after_results_simp
  rfl

theorem h2_v55 : StableHlo.after (hostOps2 (F := Ideal)) V (Proc.devRef .tc main_v55) = Stages.row64 (V (Proc.devRef .tc main_arg9)) := by
  after_results
  rfl

theorem h2_v56 : StableHlo.after (hostOps2 (F := Ideal)) V (Proc.devRef .tc main_v56) = Stages.bcol (V (Proc.devRef .tc main_arg2)) := by
  after_results
  rfl

/-- The per-graph sums over the counts floored at one. -/
theorem h3_v62 : StableHlo.after (hostOps3 (F := Ideal)) V (Proc.devRef .tc main_v62)
    = Host.divf (F := Ideal) (V (Proc.devRef .tc main_v57_0))
        (broadcastInDim S256x64 ![0, 1] Facts₀.bcast_S256x1_S256x64_0_1
          (maximumf (shapeCast _ (V (Proc.devRef .tc main_v57_1)) Facts₀.shapeCasts_S1x256_S256x1)
            (broadcastInDim S256x1 ![] Facts₀.bcast_S_S256x1 (constant (F := Ideal) S_ .f32 0x3F800000#32)))) := by
  after_results
  rfl

/-- The fourth stretch does not write the first embedding. -/
theorem h5_keep_v62 : StableHlo.after (hostOps5 (F := Ideal)) V (Proc.devRef .tc main_v62) = V (Proc.devRef .tc main_v62) :=
  keep_of V _ [main_v62] (by
    simp only [hostOps5, List.Forall, StableHlo.nullary_writes, StableHlo.unary_writes, StableHlo.binary_writes,
      StableHlo.ternary_writes, StableHlo.reshape_writes, Finset.mem_singleton]
    repeat' apply And.intro
    all_goals exact fun r hr => StableHlo.devRef_ne_of_ne (ne_of_mem_of_not_mem hr (by decide))) (by decide)

end Host

/-! ## The boundaries, in order -/

section Walk

variable (m : (ℓ : Loc nD τ sig) → Buf (Elt Ideal) ℓ) (ρ : Dev nD → PrngReg) (c : Dev nD)

/-- An argument array in the launch memory. -/
abbrev arg (r : Ref sig .tc) : Buf (Elt Ideal) ((c.tc : Thread nD τ).loc r) := m ((c.tc : Thread nD τ).loc r)

/-! ### After the first stretch -/

theorem W1_v5 : W1 m ρ c (Proc.devRef .tc main_v5) = Stages.ends0 (arg m c main_arg1) := h0_v5 (W0 m ρ c)
theorem W1_v6 : W1 m ρ c (Proc.devRef .tc main_v6) = Stages.ends1 (arg m c main_arg1) := h0_v6 (W0 m ρ c)
theorem W1_v27 : W1 m ρ c (Proc.devRef .tc main_v27) = Stages.norm (arg m c main_arg1) := h0_v27 (W0 m ρ c)
theorem W1_v39 : W1 m ρ c (Proc.devRef .tc main_v39) = Stages.agg16 (arg m c main_arg0) (arg m c main_arg1) := h0_v39 (W0 m ρ c)
theorem W1_v40 : W1 m ρ c (Proc.devRef .tc main_v40) = Stages.row64 (arg m c main_arg7) := h0_v40 (W0 m ρ c)
theorem W1_arg {r : Ref sig .tc} (hr : r ∈ lateArgs) : W1 m ρ c (Proc.devRef .tc r) = arg m c r := h0_keep (W0 m ρ c) hr

/-! ### The first convolution's dense transform (region 0) and the product with the second weights (region 1) -/

theorem W2_v41 (RF : RegionFacts) : W2 m ρ c (Proc.devRef .tc main_v41)
    = Stages.h1 (arg m c main_arg0) (arg m c main_arg1) (arg m c main_arg6) (arg m c main_arg7) := by
  refine (W2_arr m ρ c 3).trans ((RF.r0 (V1 m ρ) c).trans ?_)
  rw [show V1 m ρ c (Pipeline.arrRef spec0 0) = Stages.agg16 (arg m c main_arg0) (arg m c main_arg1) from W1_v39 m ρ c,
    show V1 m ρ c (Pipeline.arrRef spec0 1) = arg m c main_arg6 from W1_arg m ρ c (by decide),
    show V1 m ρ c (Pipeline.arrRef spec0 2) = Stages.row64 (arg m c main_arg7) from W1_v40 m ρ c]
  rfl

/-- A buffer region 0 does not own, read after it. -/
theorem W2_arg8 : W2 m ρ c (Proc.devRef .tc main_arg8) = arg m c main_arg8 :=
  (W2_of_ne m ρ c main_arg8 (by decide)).trans (W1_arg m ρ c (by decide))

theorem W3_v42 (RF : RegionFacts) : W3 m ρ c (Proc.devRef .tc main_v42)
    = Stages.lin (arg m c main_arg0) (arg m c main_arg1) (arg m c main_arg6) (arg m c main_arg7) (arg m c main_arg8) := by
  refine (W3_arr m ρ c 2).trans ((RF.r1 (V2 m ρ) c).trans ?_)
  rw [show V2 m ρ c (Pipeline.arrRef spec1 0)
        = Stages.h1 (arg m c main_arg0) (arg m c main_arg1) (arg m c main_arg6) (arg m c main_arg7) from W2_v41 m ρ c RF,
    show V2 m ρ c (Pipeline.arrRef spec1 1) = arg m c main_arg8 from W2_arg8 m ρ c]
  rfl

/-- What the first stretch wrote and the second reads passes regions 0 and 1, which own none of it. -/
theorem W3_of_W1 (r : Ref sig .tc) (h0 : ∀ w, Pipeline.arrRef spec0 w ≠ r) (h1 : ∀ w, Pipeline.arrRef spec1 w ≠ r) :
    W3 m ρ c (Proc.devRef .tc r) = W1 m ρ c (Proc.devRef .tc r) :=
  (W3_of_ne m ρ c r h1).trans (W2_of_ne m ρ c r h0)

theorem W3_v5 : W3 m ρ c (Proc.devRef .tc main_v5) = Stages.ends0 (arg m c main_arg1) :=
  (W3_of_W1 m ρ c main_v5 (by decide) (by decide)).trans (W1_v5 m ρ c)
theorem W3_v6 : W3 m ρ c (Proc.devRef .tc main_v6) = Stages.ends1 (arg m c main_arg1) :=
  (W3_of_W1 m ρ c main_v6 (by decide) (by decide)).trans (W1_v6 m ρ c)
theorem W3_v27 : W3 m ρ c (Proc.devRef .tc main_v27) = Stages.norm (arg m c main_arg1) :=
  (W3_of_W1 m ρ c main_v27 (by decide) (by decide)).trans (W1_v27 m ρ c)
theorem W3_arg9 : W3 m ρ c (Proc.devRef .tc main_arg9) = arg m c main_arg9 :=
  (W3_of_W1 m ρ c main_arg9 (by decide) (by decide)).trans (W1_arg m ρ c (by decide))
theorem W3_arg2 : W3 m ρ c (Proc.devRef .tc main_arg2) = arg m c main_arg2 :=
  (W3_of_W1 m ρ c main_arg2 (by decide) (by decide)).trans (W1_arg m ρ c (by decide))

/-! ### After the second stretch, and the pooling (region 2) -/

theorem W4_v54 (RF : RegionFacts) : W4 m ρ c (Proc.devRef .tc main_v54)
    = Stages.agg64 (arg m c main_arg0) (arg m c main_arg1) (arg m c main_arg6) (arg m c main_arg7) (arg m c main_arg8) := by
  refine (h2_v54 (W3 m ρ c)).trans ?_
  rw [W3_v6 m ρ c, W3_v42 m ρ c RF, W3_v5 m ρ c, W3_v27 m ρ c]
  rfl

theorem W4_v55 : W4 m ρ c (Proc.devRef .tc main_v55) = Stages.row64 (arg m c main_arg9) :=
  (h2_v55 (W3 m ρ c)).trans (congrArg Stages.row64 (W3_arg9 m ρ c))

theorem W4_v56 : W4 m ρ c (Proc.devRef .tc main_v56) = Stages.bcol (arg m c main_arg2) :=
  (h2_v56 (W3 m ρ c)).trans (congrArg Stages.bcol (W3_arg2 m ρ c))

theorem W5_v57_0 (RF : RegionFacts) : W5 m ρ c (Proc.devRef .tc main_v57_0)
    = Stages.psum (arg m c main_arg0) (arg m c main_arg1) (arg m c main_arg2) (arg m c main_arg6) (arg m c main_arg7)
        (arg m c main_arg8) (arg m c main_arg9) := by
  refine (W5_arr m ρ c 3).trans ((RF.r2s (V4 m ρ) c).trans ?_)
  rw [show V4 m ρ c (Pipeline.arrRef spec2 0)
        = Stages.agg64 (arg m c main_arg0) (arg m c main_arg1) (arg m c main_arg6) (arg m c main_arg7) (arg m c main_arg8)
        from W4_v54 m ρ c RF,
    show V4 m ρ c (Pipeline.arrRef spec2 1) = Stages.row64 (arg m c main_arg9) from W4_v55 m ρ c,
    show V4 m ρ c (Pipeline.arrRef spec2 2) = Stages.bcol (arg m c main_arg2) from W4_v56 m ρ c]
  rfl

theorem W5_v57_1 (RF : RegionFacts) : W5 m ρ c (Proc.devRef .tc main_v57_1) = Stages.pcnt (arg m c main_arg2) := by
  refine (W5_arr m ρ c 4).trans ((RF.r2c (V4 m ρ) c).trans ?_)
  rw [show V4 m ρ c (Pipeline.arrRef spec2 2) = Stages.bcol (arg m c main_arg2) from W4_v56 m ρ c]
  rfl

/-! ### The first embedding, written by the third stretch and left alone up to the last one -/

theorem W6_v62 (RF : RegionFacts) : W6 m ρ c (Proc.devRef .tc main_v62)
    = Stages.emb (arg m c main_arg0) (arg m c main_arg1) (arg m c main_arg2) (arg m c main_arg6) (arg m c main_arg7)
        (arg m c main_arg8) (arg m c main_arg9) := by
  refine (h3_v62 (W5 m ρ c)).trans ?_
  rw [W5_v57_0 m ρ c RF, W5_v57_1 m ρ c RF]
  rfl

end Walk

/-- The first graph batch's embedding at the entry of the last stretch: regions 3, 4 and 5 own other buffers and the
    fourth stretch writes others. -/
theorem side1_emb (R : RegionFacts) (m : (ℓ : Loc nD τ sig) → Buf (Elt Ideal) ℓ) (ρ : Dev nD → PrngReg) (c : Dev nD) : W10 (F := Ideal) m ρ c (Proc.devRef .tc main_v62)
    = Stages.emb (m ((c.tc : Thread nD τ).loc main_arg0)) (m ((c.tc : Thread nD τ).loc main_arg1))
        (m ((c.tc : Thread nD τ).loc main_arg2)) (m ((c.tc : Thread nD τ).loc main_arg6))
        (m ((c.tc : Thread nD τ).loc main_arg7)) (m ((c.tc : Thread nD τ).loc main_arg8))
        (m ((c.tc : Thread nD τ).loc main_arg9)) :=
  calc W10 m ρ c (Proc.devRef .tc main_v62)
    _ = W9 m ρ c (Proc.devRef .tc main_v62) := W10_of_ne m ρ c main_v62 (by decide)
    _ = W8 m ρ c (Proc.devRef .tc main_v62) := h5_keep_v62 (W8 m ρ c)
    _ = W7 m ρ c (Proc.devRef .tc main_v62) := W8_of_ne m ρ c main_v62 (by decide)
    _ = W6 m ρ c (Proc.devRef .tc main_v62) := W7_of_ne m ρ c main_v62 (by decide)
    _ = _ := W6_v62 m ρ c R

end Cert.KernelIdeal.Thread

end
-- ==== Proof.KernelThread2.lean ====
/-
  The second graph's side of the kernel program, threaded from the launch memory to the sixth region's exit.

  The program's run folds the buffer contents through host stretches and regions.  Read at the buffers of the second
  side, that fold is: the host stretch before the fourth region rebuilds the edge columns, the normalisation and the first
  aggregation from the launch arguments; the fourth region leaves the first convolution's output, the fifth its product
  with the second weight matrix; the next host stretch aggregates those rows; the sixth region pools them per graph.
  Each step is one small equation, and the two results are the per-graph sums and the per-graph node counts as the stage
  functions of the launch arguments.
-/
import proofs.«425248_j7627861918208_2_alg».proof.Proof.RegionFacts
import proofs.«425248_j7627861918208_2_alg».proof.Proof.KernelStages
import Idealize.ShloMosaic.Lib.StableHlo.Run

set_option maxRecDepth 16384

noncomputable section

namespace Cert.KernelIdeal.Thread

namespace Side2

section Shapes
open Cert.KernelIdeal Cert.KernelIdeal.Facts₀ Cert.KernelIdeal.Facts Idealize.ShloMosaic

/-- The second aggregation as a function of the arrays it reads: per target node (column `e1`), the sum of the rows of
    `y` at the wrapped source nodes (column `e0`) scaled by the edge factor `nrm`. -/
def agg64Of (y : Stages.FArr S100000x64) (e0 e1 : Stages.IArr S1700000) (nrm : Stages.FArr S1700000x1) : Stages.FArr S100000x64 :=
  Host.scatterAdd scatter_S100000x64_S1700000x1_S1700000x64_1_0_0_1 (broadcastInDim S100000x64 ![] bcast_S_S100000x64 (constant (F := Ideal) S_ .f32 0x00000000#32)) (Stages.col e1) (mulf (Host.gather gather_S100000x64_S1700000x1_S1700000x64_1_0_n_n_0_1_164 y (Stages.col (Stages.wrap e0))) (broadcastInDim S1700000x64 ![0, 1] bcast_S1700000x1_S1700000x64_0_1 nrm))

/-- The stage function is that aggregation of its own earlier stages. -/
theorem agg64_eq (x : Stages.FArr S100000x16) (e : Stages.IArr S2x1600000) (W1 : Stages.FArr S16x64) (b1 : Stages.FArr S64) (W2 : Stages.FArr S64x64) :
    Stages.agg64 x e W1 b1 W2 = agg64Of (Stages.lin x e W1 b1 W2) (Stages.ends0 e) (Stages.ends1 e) (Stages.norm e) := rfl

end Shapes

open Cert.KernelIdeal Cert.KernelIdeal.Gen Idealize.ShloMosaic Idealize.ShloMosaic.TcCoe

/-- A stretch of host operations leaves a buffer that none of them writes as it was: the stretch is unfolded to its
    literal list and the buffer told apart from each operation's result buffer. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Reads a buffer through a nest of host operations' results: at the operation that writes the buffer its function's
    value, at any other what was there before. -/
local macro "peel_results" : tactic =>
  `(tactic| (repeat (first
               | (rw [StableHlo.unary_result_ne]; rotate_left; decide)
               | (rw [StableHlo.binary_result_ne]; rotate_left; decide)
               | (rw [StableHlo.reshape_result_ne]; rotate_left; decide)
               | (rw [StableHlo.nullary_result_ne]; rotate_left; decide)
               | (rw [StableHlo.ternary_result_ne]; rotate_left; decide)
               | rw [StableHlo.reshape_result] | rw [StableHlo.unary_result] | rw [StableHlo.nullary_result]
               | rw [StableHlo.binary_result] | rw [StableHlo.ternary_result])))

/-! ### What the host stretch before the fourth region computes, from any contents `V` of the buffers

Its second part rebuilds, for the second graph, the edge list's two columns with a self loop per node, the per-edge
normalisation and the first aggregation; its operations are the stage functions' bodies term for term.  The short reads
rewrite operation by operation; the two long ones first rewrite everything but the operands of the concatenations in one
pass, then those. -/

theorem h3_v68 (V : Valuation τ sig (Elt Ideal)) :
    StableHlo.after (hostOps3 (F := Ideal)) V (Proc.devRef .tc main_v68) = Stages.ends0 (V (Proc.devRef .tc main_arg4)) := by
  open StableHlo in after_results
  rfl

theorem h3_v69 (V : Valuation τ sig (Elt Ideal)) :
    StableHlo.after (hostOps3 (F := Ideal)) V (Proc.devRef .tc main_v69) = Stages.ends1 (V (Proc.devRef .tc main_arg4)) := by
  open StableHlo in after_results
  rfl

theorem h3_v103 (V : Valuation τ sig (Elt Ideal)) :
    StableHlo.after (hostOps3 (F := Ideal)) V (Proc.devRef .tc main_v103) = Stages.row64 (V (Proc.devRef .tc main_arg7)) := by
  open StableHlo in after_results
  rfl

set_option maxHeartbeats 1000000 in
theorem h3_v90 (V : Valuation τ sig (Elt Ideal)) :
    StableHlo.after (hostOps3 (F := Ideal)) V (Proc.devRef .tc main_v90) = Stages.norm (V (Proc.devRef .tc main_arg4)) := by
  open StableHlo in after_results_simp
  peel_results
  unfold Stages.norm Stages.dinv Stages.deg Stages.col Stages.wrap Stages.ends0 Stages.ends1
  congr 2

set_option maxHeartbeats 1000000 in
theorem h3_v102 (V : Valuation τ sig (Elt Ideal)) :
    StableHlo.after (hostOps3 (F := Ideal)) V (Proc.devRef .tc main_v102)
      = Stages.agg16 (V (Proc.devRef .tc main_arg3)) (V (Proc.devRef .tc main_arg4)) := by
  open StableHlo in after_results_simp
  peel_results
  unfold Stages.agg16 Stages.norm Stages.dinv Stages.deg Stages.col Stages.wrap Stages.ends0 Stages.ends1
  congr 2

/-! ### What the host stretch before the sixth region computes, from any contents `V`: the second aggregation, over
    the arrays the earlier stretch left (edge columns, normalisation) and the fifth region's product -/

theorem h5_v117 (V : Valuation τ sig (Elt Ideal)) :
    StableHlo.after (hostOps5 (F := Ideal)) V (Proc.devRef .tc main_v117)
      = agg64Of (V (Proc.devRef .tc main_v105)) (V (Proc.devRef .tc main_v68)) (V (Proc.devRef .tc main_v69))
          (V (Proc.devRef .tc main_v90)) := by
  open StableHlo in after_results_simp
  rfl

theorem h5_v118 (V : Valuation τ sig (Elt Ideal)) :
    StableHlo.after (hostOps5 (F := Ideal)) V (Proc.devRef .tc main_v118) = Stages.row64 (V (Proc.devRef .tc main_arg9)) := by
  open StableHlo in after_results_simp
  rfl

theorem h5_v119 (V : Valuation τ sig (Elt Ideal)) :
    StableHlo.after (hostOps5 (F := Ideal)) V (Proc.devRef .tc main_v119) = Stages.bcol (V (Proc.devRef .tc main_arg5)) := by
  open StableHlo in after_results_simp
  rfl

section Reads
variable (m : (ℓ : Loc nD τ sig) → Buf (Elt Ideal) ℓ) (ρ : Dev nD → PrngReg) (c : Dev nD)

/-! ### The arguments at the second side's first boundary (after the third region): as launched -/

theorem W5_arg3 : W5 m ρ c (Proc.devRef .tc main_arg3) = m ((c.tc : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := by host_keeps hostOps2
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := by host_keeps hostOps0
    _ = m ((c.tc : Thread nD τ).loc main_arg3) := rfl

theorem W5_arg4 : W5 m ρ c (Proc.devRef .tc main_arg4) = m ((c.tc : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by host_keeps hostOps2
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by host_keeps hostOps0
    _ = m ((c.tc : Thread nD τ).loc main_arg4) := rfl

theorem W5_arg5 : W5 m ρ c (Proc.devRef .tc main_arg5) = m ((c.tc : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by host_keeps hostOps2
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by host_keeps hostOps0
    _ = m ((c.tc : Thread nD τ).loc main_arg5) := rfl

theorem W5_arg6 : W5 m ρ c (Proc.devRef .tc main_arg6) = m ((c.tc : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by host_keeps hostOps2
    _ = W2 m ρ c (Proc.devRef .tc main_arg6) := W3_of_ne m ρ c main_arg6 (by decide)
    _ = W1 m ρ c (Proc.devRef .tc main_arg6) := (W2_arr m ρ c 1).trans (((dat0 (V1 m ρ) c).arrAt_in 1 rfl _).trans (A_eq0 (V1 m ρ) c 1))
    _ = W0 m ρ c (Proc.devRef .tc main_arg6) := by host_keeps hostOps0
    _ = m ((c.tc : Thread nD τ).loc main_arg6) := rfl

theorem W5_arg7 : W5 m ρ c (Proc.devRef .tc main_arg7) = m ((c.tc : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by host_keeps hostOps2
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by host_keeps hostOps0
    _ = m ((c.tc : Thread nD τ).loc main_arg7) := rfl

theorem W5_arg8 : W5 m ρ c (Proc.devRef .tc main_arg8) = m ((c.tc : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by host_keeps hostOps2
    _ = W2 m ρ c (Proc.devRef .tc main_arg8) := (W3_arr m ρ c 1).trans (((dat1 (V2 m ρ) c).arrAt_in 1 rfl _).trans (A_eq1 (V2 m ρ) c 1))
    _ = W1 m ρ c (Proc.devRef .tc main_arg8) := W2_of_ne m ρ c main_arg8 (by decide)
    _ = W0 m ρ c (Proc.devRef .tc main_arg8) := by host_keeps hostOps0
    _ = m ((c.tc : Thread nD τ).loc main_arg8) := rfl

theorem W5_arg9 : W5 m ρ c (Proc.devRef .tc main_arg9) = m ((c.tc : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by host_keeps hostOps2
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by host_keeps hostOps0
    _ = m ((c.tc : Thread nD τ).loc main_arg9) := rfl

/-! ### The arguments further on: the host stretch before the fourth region writes none of them, and the fourth and
    fifth regions hand their input arrays back as entered -/

theorem W6_arg5 : W6 m ρ c (Proc.devRef .tc main_arg5) = m ((c.tc : Thread nD τ).loc main_arg5) :=
  (show W6 m ρ c (Proc.devRef .tc main_arg5) = W5 m ρ c (Proc.devRef .tc main_arg5) by host_keeps hostOps3).trans (W5_arg5 m ρ c)
theorem W6_arg6 : W6 m ρ c (Proc.devRef .tc main_arg6) = m ((c.tc : Thread nD τ).loc main_arg6) :=
  (show W6 m ρ c (Proc.devRef .tc main_arg6) = W5 m ρ c (Proc.devRef .tc main_arg6) by host_keeps hostOps3).trans (W5_arg6 m ρ c)
theorem W6_arg8 : W6 m ρ c (Proc.devRef .tc main_arg8) = m ((c.tc : Thread nD τ).loc main_arg8) :=
  (show W6 m ρ c (Proc.devRef .tc main_arg8) = W5 m ρ c (Proc.devRef .tc main_arg8) by host_keeps hostOps3).trans (W5_arg8 m ρ c)
theorem W6_arg9 : W6 m ρ c (Proc.devRef .tc main_arg9) = m ((c.tc : Thread nD τ).loc main_arg9) :=
  (show W6 m ρ c (Proc.devRef .tc main_arg9) = W5 m ρ c (Proc.devRef .tc main_arg9) by host_keeps hostOps3).trans (W5_arg9 m ρ c)

theorem W7_arg5 : W7 m ρ c (Proc.devRef .tc main_arg5) = m ((c.tc : Thread nD τ).loc main_arg5) :=
  (W7_of_ne m ρ c main_arg5 (by decide)).trans (W6_arg5 m ρ c)
theorem W7_arg8 : W7 m ρ c (Proc.devRef .tc main_arg8) = m ((c.tc : Thread nD τ).loc main_arg8) :=
  (W7_of_ne m ρ c main_arg8 (by decide)).trans (W6_arg8 m ρ c)
theorem W7_arg9 : W7 m ρ c (Proc.devRef .tc main_arg9) = m ((c.tc : Thread nD τ).loc main_arg9) :=
  (W7_of_ne m ρ c main_arg9 (by decide)).trans (W6_arg9 m ρ c)

theorem W8_arg5 : W8 m ρ c (Proc.devRef .tc main_arg5) = m ((c.tc : Thread nD τ).loc main_arg5) :=
  (W8_of_ne m ρ c main_arg5 (by decide)).trans (W7_arg5 m ρ c)
theorem W8_arg9 : W8 m ρ c (Proc.devRef .tc main_arg9) = m ((c.tc : Thread nD τ).loc main_arg9) :=
  (W8_of_ne m ρ c main_arg9 (by decide)).trans (W7_arg9 m ρ c)

/-! ### The second side's arrays at each boundary, as stage functions of the launch arguments -/

theorem W6_v68 : W6 m ρ c (Proc.devRef .tc main_v68) = Stages.ends0 (m ((c.tc : Thread nD τ).loc main_arg4)) :=
  (h3_v68 (W5 m ρ c)).trans (congrArg Stages.ends0 (W5_arg4 m ρ c))
theorem W6_v69 : W6 m ρ c (Proc.devRef .tc main_v69) = Stages.ends1 (m ((c.tc : Thread nD τ).loc main_arg4)) :=
  (h3_v69 (W5 m ρ c)).trans (congrArg Stages.ends1 (W5_arg4 m ρ c))
theorem W6_v90 : W6 m ρ c (Proc.devRef .tc main_v90) = Stages.norm (m ((c.tc : Thread nD τ).loc main_arg4)) :=
  (h3_v90 (W5 m ρ c)).trans (congrArg Stages.norm (W5_arg4 m ρ c))
theorem W6_v102 : W6 m ρ c (Proc.devRef .tc main_v102) = Stages.agg16 (m ((c.tc : Thread nD τ).loc main_arg3)) (m ((c.tc : Thread nD τ).loc main_arg4)) :=
  (h3_v102 (W5 m ρ c)).trans (congrArg₂ Stages.agg16 (W5_arg3 m ρ c) (W5_arg4 m ρ c))
theorem W6_v103 : W6 m ρ c (Proc.devRef .tc main_v103) = Stages.row64 (m ((c.tc : Thread nD τ).loc main_arg7)) :=
  (h3_v103 (W5 m ρ c)).trans (congrArg Stages.row64 (W5_arg7 m ρ c))

/-- The fourth region: the first convolution's output, from the aggregation, the first weight matrix and the bias row
    it finds at its entry. -/
theorem W7_v104 (R : RegionFacts) :
    W7 m ρ c (Proc.devRef .tc main_v104) = Stages.h1 (m ((c.tc : Thread nD τ).loc main_arg3)) (m ((c.tc : Thread nD τ).loc main_arg4)) (m ((c.tc : Thread nD τ).loc main_arg6)) (m ((c.tc : Thread nD τ).loc main_arg7)) := by
  refine (W7_arr m ρ c 3).trans ((R.r3 (V6 m ρ) c).trans ?_)
  rw [show V6 m ρ c (Pipeline.arrRef spec3 0) = Stages.agg16 (m ((c.tc : Thread nD τ).loc main_arg3)) (m ((c.tc : Thread nD τ).loc main_arg4)) from W6_v102 m ρ c,
    show V6 m ρ c (Pipeline.arrRef spec3 1) = (m ((c.tc : Thread nD τ).loc main_arg6)) from W6_arg6 m ρ c,
    show V6 m ρ c (Pipeline.arrRef spec3 2) = Stages.row64 (m ((c.tc : Thread nD τ).loc main_arg7)) from W6_v103 m ρ c]
  rfl

/-- The fourth and fifth regions own none of the edge columns and the normalisation. -/
theorem W7_v68 : W7 m ρ c (Proc.devRef .tc main_v68) = Stages.ends0 (m ((c.tc : Thread nD τ).loc main_arg4)) :=
  (W7_of_ne m ρ c main_v68 (by decide)).trans (W6_v68 m ρ c)
theorem W7_v69 : W7 m ρ c (Proc.devRef .tc main_v69) = Stages.ends1 (m ((c.tc : Thread nD τ).loc main_arg4)) :=
  (W7_of_ne m ρ c main_v69 (by decide)).trans (W6_v69 m ρ c)
theorem W7_v90 : W7 m ρ c (Proc.devRef .tc main_v90) = Stages.norm (m ((c.tc : Thread nD τ).loc main_arg4)) :=
  (W7_of_ne m ρ c main_v90 (by decide)).trans (W6_v90 m ρ c)

/-- The fifth region: the product of the first convolution's output with the second weight matrix. -/
theorem W8_v105 (R : RegionFacts) :
    W8 m ρ c (Proc.devRef .tc main_v105) = Stages.lin (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  refine (W8_arr m ρ c 2).trans ((R.r4 (V7 m ρ) c).trans ?_)
  rw [show V7 m ρ c (Pipeline.arrRef spec4 0) = Stages.h1 (m ((c.tc : Thread nD τ).loc main_arg3)) (m ((c.tc : Thread nD τ).loc main_arg4)) (m ((c.tc : Thread nD τ).loc main_arg6)) (m ((c.tc : Thread nD τ).loc main_arg7)) from W7_v104 m ρ c R,
    show V7 m ρ c (Pipeline.arrRef spec4 1) = (m ((c.tc : Thread nD τ).loc main_arg8)) from W7_arg8 m ρ c]
  rfl

theorem W8_v68 : W8 m ρ c (Proc.devRef .tc main_v68) = Stages.ends0 (m ((c.tc : Thread nD τ).loc main_arg4)) :=
  (W8_of_ne m ρ c main_v68 (by decide)).trans (W7_v68 m ρ c)
theorem W8_v69 : W8 m ρ c (Proc.devRef .tc main_v69) = Stages.ends1 (m ((c.tc : Thread nD τ).loc main_arg4)) :=
  (W8_of_ne m ρ c main_v69 (by decide)).trans (W7_v69 m ρ c)
theorem W8_v90 : W8 m ρ c (Proc.devRef .tc main_v90) = Stages.norm (m ((c.tc : Thread nD τ).loc main_arg4)) :=
  (W8_of_ne m ρ c main_v90 (by decide)).trans (W7_v90 m ρ c)

/-- The host stretch before the sixth region: the second aggregation, the second bias as a row, the graph numbers as a
    column. -/
theorem W9_v117 (R : RegionFacts) :
    W9 m ρ c (Proc.devRef .tc main_v117) = Stages.agg64 (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  refine (h5_v117 (W8 m ρ c)).trans ?_
  rw [W8_v105 m ρ c R, W8_v68 m ρ c, W8_v69 m ρ c, W8_v90 m ρ c]
  exact (agg64_eq _ _ _ _ _).symm
theorem W9_v118 : W9 m ρ c (Proc.devRef .tc main_v118) = Stages.row64 (m ((c.tc : Thread nD τ).loc main_arg9)) :=
  (h5_v118 (W8 m ρ c)).trans (congrArg Stages.row64 (W8_arg9 m ρ c))
theorem W9_v119 : W9 m ρ c (Proc.devRef .tc main_v119) = Stages.bcol (m ((c.tc : Thread nD τ).loc main_arg5)) :=
  (h5_v119 (W8 m ρ c)).trans (congrArg Stages.bcol (W8_arg5 m ρ c))

end Reads

end Side2

open Cert.KernelIdeal Cert.KernelIdeal.Gen Idealize.ShloMosaic Idealize.ShloMosaic.TcCoe

/-- At the sixth region's exit the second side's sum buffer holds the per-graph sums of `max (agg64 + b2) 0`: the region
    pools the three arrays it finds at its entry, which are the second aggregation, the bias row and the graph column. -/
theorem side2_sum (R : RegionFacts) (m : (ℓ : Loc nD τ sig) → Buf (Elt Ideal) ℓ) (ρ : Dev nD → PrngReg) (c : Dev nD) :
    W10 (F := Ideal) m ρ c (Proc.devRef .tc main_v120_0) = Stages.psum (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 3).trans ((R.r5s (V9 m ρ) c).trans ?_)
  rw [show V9 m ρ c (Pipeline.arrRef spec5 0) = Stages.agg64 (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) from Side2.W9_v117 m ρ c R,
    show V9 m ρ c (Pipeline.arrRef spec5 1) = Stages.row64 (m ((c.tc : Thread nD τ).loc main_arg9)) from Side2.W9_v118 m ρ c,
    show V9 m ρ c (Pipeline.arrRef spec5 2) = Stages.bcol (m ((c.tc : Thread nD τ).loc main_arg5)) from Side2.W9_v119 m ρ c]
  rfl

/-- And its count buffer the per-graph node counts. -/
theorem side2_cnt (R : RegionFacts) (m : (ℓ : Loc nD τ sig) → Buf (Elt Ideal) ℓ) (ρ : Dev nD → PrngReg) (c : Dev nD) :
    W10 (F := Ideal) m ρ c (Proc.devRef .tc main_v120_1) = Stages.pcnt (m ((c.tc : Thread nD τ).loc main_arg5)) := by
  refine (W10_arr m ρ c 4).trans ((R.r5c (V9 m ρ) c).trans ?_)
  rw [show V9 m ρ c (Pipeline.arrRef spec5 2) = Stages.bcol (m ((c.tc : Thread nD τ).loc main_arg5)) from Side2.W9_v119 m ρ c]
  rfl

end Cert.KernelIdeal.Thread

end
-- ==== Proof.KernelThread3.lean ====
/-
  The end of the kernel program's run: the last host stretch and the head.

  At the sixth region's exit three buffers matter: side 1's embedding, carried along unchanged since side 1 ended, and
  side 2's per-graph sums and counts.  The last host stretch floors the counts at one, divides the sums by them, puts
  the two embeddings side by side and turns the head's two biases into rows.  The seventh region then leaves in the
  result buffer the two-layer head of those arrays.  So the result buffer at the last boundary is the head of the two
  embeddings with the weights and biases of the launch memory — nothing before the seventh region writes them.
-/
import proofs.«425248_j7627861918208_2_alg».proof.Proof.RegionFacts
import proofs.«425248_j7627861918208_2_alg».proof.Proof.KernelStages
import Idealize.ShloMosaic.Lib.StableHlo.Run

set_option maxRecDepth 16384

noncomputable section

namespace Cert.KernelIdeal.Thread

open Cert.KernelIdeal Cert.KernelIdeal.Gen Idealize.ShloMosaic Idealize.ShloMosaic.TcCoe

/-- A buffer that no operation of a host stretch writes holds after the stretch what it held before: the stretch is
    spelled out as its list of operations and the buffer is told apart from each operation's result buffer. -/
local macro "unwritten " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

section Reads
variable (m : (ℓ : Loc nD τ sig) → Buf (Elt Ideal) ℓ) (ρ : Dev nD → PrngReg) (c : Dev nD)

/-! ### The head's four arguments before the last host stretch: as launched

No host operation and none of the first six regions writes the head's weights and biases, so the contents at the
sixth region's exit walk back, boundary by boundary, to the launch memory. -/

private theorem W10_arg10 : W10 m ρ c (Proc.devRef .tc main_arg10) = m ((c.tc : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by unwritten hostOps5
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := by unwritten hostOps3
    _ = W4 m ρ c (Proc.devRef .tc main_arg10) := W5_of_ne m ρ c main_arg10 (by decide)
    _ = W3 m ρ c (Proc.devRef .tc main_arg10) := by unwritten hostOps2
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by unwritten hostOps0
    _ = m ((c.tc : Thread nD τ).loc main_arg10) := rfl

private theorem W10_arg11 : W10 m ρ c (Proc.devRef .tc main_arg11) = m ((c.tc : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by unwritten hostOps5
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := by unwritten hostOps3
    _ = W4 m ρ c (Proc.devRef .tc main_arg11) := W5_of_ne m ρ c main_arg11 (by decide)
    _ = W3 m ρ c (Proc.devRef .tc main_arg11) := by unwritten hostOps2
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by unwritten hostOps0
    _ = m ((c.tc : Thread nD τ).loc main_arg11) := rfl

private theorem W10_arg12 : W10 m ρ c (Proc.devRef .tc main_arg12) = m ((c.tc : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := by unwritten hostOps5
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := by unwritten hostOps3
    _ = W4 m ρ c (Proc.devRef .tc main_arg12) := W5_of_ne m ρ c main_arg12 (by decide)
    _ = W3 m ρ c (Proc.devRef .tc main_arg12) := by unwritten hostOps2
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by unwritten hostOps0
    _ = m ((c.tc : Thread nD τ).loc main_arg12) := rfl

private theorem W10_arg13 : W10 m ρ c (Proc.devRef .tc main_arg13) = m ((c.tc : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := by unwritten hostOps5
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := by unwritten hostOps3
    _ = W4 m ρ c (Proc.devRef .tc main_arg13) := W5_of_ne m ρ c main_arg13 (by decide)
    _ = W3 m ρ c (Proc.devRef .tc main_arg13) := by unwritten hostOps2
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by unwritten hostOps0
    _ = m ((c.tc : Thread nD τ).loc main_arg13) := rfl

end Reads

section Tail
variable (m : (ℓ : Loc nD τ sig) → Buf (Elt Ideal) ℓ) (ρ : Dev nD → PrngReg) (c : Dev nD)

/-! ### The last host stretch and the head

The stretch turns side 2's per-graph counts into a column floored at one, spreads it over the 64 columns, divides side
2's per-graph sums by it, puts side 1's embedding and this quotient side by side, and reshapes the head's two biases
into rows; the head's two weight matrices it leaves alone. -/

/-- The two embeddings side by side. -/
private theorem W11_v126 (e1 s : Stages.FArr S256x64) (cn : Stages.FArr S1x256)
    (h62 : W10 (F := Ideal) m ρ c (Proc.devRef .tc main_v62) = e1)
    (hs : W10 (F := Ideal) m ρ c (Proc.devRef .tc main_v120_0) = s)
    (hc : W10 (F := Ideal) m ρ c (Proc.devRef .tc main_v120_1) = cn) :
    W11 m ρ c (Proc.devRef .tc main_v126)
      = concatenate S256x128 1 [⟨S256x64, e1⟩, ⟨S256x64, Host.divf (F := Ideal) s (broadcastInDim S256x64 ![0, 1] bcast_S256x1_S256x64_0_1 (maximumf (shapeCast _ cn shapeCasts_S1x256_S256x1) (broadcastInDim S256x1 ![] bcast_S_S256x1 (constant (F := Ideal) S_ .f32 0x3F800000#32))))⟩] concatenates_S256x64_S256x64_S256x128_d1 := by
  show StableHlo.after hostOps6 (W10 m ρ c) (Proc.devRef .tc main_v126) = _
  after_results
  rw [h62, hs, hc]
  rfl

/-- The first bias as a row. -/
private theorem W11_v127 : W11 m ρ c (Proc.devRef .tc main_v127) = Stages.row64 (m ((c.tc : Thread nD τ).loc main_arg11)) := by
  show StableHlo.after hostOps6 (W10 m ρ c) (Proc.devRef .tc main_v127) = _
  after_results
  rw [W10_arg11]
  rfl

/-- The second bias as a row. -/
private theorem W11_v128 : W11 m ρ c (Proc.devRef .tc main_v128) = shapeCast _ (m ((c.tc : Thread nD τ).loc main_arg13)) shapeCasts_S2_S1x2 := by
  show StableHlo.after hostOps6 (W10 m ρ c) (Proc.devRef .tc main_v128) = _
  after_results
  rw [W10_arg13]
  rfl

/-- The two weight matrices. -/
private theorem W11_arg10 : W11 m ρ c (Proc.devRef .tc main_arg10) = m ((c.tc : Thread nD τ).loc main_arg10) :=
  (show W11 m ρ c (Proc.devRef .tc main_arg10) = W10 m ρ c (Proc.devRef .tc main_arg10) by unwritten hostOps6).trans (W10_arg10 m ρ c)
private theorem W11_arg12 : W11 m ρ c (Proc.devRef .tc main_arg12) = m ((c.tc : Thread nD τ).loc main_arg12) :=
  (show W11 m ρ c (Proc.devRef .tc main_arg12) = W10 m ρ c (Proc.devRef .tc main_arg12) by unwritten hostOps6).trans (W10_arg12 m ρ c)

end Tail

/-- The result buffer at the last boundary: the head of the two embeddings side by side, with the weights and biases as
    launched.  The seventh region leaves in its output array the head of its five input arrays at its entry contents;
    those are what the last host stretch left. -/
theorem tail_eq (R : RegionFacts) (m : (ℓ : Loc nD τ sig) → Buf (Elt Ideal) ℓ) (ρ : Dev nD → PrngReg) (c : Dev nD)
    (e1 : Stages.FArr S256x64) (s : Stages.FArr S256x64) (cn : Stages.FArr S1x256)
    (h62 : W10 (F := Ideal) m ρ c (Proc.devRef .tc main_v62) = e1)
    (hs : W10 (F := Ideal) m ρ c (Proc.devRef .tc main_v120_0) = s)
    (hc : W10 (F := Ideal) m ρ c (Proc.devRef .tc main_v120_1) = cn) :
    W12 (F := Ideal) m ρ c (Proc.devRef .tc main_v129)
      = GCN.head (concatenate S256x128 1 [⟨S256x64, e1⟩, ⟨S256x64, Host.divf (F := Ideal) s (broadcastInDim S256x64 ![0, 1] bcast_S256x1_S256x64_0_1 (maximumf (shapeCast _ cn shapeCasts_S1x256_S256x1) (broadcastInDim S256x1 ![] bcast_S_S256x1 (constant (F := Ideal) S_ .f32 0x3F800000#32))))⟩] concatenates_S256x64_S256x64_S256x128_d1)
          (m ((c.tc : Thread nD τ).loc main_arg10)) (Stages.row64 (m ((c.tc : Thread nD τ).loc main_arg11)))
          (m ((c.tc : Thread nD τ).loc main_arg12)) (shapeCast _ (m ((c.tc : Thread nD τ).loc main_arg13)) shapeCasts_S2_S1x2) := by
  refine (W12_arr m ρ c 5).trans ((R.r6 (V11 m ρ) c).trans ?_)
  show GCN.head (W11 m ρ c (Proc.devRef .tc main_v126)) (W11 m ρ c (Proc.devRef .tc main_arg10))
      (W11 m ρ c (Proc.devRef .tc main_v127)) (W11 m ρ c (Proc.devRef .tc main_arg12)) (W11 m ρ c (Proc.devRef .tc main_v128)) = _
  rw [W11_v126 m ρ c e1 s cn h62 hs hc, W11_arg10, W11_v127, W11_arg12, W11_v128]

end Cert.KernelIdeal.Thread

end
-- ==== Proof.KernelThread.lean ====
/-
  The kernel program's result buffer, at the end of its run, as a function of the fourteen arguments: side 1's
  embedding carried to the last host stretch, side 2's pooled sums and counts, and the last stretch with the head.
-/
import proofs.«425248_j7627861918208_2_alg».proof.Proof.KernelThread1
import proofs.«425248_j7627861918208_2_alg».proof.Proof.KernelThread2
import proofs.«425248_j7627861918208_2_alg».proof.Proof.KernelThread3

set_option maxRecDepth 16384

noncomputable section

namespace Cert.KernelIdeal.Thread

open Cert.KernelIdeal Cert.KernelIdeal.Gen Idealize.ShloMosaic Idealize.ShloMosaic.TcCoe

/-- The result buffer at the last boundary is `Stages.out` of the launch memory's arguments. -/
theorem result_eq (R : RegionFacts) (m : (ℓ : Loc nD τ sig) → Buf (Elt Ideal) ℓ) (ρ : Dev nD → PrngReg) (c : Dev nD) :
    W12 (F := Ideal) m ρ c (Proc.devRef .tc main_v129)
      = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  tail_eq R m ρ c _ _ _ (side1_emb R m ρ c) (side2_sum R m ρ c) (side2_cnt R m ρ c)

end Cert.KernelIdeal.Thread

end
-- ==== Proof.Region0.lean ====
/-
  Regions 0 and 3 of the kernel program: the first convolution's dense transform, block by block.

  Each of the ten points reads a block of 10000 rows of the aggregated features, the whole weight matrix and the
  whole bias row, and writes the block of 10000 rows `max (x·W + b) 0` of the output. Read at the ideal values the
  narrowings to bf16 are the identity and the block product into the zero accumulator is the plain sum over the
  16 contracted coordinates, so entry `(r, j)` of a block is `max ((∑ a, x (r, a) * W (a, j)) + b (0, j)) 0`
  (`pay_apply`); block `t` of the output is rows `10000 t … 10000 t + 9999`, the features' block `t` the same rows
  of the features (`flushed0_eq`); the ten blocks cover the array (`cover0`); so the array the region leaves is
  `GCN.layer1` of its three input arrays (`region0_value`). Region 3 is the same kernel on other arrays.
-/
import proofs.«425248_j7627861918208_2_alg».proof.Proof.Gen.KernelIdeal.Frame
import proofs.«425248_j7627861918208_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.ShloMosaic.Pipeline (Dat)
open scoped BigOperators

/-! # Region 0 -/

/-! ## The product's operand indices -/

theorem lhs_prod_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs_prod_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem rhs_prod_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem rhs_prod_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- The block product into the zero accumulator, at row `r` and column `j`: the plain sum over the 16 contracted
    coordinates. -/
theorem prod_apply (a : FVec Ideal S10000x16 .bf16) (w : FVec Ideal S16x64 .bf16) (r : Fin 10000) (j : Fin 64) :
    matmul dot_S10000x16_S16x64_S10000x64_1_0_0_1_n_n none a w (constant (F := Ideal) S10000x64 .f32 0x00000000#32) (ix2 r j)
      = ∑ k : Fin 16, a (ix2 r k) * w (ix2 k j) := by
  simp only [matmul]
  rw [Ideal.matmul_constant_zero_apply, ← Equiv.sum_comp (ValueIdx.contrEquiv1 dot_S10000x16_S16x64_S10000x64_1_0_0_1_n_n 16 rfl rfl).symm]
  refine Finset.sum_congr rfl fun k _ => ?_
  have hk := ValueIdx.contrEquiv1_symm_val dot_S10000x16_S16x64_S10000x64_1_0_0_1_n_n 16 rfl rfl k
  have el : dot_S10000x16_S16x64_S10000x64_1_0_0_1_n_n.lhsIdx (ix2 r j) ((ValueIdx.contrEquiv1 dot_S10000x16_S16x64_S10000x64_1_0_0_1_n_n 16 rfl rfl).symm k) = ix2 r k := funext fun x => Fin.ext (by
    match x with
    | ⟨0, _⟩ => exact lhs_prod_0 _ _
    | ⟨1, _⟩ => exact (lhs_prod_1 _ _).trans hk)
  have er : dot_S10000x16_S16x64_S10000x64_1_0_0_1_n_n.rhsIdx (ix2 r j) ((ValueIdx.contrEquiv1 dot_S10000x16_S16x64_S10000x64_1_0_0_1_n_n 16 rfl rfl).symm k) = ix2 k j := funext fun x => Fin.ext (by
    match x with
    | ⟨0, _⟩ => exact (rhs_prod_0 _ _).trans hk
    | ⟨1, _⟩ => exact rhs_prod_1 _ _)
  rw [el, er]

/-- The kernel's payload at row `r` and column `j` of a block: the format changes are the identity, the product
    into zero is the sum, the bias row is read at its one row, and the maximum with the zero splat is `max · 0`. -/
theorem pay_apply (x0 : Vec Ideal S10000x16 .f32) (x1 : Vec Ideal S16x64 .f32) (x2 : Vec Ideal S1x64 .f32) (r : Fin 10000) (j : Fin 64) :
    (k0_pay1 (F := Ideal) x0 x1 x2) (ix2 r j) = max ((∑ a : Fin 16, x0 (ix2 r a) * x1 (ix2 a j)) + x2 (ix2 0 j)) 0 := by
  unfold k0_pay1
  rw [maximumf_apply, addf_apply, broadcast_apply, prod_apply, broadcastTo_1b_ab_apply, shapeCast_self, shapeCast_self]
  simp only [truncf_apply]
  exact congrArg (max _) Ideal.ofBits_zero_f32

/-! ## From blocks to the array -/

theorem zero_offsets_layer : (![0, 0] : Fin 2 → Nat) = fun _ => 0 :=
  funext fun a => match a with | ⟨0, _⟩ => rfl | ⟨1, _⟩ => rfl

variable (V : (c : Dev nD) → (b : Ref sig .tc) → Buf (Elt Ideal) ((c : Thread nD τ).loc b))

/-- The index maps over the ten points: the row blocks of the features and of the output are numbered by the point,
    the weights and the bias row are one block each. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the features' block at point `t` is row `10000 t + r` of the array. -/
theorem feat_blk0 (c : Dev nD) (t : Fin cfg0.N) (r : Fin 10000) (a : Fin 16) (R : Fin 100000) (hR : R.val = 10000 * t.val + r.val) :
    (iblk0 (F := Ideal) V c 0 t : Vec Ideal S10000x16 .f32) (ix2 r a)
      = (V c (Pipeline.arrRef spec0 0) : GCN.Mat 100000 16) (ix2 R a) := by
  obtain ⟨e0, e1, -⟩ := index_maps0 t
  unfold iblk0
  rw [View.read_apply]
  show V c (Pipeline.arrRef spec0 0) _ = V c (Pipeline.arrRef spec0 0) _
  refine congrArg _ (funext fun x => Fin.ext ?_)
  match x with
  | ⟨0, _⟩ => show win0_0.index t (0 : Fin 2) * 10000 + 1 * r.val = R.val; rw [e0, hR]; omega
  | ⟨1, _⟩ => show win0_0.index t (1 : Fin 2) * 16 + 1 * a.val = a.val; rw [e1]; omega

/-- The weights' block at any point is the whole array. -/
theorem wt_blk0 (c : Dev nD) (t : Fin cfg0.N) (a : Fin 16) (j : Fin 64) :
    (iblk0 (F := Ideal) V c 1 t : Vec Ideal S16x64 .f32) (ix2 a j)
      = (V c (Pipeline.arrRef spec0 1) : GCN.Mat 16 64) (ix2 a j) := by
  obtain ⟨-, -, e0, e1, -⟩ := index_maps0 t
  unfold iblk0
  rw [View.read_apply]
  show V c (Pipeline.arrRef spec0 1) _ = V c (Pipeline.arrRef spec0 1) _
  refine congrArg _ (funext fun x => Fin.ext ?_)
  match x with
  | ⟨0, _⟩ => show win0_1.index t (0 : Fin 2) * 16 + 1 * a.val = a.val; rw [e0]; omega
  | ⟨1, _⟩ => show win0_1.index t (1 : Fin 2) * 64 + 1 * j.val = j.val; rw [e1]; omega

/-- The bias row's block at any point is the whole row. -/
theorem bias_blk0 (c : Dev nD) (t : Fin cfg0.N) (j : Fin 64) :
    (iblk0 (F := Ideal) V c 2 t : Vec Ideal S1x64 .f32) (ix2 (0 : Fin 1) j)
      = (V c (Pipeline.arrRef spec0 2) : GCN.Mat 1 64) (ix2 (0 : Fin 1) j) := by
  obtain ⟨-, -, -, -, e0, e1, -⟩ := index_maps0 t
  unfold iblk0
  rw [View.read_apply]
  show V c (Pipeline.arrRef spec0 2) _ = V c (Pipeline.arrRef spec0 2) _
  refine congrArg _ (funext fun x => Fin.ext ?_)
  match x with
  | ⟨0, _⟩ => show win0_2.index t (0 : Fin 2) * 1 + 1 * (0 : Fin 1).val = (0 : Fin 1).val; rw [e0]; rfl
  | ⟨1, _⟩ => show win0_2.index t (1 : Fin 2) * 64 + 1 * j.val = j.val; rw [e1]; omega

/-- What point `t` writes back is block `t` of the transform of the three input arrays. -/
theorem flushed0_eq (c : Dev nD) (t : Fin cfg0.N) :
    (dat0 (F := Ideal) V c).flushed 3 t = ((cfg0.win 3).blk t).view.read (Elt Ideal)
      (GCN.layer1 (V c (Pipeline.arrRef spec0 0) : GCN.Mat 100000 16) (V c (Pipeline.arrRef spec0 1) : GCN.Mat 16 64)
        (V c (Pipeline.arrRef spec0 2) : GCN.Mat 1 64)) := by
  show (cfg0.win 3).cut (grid0.coords t) ((dat0 V c).after 3 t) = _
  rw [after0_3]
  unfold out0_3
  rw [View.canon_unit_zero zero_offsets_layer]
  simp only [View.ld_unit_zero (S := S10000x16) zero_offsets_layer, View.ld_unit_zero (S := S16x64) zero_offsets_layer,
    View.ld_unit_zero (S := S1x64) zero_offsets_layer]
  funext y
  obtain ⟨r, j, rfl⟩ : ∃ (r : Fin 10000) (j : Fin 64), y = ix2 r j := ⟨y 0, y 1, eq_ix2 y⟩
  obtain ⟨-, -, -, -, -, -, e0, e1⟩ := index_maps0 t
  have hN : t.val < 10 := Nat.lt_of_lt_of_eq t.isLt N_0
  have hR : 10000 * t.val + r.val < 100000 := by have := r.isLt; omega
  have hemb : ((cfg0.win 3).blk t).view.emb (ix2 r j) = ix2 (⟨10000 * t.val + r.val, hR⟩ : Fin 100000) j := by
    refine funext fun x => Fin.ext ?_
    match x with
    | ⟨0, _⟩ => show win0_3.index t (0 : Fin 2) * 10000 + 1 * r.val = 10000 * t.val + r.val; rw [e0]; omega
    | ⟨1, _⟩ => show win0_3.index t (1 : Fin 2) * 64 + 1 * j.val = j.val; rw [e1]; omega
  rw [View.read_apply]
  show k0_pay1 (F := Ideal) (iblk0 V c 0 t) (iblk0 V c 1 t) (iblk0 V c 2 t) (ix2 r j)
    = GCN.layer1 (V c (Pipeline.arrRef spec0 0) : GCN.Mat 100000 16) (V c (Pipeline.arrRef spec0 1) : GCN.Mat 16 64)
        (V c (Pipeline.arrRef spec0 2) : GCN.Mat 1 64) (((cfg0.win 3).blk t).view.emb (ix2 r j))
  rw [hemb, GCN.layer1_apply]
  refine (pay_apply (iblk0 V c 0 t) (iblk0 V c 1 t) (iblk0 V c 2 t) r j).trans ?_
  refine congrArg (fun z => max z 0) ?_
  refine congr (congrArg HAdd.hAdd (Finset.sum_congr rfl fun a _ => ?_)) (bias_blk0 V c t j)
  rw [feat_blk0 V c t r a ⟨10000 * t.val + r.val, hR⟩ rfl, wt_blk0 V c t a j]

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v41).slice (win0_3.rect t)).set ↔ _
  rw [View.set_slice_whole, Rect.mem_set_unit]
  exact Iff.rfl

/-- Every row of the output is in some point's block: row `R` in the block of point `R / 10000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, Nat.lt_of_lt_of_eq (by omega) N_0.symm⟩, rfl⟩
  obtain ⟨-, -, -, -, -, -, e0, e1⟩ := index_maps0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 64 ≤ (i 1).val ∧ (i 1).val < win0_3.index t (1 : Fin 2) * 64 + 64; rw [e1]; omega

/-- REGION 0: the output array after the region is the first convolution's dense transform of the three input arrays. -/
theorem region0_value (c : Dev nD) : (dat0 (F := Ideal) V c).arrAt 3 cfg0.N
    = GCN.layer1 (V c (Pipeline.arrRef spec0 0) : GCN.Mat 100000 16) (V c (Pipeline.arrRef spec0 1) : GCN.Mat 16 64)
        (V c (Pipeline.arrRef spec0 2) : GCN.Mat 1 64) :=
  (dat0 V c).arrAt_eq_of_cover 3 _ (fun t _ => flushed0_eq V c t) cover0

/-! # Region 3: the same kernel text on its own windows' arrays -/

/-- Region 3's payload is the same text as region 0's. -/
theorem layer_pay3_apply (x0 : Vec Ideal S10000x16 .f32) (x1 : Vec Ideal S16x64 .f32) (x2 : Vec Ideal S1x64 .f32) (r : Fin 10000) (j : Fin 64) :
    (k3_pay1 (F := Ideal) x0 x1 x2) (ix2 r j) = max ((∑ a : Fin 16, x0 (ix2 r a) * x1 (ix2 a j)) + x2 (ix2 0 j)) 0 :=
  pay_apply x0 x1 x2 r j

/-- The index maps over the ten points: the row blocks of the features and of the output are numbered by the point,
    the weights and the bias row are one block each. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `r` of the features' block at point `t` is row `10000 t + r` of the array. -/
theorem feat_blk3 (c : Dev nD) (t : Fin cfg3.N) (r : Fin 10000) (a : Fin 16) (R : Fin 100000) (hR : R.val = 10000 * t.val + r.val) :
    (iblk3 (F := Ideal) V c 0 t : Vec Ideal S10000x16 .f32) (ix2 r a)
      = (V c (Pipeline.arrRef spec3 0) : GCN.Mat 100000 16) (ix2 R a) := by
  obtain ⟨e0, e1, -⟩ := index_maps3 t
  unfold iblk3
  rw [View.read_apply]
  show V c (Pipeline.arrRef spec3 0) _ = V c (Pipeline.arrRef spec3 0) _
  refine congrArg _ (funext fun x => Fin.ext ?_)
  match x with
  | ⟨0, _⟩ => show win3_0.index t (0 : Fin 2) * 10000 + 1 * r.val = R.val; rw [e0, hR]; omega
  | ⟨1, _⟩ => show win3_0.index t (1 : Fin 2) * 16 + 1 * a.val = a.val; rw [e1]; omega

/-- The weights' block at any point is the whole array. -/
theorem wt_blk3 (c : Dev nD) (t : Fin cfg3.N) (a : Fin 16) (j : Fin 64) :
    (iblk3 (F := Ideal) V c 1 t : Vec Ideal S16x64 .f32) (ix2 a j)
      = (V c (Pipeline.arrRef spec3 1) : GCN.Mat 16 64) (ix2 a j) := by
  obtain ⟨-, -, e0, e1, -⟩ := index_maps3 t
  unfold iblk3
  rw [View.read_apply]
  show V c (Pipeline.arrRef spec3 1) _ = V c (Pipeline.arrRef spec3 1) _
  refine congrArg _ (funext fun x => Fin.ext ?_)
  match x with
  | ⟨0, _⟩ => show win3_1.index t (0 : Fin 2) * 16 + 1 * a.val = a.val; rw [e0]; omega
  | ⟨1, _⟩ => show win3_1.index t (1 : Fin 2) * 64 + 1 * j.val = j.val; rw [e1]; omega

/-- The bias row's block at any point is the whole row. -/
theorem bias_blk3 (c : Dev nD) (t : Fin cfg3.N) (j : Fin 64) :
    (iblk3 (F := Ideal) V c 2 t : Vec Ideal S1x64 .f32) (ix2 (0 : Fin 1) j)
      = (V c (Pipeline.arrRef spec3 2) : GCN.Mat 1 64) (ix2 (0 : Fin 1) j) := by
  obtain ⟨-, -, -, -, e0, e1, -⟩ := index_maps3 t
  unfold iblk3
  rw [View.read_apply]
  show V c (Pipeline.arrRef spec3 2) _ = V c (Pipeline.arrRef spec3 2) _
  refine congrArg _ (funext fun x => Fin.ext ?_)
  match x with
  | ⟨0, _⟩ => show win3_2.index t (0 : Fin 2) * 1 + 1 * (0 : Fin 1).val = (0 : Fin 1).val; rw [e0]; rfl
  | ⟨1, _⟩ => show win3_2.index t (1 : Fin 2) * 64 + 1 * j.val = j.val; rw [e1]; omega

/-- What point `t` writes back is block `t` of the transform of the three input arrays. -/
theorem flushed3_eq (c : Dev nD) (t : Fin cfg3.N) :
    (dat3 (F := Ideal) V c).flushed 3 t = ((cfg3.win 3).blk t).view.read (Elt Ideal)
      (GCN.layer1 (V c (Pipeline.arrRef spec3 0) : GCN.Mat 100000 16) (V c (Pipeline.arrRef spec3 1) : GCN.Mat 16 64)
        (V c (Pipeline.arrRef spec3 2) : GCN.Mat 1 64)) := by
  show (cfg3.win 3).cut (grid3.coords t) ((dat3 V c).after 3 t) = _
  rw [after3_3]
  unfold out3_3
  rw [View.canon_unit_zero zero_offsets_layer]
  simp only [View.ld_unit_zero (S := S10000x16) zero_offsets_layer, View.ld_unit_zero (S := S16x64) zero_offsets_layer,
    View.ld_unit_zero (S := S1x64) zero_offsets_layer]
  funext y
  obtain ⟨r, j, rfl⟩ : ∃ (r : Fin 10000) (j : Fin 64), y = ix2 r j := ⟨y 0, y 1, eq_ix2 y⟩
  obtain ⟨-, -, -, -, -, -, e0, e1⟩ := index_maps3 t
  have hN : t.val < 10 := Nat.lt_of_lt_of_eq t.isLt N_3
  have hR : 10000 * t.val + r.val < 100000 := by have := r.isLt; omega
  have hemb : ((cfg3.win 3).blk t).view.emb (ix2 r j) = ix2 (⟨10000 * t.val + r.val, hR⟩ : Fin 100000) j := by
    refine funext fun x => Fin.ext ?_
    match x with
    | ⟨0, _⟩ => show win3_3.index t (0 : Fin 2) * 10000 + 1 * r.val = 10000 * t.val + r.val; rw [e0]; omega
    | ⟨1, _⟩ => show win3_3.index t (1 : Fin 2) * 64 + 1 * j.val = j.val; rw [e1]; omega
  rw [View.read_apply]
  show k3_pay1 (F := Ideal) (iblk3 V c 0 t) (iblk3 V c 1 t) (iblk3 V c 2 t) (ix2 r j)
    = GCN.layer1 (V c (Pipeline.arrRef spec3 0) : GCN.Mat 100000 16) (V c (Pipeline.arrRef spec3 1) : GCN.Mat 16 64)
        (V c (Pipeline.arrRef spec3 2) : GCN.Mat 1 64) (((cfg3.win 3).blk t).view.emb (ix2 r j))
  rw [hemb, GCN.layer1_apply]
  refine (layer_pay3_apply (iblk3 V c 0 t) (iblk3 V c 1 t) (iblk3 V c 2 t) r j).trans ?_
  refine congrArg (fun z => max z 0) ?_
  refine congr (congrArg HAdd.hAdd (Finset.sum_congr rfl fun a _ => ?_)) (bias_blk3 V c t j)
  rw [feat_blk3 V c t r a ⟨10000 * t.val + r.val, hR⟩ rfl, wt_blk3 V c t a j]

/-- An index of the output array is in point `t`'s block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v104).slice (win3_3.rect t)).set ↔ _
  rw [View.set_slice_whole, Rect.mem_set_unit]
  exact Iff.rfl

/-- Every row of the output is in some point's block: row `R` in the block of point `R / 10000`. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, Nat.lt_of_lt_of_eq (by omega) N_3.symm⟩, rfl⟩
  obtain ⟨-, -, -, -, -, -, e0, e1⟩ := index_maps3 t
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; rw [e0, ht]; omega
  | ⟨1, _⟩ => show win3_3.index t (1 : Fin 2) * 64 ≤ (i 1).val ∧ (i 1).val < win3_3.index t (1 : Fin 2) * 64 + 64; rw [e1]; omega

/-- REGION 3: the output array after the region is the first convolution's dense transform of the three input arrays. -/
theorem region3_value (c : Dev nD) : (dat3 (F := Ideal) V c).arrAt 3 cfg3.N
    = GCN.layer1 (V c (Pipeline.arrRef spec3 0) : GCN.Mat 100000 16) (V c (Pipeline.arrRef spec3 1) : GCN.Mat 16 64)
        (V c (Pipeline.arrRef spec3 2) : GCN.Mat 1 64) :=
  (dat3 V c).arrAt_eq_of_cover 3 _ (fun t _ => flushed3_eq V c t) cover3

end Cert.KernelIdeal.RegionValue

end
-- ==== Proof.Region1.lean ====
/-
  The second convolution's dense product, computed block by block (regions 1 and 4 of the kernel program).

  The grid has ten points; point `t` reads rows `10000·t … 10000·t + 9999` of the left operand `[100000, 64]`
  and the whole weight matrix `[64, 64]`, multiplies them into a zero accumulator, and writes rows
  `10000·t … 10000·t + 9999` of the output.  At the ideal values the narrowing of both operands to bf16 is the
  identity and the product into the zero accumulator is the plain sum, so entry `(r, j)` of a block's result is
  `∑ a, x (r, a) * w (a, j)`; a block's row `p` is the array's row `10000·t + p`; the ten blocks tile the output
  (row `r` lies in block `r / 10000`).  Hence the output array after the run is `GCN.dense` of the two input
  arrays as the region finds them.
-/
import proofs.«425248_j7627861918208_2_alg».proof.Proof.Gen.KernelIdeal.Frame
import proofs.«425248_j7627861918208_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx
open Idealize.ShloMosaic.TcCoe
open Idealize.ShloMosaic.Pipeline (Dat)
open scoped BigOperators

/-! ## The product's operand indices -/

/-- The left operand is read on the output's row. -/
theorem lhs_block_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and at the summation index on its columns. -/
theorem lhs_block_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand is read at the summation index on its rows -/
theorem rhs_block_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and on the output's column. -/
theorem rhs_block_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## From the blocks to the array -/

variable (V : (c : Dev nD) → (b : Ref sig .tc) → Buf (Elt Ideal) ((c : Thread nD τ).loc b))

/-- A rectangle at offsets `![0, 0]` is at offset zero on every axis. -/
theorem zero_offsets : (![0, 0] : Fin 2 → Nat) = fun _ => 0 := funext fun a => by fin_cases a <;> rfl

/-! # Region 1 -/

/-- One block's product into the zero accumulator, entry by entry: the plain sum over the 64 columns of the left
    block against the 64 rows of the weights (the narrowing to bf16 changes nothing at the ideal values). -/
theorem block_product1_apply (x0 : Vec Ideal S10000x64 .f32) (x1 : Vec Ideal S64x64 .f32) (r : Fin 10000) (j : Fin 64) :
    k1_pay1 (F := Ideal) x0 x1 (ix2 r j) = ∑ a : Fin 64, x0 (ix2 r a) * x1 (ix2 a j) := by
  unfold k1_pay1
  rw [shapeCast_self]
  refine (Ideal.matmul_constant_zero_apply dot_S10000x64_S64x64_S10000x64_1_0_0_1_n_n none _ _ (ix2 r j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_block_0 _ _
    | ⟨1, _⟩ => exact (lhs_block_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_block_0 _ _).trans hk
    | ⟨1, _⟩ => exact rhs_block_1 _ _)
  rw [truncf_apply, truncf_apply, el, er]

/-- The index maps over the ten grid points: the left operand's and the output's row blocks are the point's
    number, their column block and the weights' block are block zero. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left operand's block at point `t` is row `10000·t + p` of the array. -/
theorem left_block1_apply (c : Dev nD) (t : Fin cfg1.N) (p : Fin 10000) (a : Fin 64) (k : Fin 100000)
    (hk : k.val = t.val * 10000 + p.val) :
    (iblk1 (F := Ideal) V c 0 t : Vec Ideal S10000x64 .f32) (ix2 p a)
      = (V c (Pipeline.arrRef spec1 0) : S100000x64.Idx → EReal) (ix2 k a) := by
  obtain ⟨e0, e1, -, -, -, -⟩ := block_indices1 t
  unfold iblk1
  rw [View.read_apply]
  show V c (Pipeline.arrRef spec1 0) _ = V c (Pipeline.arrRef spec1 0) _
  congr 1
  funext b
  apply Fin.ext
  match b with
  | ⟨0, _⟩ => show win1_0.index t 0 * 10000 + 1 * p.val = k.val; rw [e0, hk]; omega
  | ⟨1, _⟩ => show win1_0.index t 1 * 64 + 1 * a.val = a.val; rw [e1]; omega

/-- The weights' block at every point is the whole array. -/
theorem weights_block1_apply (c : Dev nD) (t : Fin cfg1.N) (a j : Fin 64) :
    (iblk1 (F := Ideal) V c 1 t : Vec Ideal S64x64 .f32) (ix2 a j)
      = (V c (Pipeline.arrRef spec1 1) : S64x64.Idx → EReal) (ix2 a j) := by
  obtain ⟨-, -, e0, e1, -, -⟩ := block_indices1 t
  unfold iblk1
  rw [View.read_apply]
  show V c (Pipeline.arrRef spec1 1) _ = V c (Pipeline.arrRef spec1 1) _
  congr 1
  funext b
  apply Fin.ext
  match b with
  | ⟨0, _⟩ => show win1_1.index t 0 * 64 + 1 * a.val = a.val; rw [e0]; omega
  | ⟨1, _⟩ => show win1_1.index t 1 * 64 + 1 * j.val = j.val; rw [e1]; omega

/-- WHAT POINT `t` WRITES BACK is block `t` of the product of the whole left operand with the weights. -/
theorem flushed1_eq (c : Dev nD) (t : Fin cfg1.N) :
    (dat1 (F := Ideal) V c).flushed 2 t
      = ((cfg1.win 2).blk t).view.read (Elt Ideal) (GCN.dense (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x64) zero_offsets]
  obtain ⟨-, -, -, -, e0, e1⟩ := block_indices1 t
  funext y
  have h0 : (y 0).val < 10000 := (y 0).isLt
  have h1 : (y 1).val < 64 := (y 1).isLt
  have ht : t.val < 10 := t.isLt
  have hy : (cfg1.win 2).xinj (grid1.coords t) y = ix2 (⟨(y 0).val, h0⟩ : Fin 10000) (⟨(y 1).val, h1⟩ : Fin 64) :=
    funext fun a => by match a with | ⟨0, _⟩ => rfl | ⟨1, _⟩ => rfl
  have hE : ((cfg1.win 2).blk t).view.emb y
      = (ix2 (⟨t.val * 10000 + (y 0).val, by omega⟩ : Fin 100000) (⟨(y 1).val, h1⟩ : Fin 64) : S100000x64.Idx) := by
    funext b
    apply Fin.ext
    match b with
    | ⟨0, _⟩ => show win1_2.index t 0 * 10000 + 1 * (y 0).val = t.val * 10000 + (y 0).val; rw [e0]; omega
    | ⟨1, _⟩ => show win1_2.index t 1 * 64 + 1 * (y 1).val = (y 1).val; rw [e1]; omega
  refine (congrArg (k1_pay1 (F := Ideal) (iblk1 V c 0 t) (iblk1 V c 1 t)) hy).trans ?_
  rw [block_product1_apply, View.read_apply, hE]
  show _ = GCN.dense _ _ (ix2 _ _)
  rw [GCN.dense_apply]
  refine Finset.sum_congr rfl fun a _ => ?_
  exact congrArg₂ (· * ·) (left_block1_apply V c t ⟨(y 0).val, h0⟩ a ⟨t.val * 10000 + (y 0).val, by omega⟩ rfl)
    (weights_block1_apply V c t a ⟨(y 1).val, h1⟩)

/-- An index of the output is in point `t`'s block iff each coordinate is in the block's range on its axis. -/
theorem mem_out_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- The ten row blocks tile the output: row `r` is in the block of point `r / 10000`. -/
theorem out_covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, e0, e1⟩ := block_indices1 t
  have hv : t.val = (i 0).val / 10000 := rfl
  refine ⟨t, flush1_2 t, ?_⟩
  rw [mem_out_block1]
  intro a
  match a with
  | ⟨0, _⟩ => show win1_2.index t (0 : Fin 2) * 10000 ≤ (i 0).val ∧ (i 0).val < win1_2.index t (0 : Fin 2) * 10000 + 10000; rw [e0, hv]; omega
  | ⟨1, _⟩ => show win1_2.index t (1 : Fin 2) * 64 ≤ (i 1).val ∧ (i 1).val < win1_2.index t (1 : Fin 2) * 64 + 64; rw [e1]; omega

/-- REGION 1: the output array after the run is the product of the left operand with the weights, both as the
    region finds them. -/
theorem region1_value (c : Dev nD) :
    (dat1 (F := Ideal) V c).arrAt 2 cfg1.N = GCN.dense (V c (Pipeline.arrRef spec1 0)) (V c (Pipeline.arrRef spec1 1)) :=
  (dat1 (F := Ideal) V c).arrAt_eq_of_cover 2 _ (fun t _ => flushed1_eq V c t) out_covered1

/-! # Region 4: the same kernel on the second graph's arrays -/

/-- One block's product into the zero accumulator, entry by entry: the plain sum over the 64 columns of the left
    block against the 64 rows of the weights (the narrowing to bf16 changes nothing at the ideal values). -/
theorem block_product4_apply (x0 : Vec Ideal S10000x64 .f32) (x1 : Vec Ideal S64x64 .f32) (r : Fin 10000) (j : Fin 64) :
    k4_pay1 (F := Ideal) x0 x1 (ix2 r j) = ∑ a : Fin 64, x0 (ix2 r a) * x1 (ix2 a j) := by
  unfold k4_pay1
  rw [shapeCast_self]
  refine (Ideal.matmul_constant_zero_apply dot_S10000x64_S64x64_S10000x64_1_0_0_1_n_n none _ _ (ix2 r j)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_block_0 _ _
    | ⟨1, _⟩ => exact (lhs_block_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_block_0 _ _).trans hk
    | ⟨1, _⟩ => exact rhs_block_1 _ _)
  rw [truncf_apply, truncf_apply, el, er]

/-- The index maps over the ten grid points: the left operand's and the output's row blocks are the point's
    number, their column block and the weights' block are block zero. -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p` of the left operand's block at point `t` is row `10000·t + p` of the array. -/
theorem left_block4_apply (c : Dev nD) (t : Fin cfg4.N) (p : Fin 10000) (a : Fin 64) (k : Fin 100000)
    (hk : k.val = t.val * 10000 + p.val) :
    (iblk4 (F := Ideal) V c 0 t : Vec Ideal S10000x64 .f32) (ix2 p a)
      = (V c (Pipeline.arrRef spec4 0) : S100000x64.Idx → EReal) (ix2 k a) := by
  obtain ⟨e0, e1, -, -, -, -⟩ := block_indices4 t
  unfold iblk4
  rw [View.read_apply]
  show V c (Pipeline.arrRef spec4 0) _ = V c (Pipeline.arrRef spec4 0) _
  congr 1
  funext b
  apply Fin.ext
  match b with
  | ⟨0, _⟩ => show win4_0.index t 0 * 10000 + 1 * p.val = k.val; rw [e0, hk]; omega
  | ⟨1, _⟩ => show win4_0.index t 1 * 64 + 1 * a.val = a.val; rw [e1]; omega

/-- The weights' block at every point is the whole array. -/
theorem weights_block4_apply (c : Dev nD) (t : Fin cfg4.N) (a j : Fin 64) :
    (iblk4 (F := Ideal) V c 1 t : Vec Ideal S64x64 .f32) (ix2 a j)
      = (V c (Pipeline.arrRef spec4 1) : S64x64.Idx → EReal) (ix2 a j) := by
  obtain ⟨-, -, e0, e1, -, -⟩ := block_indices4 t
  unfold iblk4
  rw [View.read_apply]
  show V c (Pipeline.arrRef spec4 1) _ = V c (Pipeline.arrRef spec4 1) _
  congr 1
  funext b
  apply Fin.ext
  match b with
  | ⟨0, _⟩ => show win4_1.index t 0 * 64 + 1 * a.val = a.val; rw [e0]; omega
  | ⟨1, _⟩ => show win4_1.index t 1 * 64 + 1 * j.val = j.val; rw [e1]; omega

/-- WHAT POINT `t` WRITES BACK is block `t` of the product of the whole left operand with the weights. -/
theorem flushed4_eq (c : Dev nD) (t : Fin cfg4.N) :
    (dat4 (F := Ideal) V c).flushed 2 t
      = ((cfg4.win 2).blk t).view.read (Elt Ideal) (GCN.dense (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S10000x64) zero_offsets, View.ld_unit_zero (S := S64x64) zero_offsets]
  obtain ⟨-, -, -, -, e0, e1⟩ := block_indices4 t
  funext y
  have h0 : (y 0).val < 10000 := (y 0).isLt
  have h1 : (y 1).val < 64 := (y 1).isLt
  have ht : t.val < 10 := t.isLt
  have hy : (cfg4.win 2).xinj (grid4.coords t) y = ix2 (⟨(y 0).val, h0⟩ : Fin 10000) (⟨(y 1).val, h1⟩ : Fin 64) :=
    funext fun a => by match a with | ⟨0, _⟩ => rfl | ⟨1, _⟩ => rfl
  have hE : ((cfg4.win 2).blk t).view.emb y
      = (ix2 (⟨t.val * 10000 + (y 0).val, by omega⟩ : Fin 100000) (⟨(y 1).val, h1⟩ : Fin 64) : S100000x64.Idx) := by
    funext b
    apply Fin.ext
    match b with
    | ⟨0, _⟩ => show win4_2.index t 0 * 10000 + 1 * (y 0).val = t.val * 10000 + (y 0).val; rw [e0]; omega
    | ⟨1, _⟩ => show win4_2.index t 1 * 64 + 1 * (y 1).val = (y 1).val; rw [e1]; omega
  refine (congrArg (k4_pay1 (F := Ideal) (iblk4 V c 0 t) (iblk4 V c 1 t)) hy).trans ?_
  rw [block_product4_apply, View.read_apply, hE]
  show _ = GCN.dense _ _ (ix2 _ _)
  rw [GCN.dense_apply]
  refine Finset.sum_congr rfl fun a _ => ?_
  exact congrArg₂ (· * ·) (left_block4_apply V c t ⟨(y 0).val, h0⟩ a ⟨t.val * 10000 + (y 0).val, by omega⟩ rfl)
    (weights_block4_apply V c t a ⟨(y 1).val, h1⟩)

/-- An index of the output is in point `t`'s block iff each coordinate is in the block's range on its axis. -/
theorem mem_out_block4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v105).slice (win4_2.rect t)).set ↔ _
  rw [View.set_slice_whole, Rect.mem_set_unit]
  exact Iff.rfl

/-- The ten row blocks tile the output: row `r` is in the block of point `r / 10000`. -/
theorem out_covered4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  let t : Fin cfg4.N := ⟨(i 0).val / 10000, by rw [show cfg4.N = 10 from N_4]; omega⟩
  obtain ⟨-, -, -, -, e0, e1⟩ := block_indices4 t
  have hv : t.val = (i 0).val / 10000 := rfl
  refine ⟨t, flush4_2 t, ?_⟩
  rw [mem_out_block4]
  intro a
  match a with
  | ⟨0, _⟩ => show win4_2.index t (0 : Fin 2) * 10000 ≤ (i 0).val ∧ (i 0).val < win4_2.index t (0 : Fin 2) * 10000 + 10000; rw [e0, hv]; omega
  | ⟨1, _⟩ => show win4_2.index t (1 : Fin 2) * 64 ≤ (i 1).val ∧ (i 1).val < win4_2.index t (1 : Fin 2) * 64 + 64; rw [e1]; omega

/-- REGION 4: the output array after the run is the product of the left operand with the weights, both as the
    region finds them. -/
theorem region4_value (c : Dev nD) :
    (dat4 (F := Ideal) V c).arrAt 2 cfg4.N = GCN.dense (V c (Pipeline.arrRef spec4 0)) (V c (Pipeline.arrRef spec4 1)) :=
  (dat4 (F := Ideal) V c).arrAt_eq_of_cover 2 _ (fun t _ => flushed4_eq V c t) out_covered4

end Cert.KernelIdeal.RegionValue

end
-- ==== Proof.LibSums.lean ====
import Mathlib.Data.EReal.Basic
import Mathlib.Data.EReal.Operations
import Mathlib.Algebra.BigOperators.Fin
import Mathlib.Algebra.BigOperators.Ring.Finset
import Mathlib.Logic.Equiv.Fin.Basic
import Mathlib.Tactic.Ring

/-!
# Finite sums over the extended reals

General facts about finite sums whose entries are extended reals that are in fact real
numbers, and about re-indexing a sum over `a * b` consecutive indices block by block.

* The coercion `ℝ → EReal` is additive and multiplicative, so a finite sum (or product) of
  coerced reals is the coercion of the real sum (product).  This lets an identity between
  extended-real expressions built from real entries be proved in `ℝ`, where `+` and `*`
  form a commutative ring.
* In `EReal` one has `0 * a = 0` and `1 * a = a` for every `a` (infinite ones included), so
  a sum weighted by a 0/1 indicator is the sum over the indices where the indicator is 1.
* An index `n < a * b` is uniquely `b * t + r` with `t < a`, `r < b`; a sum over all `n` is
  the double sum over `t` and `r`, and the partial sums over the first blocks satisfy the
  evident recursion.
-/

namespace ESum

open Finset

/-! ### Coercion and sums -/

/-- Coercion commutes with a finite sum: `↑(∑ f i) = ∑ ↑(f i)`.  By induction on the index
set, from `↑0 = 0` and `↑(x + y) = ↑x + ↑y`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The underlying identity over the reals: weighting each entry `x e k` by `nrm e`, summing
over `e`, then contracting against `w` over `k`, is the same as contracting each `x e ·`
against `w` first and then forming the `nrm`-weighted sum over `e`.  Both sides are
`∑ k, ∑ e, x e k * nrm e * w k` up to the order of summation and of the factors. -/
theorem agg_dense_comm_real {ε κ : Type*} [Fintype κ] (s : Finset ε) (x : ε → κ → ℝ)
    (nrm : ε → ℝ) (w : κ → ℝ) :
    ∑ k, (∑ e ∈ s, x e k * nrm e) * w k = ∑ e ∈ s, (∑ k, x e k * w k) * nrm e := by
  simp only [Finset.sum_mul]
  rw [Finset.sum_comm]
  refine Finset.sum_congr rfl fun e _ => Finset.sum_congr rfl fun k _ => ?_
  ring

/-- Aggregate-then-transform equals transform-then-aggregate, for real entries.  All entries
are coerced reals, so both sides are coercions of real numbers and the claim reduces to the
real identity `agg_dense_comm_real`. -/
theorem agg_dense_comm {ε κ : Type*} [Fintype κ] (s : Finset ε) (x : ε → κ → ℝ) (nrm : ε → ℝ)
    (w : κ → ℝ) :
    ∑ k, ((0 : EReal) + ∑ e ∈ s, ((x e k : ℝ) : EReal) * ((nrm e : ℝ) : EReal))
          * ((w k : ℝ) : EReal)
      = (0 : EReal) + ∑ e ∈ s, (∑ k, ((x e k : ℝ) : EReal) * ((w k : ℝ) : EReal))
          * ((nrm e : ℝ) : EReal) := by
  simp only [zero_add, ← EReal.coe_mul, ← coe_sum]
  exact congrArg Real.toEReal (agg_dense_comm_real s x nrm w)

/-! ### Indicator-weighted sums -/

/-- A sum against a 0/1 indicator is the sum over the filter: in `EReal`, `0 * a = 0` and
`1 * a = a` for every `a`. -/
theorem sum_indicator_mul {ι : Type*} [Fintype ι] (p : ι → Prop) [DecidablePred p]
    (v : ι → EReal) :
    ∑ r, (if p r then (1 : EReal) else 0) * v r = ∑ r ∈ Finset.univ.filter p, v r := by
  rw [Finset.sum_filter]
  refine Finset.sum_congr rfl fun r _ => ?_
  by_cases h : p r
  · rw [if_pos h, if_pos h, one_mul]
  · rw [if_neg h, if_neg h, zero_mul]

/-- The sum of a 0/1 indicator is the sum of ones over the filter (its cardinality). -/
theorem sum_indicator {ι : Type*} [Fintype ι] (p : ι → Prop) [DecidablePred p] :
    ∑ r, (if p r then (1 : EReal) else 0) = ∑ _r ∈ Finset.univ.filter p, (1 : EReal) := by
  rw [Finset.sum_filter]

/-! ### Sums over `a * b` consecutive indices, block by block -/

/-- The `r`-th index of the `t`-th block of length `b` lies below `a * b`:
`b * t + r < b * t + b = b * (t + 1) ≤ b * a`. -/
theorem block_lt {a b : Nat} (t : Fin a) (r : Fin b) : b * t.val + r.val < a * b := by
  have h1 : b * t.val + r.val < b * (t.val + 1) := by
    rw [Nat.mul_succ]; exact Nat.add_lt_add_left r.isLt _
  have h2 : b * (t.val + 1) ≤ b * a := Nat.mul_le_mul_left _ t.isLt
  rw [Nat.mul_comm a b]; exact lt_of_lt_of_le h1 h2

/-- A sum over `a * b` consecutive indices, block by block: `(t, r) ↦ b * t + r` is a
bijection from `Fin a × Fin b` onto `Fin (a * b)`. -/
theorem sum_blocks {M : Type*} [AddCommMonoid M] (a b : Nat) (f : Fin (a * b) → M) :
    ∑ n, f n = ∑ t : Fin a, ∑ r : Fin b, f ⟨b * t.val + r.val, block_lt t r⟩ := by
  rw [← (finProdFinEquiv (m := a) (n := b)).sum_comp f, Fintype.sum_prod_type]
  refine Finset.sum_congr rfl fun t _ => Finset.sum_congr rfl fun r _ => ?_
  refine congrArg f (Fin.ext ?_)
  simp only [finProdFinEquiv_apply_val]
  exact Nat.add_comm _ _

/-- `sum_blocks` for 100000 indices cut into 20 blocks of 5000. -/
theorem sum_blocks_20_5000 {M : Type*} [AddCommMonoid M] (f : Fin 100000 → M) :
    ∑ n, f n = ∑ t : Fin 20, ∑ r : Fin 5000, f ⟨5000 * t.val + r.val, by omega⟩ :=
  sum_blocks 20 5000 f

/-! ### Partial sums over the first blocks

The sum over the first `n` of `a` grid points is written as the sum over those `t : Fin a`
with `t.val < n`.  It is `0` for `n = 0`, the whole sum for `n = a`, and grows by the `n`-th
term from `n` to `n + 1`: the shape an induction over grid points consumes. -/

/-- No index lies below `0`: the empty partial sum is `0`. -/
theorem sum_lt_zero {M : Type*} [AddCommMonoid M] {a : Nat} (G : Fin a → M) :
    ∑ t ∈ Finset.univ.filter (fun t : Fin a => t.val < 0), G t = 0 := by
  rw [Finset.filter_false_of_mem (fun t _ => Nat.not_lt_zero t.val), Finset.sum_empty]

/-- Every index of `Fin a` lies below `a`: the last partial sum is the whole sum. -/
theorem sum_lt_all {M : Type*} [AddCommMonoid M] {a : Nat} (G : Fin a → M) :
    ∑ t ∈ Finset.univ.filter (fun t : Fin a => t.val < a), G t = ∑ t, G t := by
  rw [Finset.filter_true_of_mem (fun t _ => t.isLt)]

/-- One more grid point: the indices below `n + 1` are those below `n` together with `n`
itself (which is not below `n`). -/
theorem sum_lt_succ {M : Type*} [AddCommMonoid M] {a : Nat} (G : Fin a → M) (n : Nat)
    (hn : n < a) :
    ∑ t ∈ Finset.univ.filter (fun t : Fin a => t.val < n + 1), G t
      = (∑ t ∈ Finset.univ.filter (fun t : Fin a => t.val < n), G t) + G ⟨n, hn⟩ := by
  have hset : Finset.univ.filter (fun t : Fin a => t.val < n + 1)
      = insert (⟨n, hn⟩ : Fin a) (Finset.univ.filter (fun t : Fin a => t.val < n)) := by
    ext t
    simp only [Finset.mem_filter, Finset.mem_univ, true_and, Finset.mem_insert, Fin.ext_iff]
    omega
  have hnot : (⟨n, hn⟩ : Fin a) ∉ Finset.univ.filter (fun t : Fin a => t.val < n) := by
    simp only [Finset.mem_filter, Finset.mem_univ, true_and, Nat.lt_irrefl, not_false_eq_true]
  rw [hset, Finset.sum_insert hnot, add_comm]

/-- A partial fold over blocks: the sum over the first `n + 1` blocks of length `b` is the
sum over the first `n` blocks plus the `n`-th block. -/
theorem sum_range_succ_blocks {M : Type*} [AddCommMonoid M] (a b : Nat) (f : Fin (a * b) → M)
    (n : Nat) (hn : n < a) :
    ∑ t ∈ Finset.univ.filter (fun t : Fin a => t.val < n + 1),
        ∑ r : Fin b, f ⟨b * t.val + r.val, block_lt t r⟩
      = (∑ t ∈ Finset.univ.filter (fun t : Fin a => t.val < n),
          ∑ r : Fin b, f ⟨b * t.val + r.val, block_lt t r⟩)
        + ∑ r : Fin b, f ⟨b * n + r.val, block_lt ⟨n, hn⟩ r⟩ :=
  sum_lt_succ (fun t : Fin a => ∑ r : Fin b, f ⟨b * t.val + r.val, block_lt t r⟩) n hn

/-- The whole sum over `a * b` indices is the last partial fold over blocks. -/
theorem sum_blocks_eq_sum_lt {M : Type*} [AddCommMonoid M] (a b : Nat) (f : Fin (a * b) → M) :
    ∑ n, f n = ∑ t ∈ Finset.univ.filter (fun t : Fin a => t.val < a),
        ∑ r : Fin b, f ⟨b * t.val + r.val, block_lt t r⟩ := by
  rw [sum_lt_all]; exact sum_blocks a b f

/-- `sum_range_succ_blocks` for 100000 indices cut into 20 blocks of 5000. -/
theorem sum_range_succ_blocks_20_5000 {M : Type*} [AddCommMonoid M] (f : Fin 100000 → M)
    (n : Nat) (hn : n < 20) :
    ∑ t ∈ Finset.univ.filter (fun t : Fin 20 => t.val < n + 1),
        ∑ r : Fin 5000, f ⟨5000 * t.val + r.val, by omega⟩
      = (∑ t ∈ Finset.univ.filter (fun t : Fin 20 => t.val < n),
          ∑ r : Fin 5000, f ⟨5000 * t.val + r.val, by omega⟩)
        + ∑ r : Fin 5000, f ⟨5000 * n + r.val, by omega⟩ :=
  sum_range_succ_blocks 20 5000 f n hn

/-- `sum_blocks_eq_sum_lt` for 100000 indices cut into 20 blocks of 5000. -/
theorem sum_blocks_eq_sum_lt_20_5000 {M : Type*} [AddCommMonoid M] (f : Fin 100000 → M) :
    ∑ n, f n = ∑ t ∈ Finset.univ.filter (fun t : Fin 20 => t.val < 20),
        ∑ r : Fin 5000, f ⟨5000 * t.val + r.val, by omega⟩ :=
  sum_blocks_eq_sum_lt 20 5000 f

/-- A sum over `Fin a` of a function of the underlying number is the sum over `range a`. -/
theorem sum_fin_eq_sum_range {M : Type*} [AddCommMonoid M] (a : Nat) (g : Nat → M) :
    ∑ t : Fin a, g t.val = ∑ t ∈ Finset.range a, g t :=
  Fin.sum_univ_eq_sum_range g a

/-! ### Counts and real-valuedness -/

/-- The count of a nonempty finite set, as an extended real, is a natural number `≥ 1`:
the sum of ones over `s` is the cardinality of `s`. -/
theorem one_le_sum_one {ι : Type*} (s : Finset ι) (h : s.Nonempty) :
    ∃ n : ℕ, 1 ≤ n ∧ ((0 : EReal) + ∑ _e ∈ s, (1 : EReal)) = ((n : ℝ) : EReal) := by
  refine ⟨s.card, Finset.card_pos.mpr h, ?_⟩
  have hreal : (∑ _e ∈ s, (1 : ℝ)) = (s.card : ℝ) := by
    rw [Finset.sum_const, nsmul_eq_mul, mul_one]
  rw [zero_add, ← hreal, coe_sum]
  rfl

/-- Real-valuedness is closed under finite sums. -/
theorem exists_real_sum {ι : Type*} (s : Finset ι) (f : ι → EReal)
    (h : ∀ i ∈ s, ∃ r : ℝ, f i = r) : ∃ r : ℝ, ∑ i ∈ s, f i = r := by
  classical
  choose! g hg using h
  exact ⟨∑ i ∈ s, g i, by rw [coe_sum]; exact Finset.sum_congr rfl hg⟩

/-- Real-valuedness is closed under products. -/
theorem exists_real_mul {a b : EReal} (ha : ∃ r : ℝ, a = r) (hb : ∃ r : ℝ, b = r) :
    ∃ r : ℝ, a * b = r := by
  obtain ⟨r, rfl⟩ := ha
  obtain ⟨q, rfl⟩ := hb
  exact ⟨r * q, (EReal.coe_mul r q).symm⟩

/-- Real-valuedness is closed under sums of two terms. -/
theorem exists_real_add {a b : EReal} (ha : ∃ r : ℝ, a = r) (hb : ∃ r : ℝ, b = r) :
    ∃ r : ℝ, a + b = r := by
  obtain ⟨r, rfl⟩ := ha
  obtain ⟨q, rfl⟩ := hb
  exact ⟨r + q, (EReal.coe_add r q).symm⟩

end ESum
-- ==== Proof.Region2Pay.lean ====
/-
  The pooling kernel's payloads read at an index, at the ideal values (floats are extended reals, every operation exact).
  The two fills are zero; the mask at row r and lane g says whether the row's graph number is g; the feature payload adds to
  the running sum, at lane g and column j, the sum over the block's rows of the indicator times max (x + bias) 0; the count
  payload adds to the running count, at lane g, the number of rows of the block whose graph number is g.
-/
import proofs.«425248_j7627861918208_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.ValueIdx
open scoped BigOperators

/-- 1 if the word, read signed, is g, else 0 -/
def hot (b : BitVec 32) (g : Nat) : EReal := if b.toInt = (g : Int) then 1 else 0

/-! ## Words -/

/-- A 32-bit word is the word of a number below 256 exactly when its signed reading is that number. -/
theorem eq_ofNat_iff_toInt (x : BitVec 32) (g : Nat) (hg : g < 256) : x = BitVec.ofNat 32 g ↔ x.toInt = (g : Int) := by
  have hw : (BitVec.ofNat 32 g).toInt = (g : Int) := by
    rw [BitVec.toInt_eq_toNat_cond, BitVec.toNat_ofNat]
    split <;> omega
  constructor
  · intro h; subst h
    exact hw
  · intro h
    apply BitVec.eq_of_toInt_eq
    rw [h, hw]

/-- The float of the widened equality bit is the indicator. -/
theorem sitofp_mask (x : BitVec 32) (g : Nat) (hg : g < 256) :
    FloatOps.sitofp (F := Ideal) .f32 ((IntOp.cmpi .eq x (BitVec.ofNat 32 g)).setWidth 32) = hot x g := by
  show ((((IntOp.cmpi .eq x (BitVec.ofNat 32 g)).setWidth 32).toInt : ℝ) : EReal) = hot x g
  unfold hot IntOp.cmpi
  by_cases h : x = BitVec.ofNat 32 g
  · rw [if_pos ((eq_ofNat_iff_toInt x g hg).mp h)]
    subst h
    simp
  · rw [if_neg (fun h' => h ((eq_ofNat_iff_toInt x g hg).mpr h'))]
    have hb : (x == BitVec.ofNat 32 g) = false := by simpa using h
    simp [hb]

/-! ## Layout -/

/-- A one-column array broadcast along the lanes reads its column entry of the same row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The fills -/

theorem pay1_apply (i : S256x64.Idx) : k2_pay1 (F := Ideal) i = 0 := by
  unfold k2_pay1
  exact Ideal.ofBits_zero_f32

theorem pay2_apply (i : S1x256.Idx) : k2_pay2 (F := Ideal) i = 0 := by
  unfold k2_pay2
  exact Ideal.ofBits_zero_f32

/-! ## The mask -/

/-- The mask at row r and lane g: is the row's graph number the word g. -/
theorem pay3_apply (v11 : Vec Ideal S5000x1 .i32) (r : Fin 5000) (g : Fin 256) :
    k2_pay3 (F := Ideal) v11 (ix2 r g) = IntOp.cmpi .eq (v11 (ix2 r 0)) (BitVec.ofNat 32 g.val) := by
  unfold k2_pay3
  show IntOp.cmpi .eq (broadcastTo S5000x256 (shapeCast S5000x1 v11 _) _ (ix2 r g)) (iota .tc S5000x256 32 [1] _ (ix2 r g)) = _
  rw [shapeCast_self, iota_single_apply, broadcastTo_a1_ab_apply]

/-- The mask as a float. -/
theorem maskf_apply (v11 : Vec Ideal S5000x1 .i32) (r : Fin 5000) (g : Fin 256) :
    (sitofp .f32 (extui 32 (k2_pay3 (F := Ideal) v11) natLt_1_32) : FVec Ideal S5000x256 .f32) (ix2 r g) = hot (v11 (ix2 r 0)) g.val := by
  rw [sitofp_apply, extui_apply, pay3_apply]
  exact sitofp_mask _ _ g.isLt

/-! ## The product -/

theorem lhs_pool_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_pool_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_pool_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_pool_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The product that contracts the rows of both operands, into a zero accumulator, read at lane g and column j:
    the sum over the rows of the two entries' products. -/
theorem pool_matmul_apply (A : FVec Ideal S5000x256 .bf16) (B : FVec Ideal S5000x64 .bf16) (g : Fin 256) (j : Fin 64) :
    matmul dot_S5000x256_S5000x64_S256x64_0_0_1_1_n_n none A B (constant S256x64 .f32 0x00000000#32) (ix2 g j)
      = ∑ r : Fin 5000, A (ix2 r g) * B (ix2 r j) := by
  simp only [matmul]
  rw [Ideal.matmul_constant_zero_apply, ← Equiv.sum_comp (contrEquiv1 dot_S5000x256_S5000x64_S256x64_0_0_1_1_n_n 5000 rfl rfl).symm]
  refine Finset.sum_congr rfl fun k _ => ?_
  have hk := contrEquiv1_symm_val dot_S5000x256_S5000x64_S256x64_0_0_1_1_n_n 5000 rfl rfl k
  have el : dot_S5000x256_S5000x64_S256x64_0_0_1_1_n_n.lhsIdx (ix2 g j) ((contrEquiv1 dot_S5000x256_S5000x64_S256x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x256_S5000x64_S256x64_0_0_1_1_n_n.rhsIdx (ix2 g j) ((contrEquiv1 dot_S5000x256_S5000x64_S256x64_0_0_1_1_n_n 5000 rfl rfl).symm k) = ix2 k j := funext fun a => Fin.ext (by
    match a with
    | ⟨0, _⟩ => exact (rhs_pool_0 _ _).trans hk
    | ⟨1, _⟩ => exact rhs_pool_1 _ _)
  rw [el, er]

/-- The running sum plus, at lane g and column j, the sum over the block's rows of the indicator times the
    rectified biased entry. -/
theorem pay4_apply (v3 : Vec Ideal S5000x64 .f32) (v5 : Vec Ideal S1x64 .f32) (v11 : Vec Ideal S5000x1 .i32) (v21 : Vec Ideal S256x64 .f32) (g : Fin 256) (j : Fin 64) :
    k2_pay4 v3 v5 v11 v21 (ix2 g j) = v21 (ix2 g j) + ∑ r : Fin 5000, hot (v11 (ix2 r 0)) g.val * max (v3 (ix2 r j) + v5 (ix2 0 j)) 0 := by
  unfold k2_pay4
  refine (addf_apply _ _ _).trans ?_
  rw [shapeCast_self, pool_matmul_apply]
  refine congrArg (v21 (ix2 g j) + ·) (Finset.sum_congr rfl fun r _ => ?_)
  rw [truncf_apply, truncf_apply, maskf_apply, maximumf_apply, addf_apply, shapeCast_self, shapeCast_self, broadcastTo_1b_ab_apply]
  exact congrArg (fun z => hot (v11 (ix2 r 0)) g.val * max (v3 (ix2 r j) + v5 (ix2 0 j)) z) Ideal.ofBits_zero_f32

/-! ## The counts -/

/-- The reduced index g with the row r put back on the dropped axis is (r, g). -/
theorem lift_rows (h : S5000x256.Reduces [0] S256) (g : Fin 256) (r : Fin 5000) :
    h.lift (ix1 g) r = ix2 r g := by
  funext c; apply Fin.ext
  match c with
  | ⟨0, _⟩ => rfl
  | ⟨1, _⟩ => rfl

/-- The sum over the rows of a [5000,256] array, from the zero word, read at lane g. -/
theorem colsum_apply (src : FVec Ideal S5000x256 .f32) (h : S5000x256.Reduces [0] S256) (hφ : FKind.Formats .f32)
    (hacc : (0x00000000#32 : BitVec 32) = 0x00000000#32) (g : Fin 256) :
    multiReduction .add [0] S256 src 0x00000000#32 h hφ hacc (ix1 g) = ∑ r : Fin 5000, src (ix2 r g) := by
  refine (Ideal.multiReduction_add_single src 0x00000000#32 h hφ hacc (ix1 g)).trans ?_
  exact Finset.sum_congr rfl fun r _ => congrArg src (lift_rows h g r)

/-- The running count plus, at lane g, the number of the block's rows whose graph number is g. -/
theorem pay5_apply (v11 : Vec Ideal S5000x1 .i32) (v29 : Vec Ideal S1x256 .f32) (g : Fin 256) :
    k2_pay5 v11 v29 (ix2 0 g) = v29 (ix2 0 g) + ∑ r : Fin 5000, hot (v11 (ix2 r 0)) g.val := by
  unfold k2_pay5
  refine (addf_apply _ _ _).trans ?_
  rw [shapeCast_self, shapeCast_a_1a_apply, colsum_apply]
  exact congrArg (v29 (ix2 0 g) + ·) (Finset.sum_congr rfl fun r _ => maskf_apply v11 r g)

/-! ## The second pooling call has the same payloads -/

theorem k5_pay1_eq : @k5_pay1 = @k2_pay1 := rfl
theorem k5_pay2_eq : @k5_pay2 = @k2_pay2 := rfl
theorem k5_pay4_eq : @k5_pay4 = @k2_pay4 := rfl
theorem k5_pay5_eq : @k5_pay5 = @k2_pay5 := rfl

end Cert.KernelIdeal.RegionValue

end
-- ==== Proof.Region2.lean ====
/-
  The pooling region of the graph network (twenty grid points, each reading 5000 node rows, the bias row and the rows'
  graph numbers, and carrying two accumulators from point to point): what its two result arrays hold after the region,
  as whole-array functions of the region's three input arrays.

  The first point zero-fills both accumulators and accumulates its block; every later point accumulates its block onto
  what the point before left; the accumulators are written back once, after the last point, each as one block that is
  the whole array.  At graph `g` and lane `j` a point adds `∑ r, [node r is of graph g] * max (a r j + b j) 0` over its
  5000 rows (and `∑ r, [node r is of graph g]` to the count).  By induction on the point the accumulators after point
  `n` are these sums over the first `n + 1` blocks; the twenty blocks of 5000 rows are the 100000 nodes, and a sum
  weighted by a 0/1 indicator is the sum over the indices where it is 1: the pooled sum and the pooled count.
-/
import proofs.«425248_j7627861918208_2_alg».proof.Proof.Gen.KernelIdeal.Frame
import proofs.«425248_j7627861918208_2_alg».proof.Proof.Spec
import proofs.«425248_j7627861918208_2_alg».proof.Proof.LibSums
import proofs.«425248_j7627861918208_2_alg».proof.Proof.Region2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.RegionValue

open Cert.KernelIdeal Cert.KernelIdeal.Gen Idealize.ShloMosaic Idealize.ShloMosaic.ValueIdx

section Payloads

/-- The fills of the first point are zero at every index. -/
theorem fill2_3_apply (i : S256x64.Idx) : k2_pay1 (F := Ideal) i = 0 := pay1_apply i
theorem fill2_4_apply (i : S1x256.Idx) : k2_pay2 (F := Ideal) i = 0 := pay2_apply i

/-- The accumulation onto the sums at graph `g`, lane `j`: what was there plus, over the block's rows, the membership
    indicator times the rectified biased entry. -/
theorem acc2_3_apply (v3 : Vec Ideal S5000x64 .f32) (v5 : Vec Ideal S1x64 .f32) (v11 : Vec Ideal S5000x1 .i32) (v21 : Vec Ideal S256x64 .f32)
    (g : Fin 256) (j : Fin 64) :
    k2_pay4 v3 v5 v11 v21 (ix2 g j)
      = v21 (ix2 g j) + ∑ r : Fin 5000, hot (v11 (ix2 r 0)) g.val * max (v3 (ix2 r j) + v5 (ix2 0 j)) 0 :=
  pay4_apply v3 v5 v11 v21 g j

/-- The accumulation onto the counts at graph `g`: what was there plus the block's membership indicators. -/
theorem acc2_4_apply (v11 : Vec Ideal S5000x1 .i32) (v29 : Vec Ideal S1x256 .f32) (g : Fin 256) :
    k2_pay5 v11 v29 (ix2 0 g) = v29 (ix2 0 g) + ∑ r : Fin 5000, hot (v11 (ix2 r 0)) g.val :=
  pay5_apply v11 v29 g

end Payloads

section Pieces
variable {F : FTy → Type} [FloatOps F]

/-- The zero offsets of a whole-buffer access, however they are spelt. -/
theorem hz2 : (![0, 0] : Fin 2 → Nat) = fun _ => 0 := funext fun a => by fin_cases a <;> rfl

/-- A later point leaves in the sums' buffer the accumulation payload of its three input blocks over what the
    buffer held: one store covering the buffer, its loads reading whole buffers. -/
theorem out2_B_3_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : ¬cond2_0 i)
    (x0 : Vec F S5000x64 .f32) (x1 : Vec F S1x64 .f32) (x2 : Vec F S5000x1 .i32) (xo3 : Vec F S256x64 .f32) (xo4 : Vec F S1x256 .f32) :
    out2_B_3 c i arg1 harg1 arg2 harg2 arg3 harg3 arg4 harg4 arg5 harg5 hc0 x0 x1 x2 xo3 xo4 = k2_pay4 x0 x1 x2 xo3 := by
  unfold out2_B_3
  rw [View.read_writes_eq_canon _ _ _ (cover2_B_3 c i arg1 harg1 arg2 harg2 arg3 harg3 arg4 harg4 arg5 harg5 hc0 x0 x1 x2 xo3 xo4)]
  unfold kernelRun2_B
  dsimp only
  sl_unfold_words
  rw [View.canon_unit_zero (S := S256x64) hz2]
  simp only [View.readAt_eq_ld, harg1.read_unread, harg2.read_unread, harg3.read_unread, harg4.read_unread,
    View.ld_unit_zero (S := S5000x64) hz2, View.ld_unit_zero (S := S1x64) hz2, View.ld_unit_zero (S := S5000x1) hz2,
    View.ld_unit_zero (S := S256x64) hz2]

/-- Likewise the counts' buffer: the counting payload of the graph-number block over what the buffer held. -/
theorem out2_B_4_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : ¬cond2_0 i)
    (x0 : Vec F S5000x64 .f32) (x1 : Vec F S1x64 .f32) (x2 : Vec F S5000x1 .i32) (xo3 : Vec F S256x64 .f32) (xo4 : Vec F S1x256 .f32) :
    out2_B_4 c i arg1 harg1 arg2 harg2 arg3 harg3 arg4 harg4 arg5 harg5 hc0 x0 x1 x2 xo3 xo4 = k2_pay5 x2 xo4 := by
  unfold out2_B_4
  rw [View.read_writes_eq_canon _ _ _ (cover2_B_4 c i arg1 harg1 arg2 harg2 arg3 harg3 arg4 harg4 arg5 harg5 hc0 x0 x1 x2 xo3 xo4)]
  unfold kernelRun2_B
  dsimp only
  sl_unfold_words
  rw [View.canon_unit_zero (S := S1x256) hz2]
  simp only [View.readAt_eq_ld, harg3.read_unread, harg5.read_unread,
    View.ld_unit_zero (S := S5000x1) hz2, View.ld_unit_zero (S := S1x256) hz2]

/-- The first point stores the zero fill, reads it back and accumulates onto it: the later store covers the buffer, and
    the read-back of the one earlier store is the fill. -/
theorem out2_A_3_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : cond2_0 i)
    (x0 : Vec F S5000x64 .f32) (x1 : Vec F S1x64 .f32) (x2 : Vec F S5000x1 .i32) :
    out2_A_3 c i arg1 harg1 arg2 harg2 arg3 harg3 arg4 harg4 arg5 harg5 hc0 x0 x1 x2 = k2_pay4 x0 x1 x2 (k2_pay1 (F := F)) := by
  unfold out2_A_3
  rw [View.read_writes_eq_canon _ _ _ (cover2_A_3 c i arg1 harg1 arg2 harg2 arg3 harg3 arg4 harg4 arg5 harg5 hc0 x0 x1 x2)]
  unfold kernelRun2_A
  dsimp only
  sl_unfold_words
  rw [View.canon_cons_unit_zero (S := S256x64) hz2]
  simp only [View.readAt_eq_ld, harg1.read_unread, harg2.read_unread, harg3.read_unread,
    View.ld_unit_zero (S := S5000x64) hz2, View.ld_unit_zero (S := S1x64) hz2, View.ld_unit_zero (S := S5000x1) hz2,
    View.readCov_unit_zero (S := S256x64) _ hz2]

theorem out2_A_4_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : cond2_0 i)
    (x0 : Vec F S5000x64 .f32) (x1 : Vec F S1x64 .f32) (x2 : Vec F S5000x1 .i32) :
    out2_A_4 c i arg1 harg1 arg2 harg2 arg3 harg3 arg4 harg4 arg5 harg5 hc0 x0 x1 x2 = k2_pay5 x2 (k2_pay2 (F := F)) := by
  unfold out2_A_4
  rw [View.read_writes_eq_canon _ _ _ (cover2_A_4 c i arg1 harg1 arg2 harg2 arg3 harg3 arg4 harg4 arg5 harg5 hc0 x0 x1 x2)]
  unfold kernelRun2_A
  dsimp only
  sl_unfold_words
  rw [View.canon_cons_unit_zero (S := S1x256) hz2]
  simp only [View.readAt_eq_ld, harg3.read_unread,
    View.ld_unit_zero (S := S5000x1) hz2,
    View.readCov_unit_zero (S := S1x256) _ hz2]

end Pieces

section Blocks
variable (V : (c : Dev nD) → (b : Ref sig .tc) → Buf (Elt Ideal) ((c : Thread nD τ).loc b))

/-- The region's three input arrays, at their literal types: the node rows, the bias row, the graph numbers. -/
abbrev rows2 (c : Dev nD) : Vec Ideal S100000x64 .f32 := V c (Pipeline.arrRef spec2 0)
abbrev bias2 (c : Dev nD) : Vec Ideal S1x64 .f32 := V c (Pipeline.arrRef spec2 1)
abbrev gnum2 (c : Dev nD) : Vec Ideal S100000x1 .i32 := V c (Pipeline.arrRef spec2 2)

/-- Their blocks at a grid point, at their literal types. -/
abbrev rowsBlk2 (c : Dev nD) (t : Fin cfg2.N) : Vec Ideal S5000x64 .f32 := iblk2 V c 0 t
abbrev biasBlk2 (c : Dev nD) (t : Fin cfg2.N) : Vec Ideal S1x64 .f32 := iblk2 V c 1 t
abbrev gnumBlk2 (c : Dev nD) (t : Fin cfg2.N) : Vec Ideal S5000x1 .i32 := iblk2 V c 2 t

/-- The index maps over the grid: the row blocks and the graph-number blocks move with the point along the rows,
    the bias row stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of the point's row block is row `5000 t + r` of the array. -/
theorem rowsBlk2_apply (c : Dev nD) (t : Fin cfg2.N) (r : Fin 5000) (j : Fin 64) (h : 5000 * t.val + r.val < 100000) :
    rowsBlk2 V c t (ix2 r j) = rows2 V c (ix2 ⟨5000 * t.val + r.val, h⟩ j) := by
  obtain ⟨e0, e1, -, -, -, -⟩ := idx_facts2 t
  unfold rowsBlk2 iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 64 + 1 * j.val = j.val; rw [e1]; omega

/-- Likewise the graph numbers. -/
theorem gnumBlk2_apply (c : Dev nD) (t : Fin cfg2.N) (r : Fin 5000) (h : 5000 * t.val + r.val < 100000) :
    gnumBlk2 V c t (ix2 r 0) = gnum2 V c (ix2 ⟨5000 * t.val + r.val, h⟩ 0) := by
  obtain ⟨-, -, -, -, e0, e1⟩ := idx_facts2 t
  unfold gnumBlk2 iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * r.val = 5000 * t.val + r.val; rw [e0]; omega
  | ⟨1, _⟩ => show win2_2.index t (1 : Fin 2) * 1 + 1 * 0 = 0; rw [e1]

/-- The bias block is the whole bias row at every point. -/
theorem biasBlk2_apply (c : Dev nD) (t : Fin cfg2.N) (j : Fin 64) :
    biasBlk2 V c t (ix2 0 j) = bias2 V c (ix2 0 j) := by
  obtain ⟨-, -, e0, e1, -, -⟩ := idx_facts2 t
  unfold biasBlk2 iblk2
  rw [View.read_apply]
  show V c (Pipeline.arrRef spec2 1) _ = V c (Pipeline.arrRef spec2 1) _
  congr 1
  funext a
  apply Fin.ext
  match a with
  | ⟨0, _⟩ => show win2_1.index t (0 : Fin 2) * 1 + 1 * 0 = 0; rw [e0]
  | ⟨1, _⟩ => show win2_1.index t (1 : Fin 2) * 64 + 1 * j.val = j.val; rw [e1]; omega

end Blocks

section Invariant
variable (V : (c : Dev nD) → (b : Ref sig .tc) → Buf (Elt Ideal) ((c : Thread nD τ).loc b))

/-- Node `n`'s contribution to the sum of graph `g` in lane `j`: its rectified biased row entry if the node is of that
    graph, zero otherwise. -/
def contrib2 (c : Dev nD) (g : Fin 256) (j : Fin 64) (n : Fin 100000) : EReal :=
  hot (gnum2 V c (ix2 n 0)) g.val * max (rows2 V c (ix2 n j) + bias2 V c (ix2 0 j)) 0

/-- Node `n`'s contribution to the count of graph `g`. -/
def tally2 (c : Dev nD) (g : Fin 256) (n : Fin 100000) : EReal := hot (gnum2 V c (ix2 n 0)) g.val

/-- What point `t`'s block adds to the sums: the contributions of its 5000 nodes. -/
theorem blockSum2 (c : Dev nD) (t : Fin cfg2.N) (g : Fin 256) (j : Fin 64) (ht : t.val < 20) :
    ∑ r : Fin 5000, hot (gnumBlk2 V c t (ix2 r 0)) g.val * max (rowsBlk2 V c t (ix2 r j) + biasBlk2 V c t (ix2 0 j)) 0
      = ∑ r : Fin 5000, contrib2 V c g j ⟨5000 * t.val + r.val, by omega⟩ :=
  Finset.sum_congr rfl fun r _ => by
    unfold contrib2
    rw [gnumBlk2_apply V c t r (by omega), rowsBlk2_apply V c t r j (by omega), biasBlk2_apply V c t j]

/-- What point `t`'s block adds to the counts. -/
theorem blockCnt2 (c : Dev nD) (t : Fin cfg2.N) (g : Fin 256) (ht : t.val < 20) :
    ∑ r : Fin 5000, hot (gnumBlk2 V c t (ix2 r 0)) g.val
      = ∑ r : Fin 5000, tally2 V c g ⟨5000 * t.val + r.val, by omega⟩ :=
  Finset.sum_congr rfl fun r _ => by
    unfold tally2
    rw [gnumBlk2_apply V c t r (by omega)]

/-- After point `n` the sums' buffer holds, at graph `g` and lane `j`, the contributions of the nodes of the first
    `n + 1` blocks — by induction on the point: the first point accumulates onto the zero fill, each later one onto what
    the point before left. -/
theorem sumsAt2 (c : Dev nD) (g : Fin 256) (j : Fin 64) : ∀ (n : ℕ) (h : n < cfg2.N),
    (outsAt2 V c n h).1 (ix2 g j)
      = ∑ t ∈ Finset.univ.filter (fun t : Fin 20 => t.val < n + 1), ∑ r : Fin 5000, contrib2 V c g j ⟨5000 * t.val + r.val, by omega⟩
  | 0, h => by
    rw [outsAt2_A V c ⟨0, h⟩ rfl]
    dsimp only
    refine (congrFun (out2_A_3_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (rowsBlk2 V c ⟨0, h⟩) (biasBlk2 V c ⟨0, h⟩) (gnumBlk2 V c ⟨0, h⟩)) (ix2 g j)).trans ?_
    refine (acc2_3_apply (rowsBlk2 V c ⟨0, h⟩) (biasBlk2 V c ⟨0, h⟩) (gnumBlk2 V c ⟨0, h⟩) (k2_pay1 (F := Ideal)) g j).trans ?_
    rw [fill2_3_apply, blockSum2 V c ⟨0, h⟩ g j (by show (0 : ℕ) < 20; decide),
      ESum.sum_range_succ_blocks_20_5000 (contrib2 V c g j) 0 (by decide), ESum.sum_lt_zero]
  | n + 1, h => by
    have hN : n + 1 < 20 := lt_of_lt_of_eq h (show cfg2.N = 20 from N_2)
    have hB : ¬(⟨n + 1, h⟩ : Fin cfg2.N).val % 20 = 0 := by dsimp only; omega
    rw [outsAt2_B V c ⟨n + 1, h⟩ hB]
    dsimp only
    refine (congrFun (out2_B_3_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hc => hB ((hcond2_0 ⟨n + 1, h⟩).mp hc)) (rowsBlk2 V c ⟨n + 1, h⟩) (biasBlk2 V c ⟨n + 1, h⟩) (gnumBlk2 V c ⟨n + 1, h⟩) (outsAt2 V c n (Nat.lt_of_succ_lt h)).1 (outsAt2 V c n (Nat.lt_of_succ_lt h)).2) (ix2 g j)).trans ?_
    refine (acc2_3_apply (rowsBlk2 V c ⟨n + 1, h⟩) (biasBlk2 V c ⟨n + 1, h⟩) (gnumBlk2 V c ⟨n + 1, h⟩) (outsAt2 V c n (Nat.lt_of_succ_lt h)).1 g j).trans ?_
    rw [sumsAt2 c g j n (Nat.lt_of_succ_lt h), blockSum2 V c ⟨n + 1, h⟩ g j hN,
      ESum.sum_range_succ_blocks_20_5000 (contrib2 V c g j) (n + 1) hN]

end Invariant

section Counts
variable (V : (c : Dev nD) → (b : Ref sig .tc) → Buf (Elt Ideal) ((c : Thread nD τ).loc b))

/-- After point `n` the counts' buffer holds, at graph `g`, the tallies of the nodes of the first `n + 1` blocks. -/
theorem cntsAt2 (c : Dev nD) (g : Fin 256) : ∀ (n : ℕ) (h : n < cfg2.N),
    (outsAt2 V c n h).2 (ix2 0 g)
      = ∑ t ∈ Finset.univ.filter (fun t : Fin 20 => t.val < n + 1), ∑ r : Fin 5000, tally2 V c g ⟨5000 * t.val + r.val, by omega⟩
  | 0, h => by
    rw [outsAt2_A V c ⟨0, h⟩ rfl]
    dsimp only
    refine (congrFun (out2_A_4_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (rowsBlk2 V c ⟨0, h⟩) (biasBlk2 V c ⟨0, h⟩) (gnumBlk2 V c ⟨0, h⟩)) (ix2 0 g)).trans ?_
    refine (acc2_4_apply (gnumBlk2 V c ⟨0, h⟩) (k2_pay2 (F := Ideal)) g).trans ?_
    rw [fill2_4_apply, blockCnt2 V c ⟨0, h⟩ g (by show (0 : ℕ) < 20; decide),
      ESum.sum_range_succ_blocks_20_5000 (tally2 V c g) 0 (by decide), ESum.sum_lt_zero]
  | n + 1, h => by
    have hN : n + 1 < 20 := lt_of_lt_of_eq h (show cfg2.N = 20 from N_2)
    have hB : ¬(⟨n + 1, h⟩ : Fin cfg2.N).val % 20 = 0 := by dsimp only; omega
    rw [outsAt2_B V c ⟨n + 1, h⟩ hB]
    dsimp only
    refine (congrFun (out2_B_4_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hc => hB ((hcond2_0 ⟨n + 1, h⟩).mp hc)) (rowsBlk2 V c ⟨n + 1, h⟩) (biasBlk2 V c ⟨n + 1, h⟩) (gnumBlk2 V c ⟨n + 1, h⟩) (outsAt2 V c n (Nat.lt_of_succ_lt h)).1 (outsAt2 V c n (Nat.lt_of_succ_lt h)).2) (ix2 0 g)).trans ?_
    refine (acc2_4_apply (gnumBlk2 V c ⟨n + 1, h⟩) (outsAt2 V c n (Nat.lt_of_succ_lt h)).2 g).trans ?_
    rw [cntsAt2 c g n (Nat.lt_of_succ_lt h), blockCnt2 V c ⟨n + 1, h⟩ g hN,
      ESum.sum_range_succ_blocks_20_5000 (tally2 V c g) (n + 1) hN]

end Counts

section Final
variable (V : (c : Dev nD) → (b : Ref sig .tc) → Buf (Elt Ideal) ((c : Thread nD τ).loc b))

/-- The last grid point. -/
abbrev last2 : Fin cfg2.N := ⟨19, by rw [show cfg2.N = 20 from N_2]; decide⟩

/-- After the last point the sums' buffer is the pooled sum of the whole arrays: the twenty blocks of 5000 nodes are
    all 100000 nodes, and a sum weighted by the membership indicator is the sum over the members. -/
theorem sums_last2 (c : Dev nD) :
    (outsAt2 V c (last2).val (last2).isLt).1 = GCN.poolSum 256 (rows2 V c) (bias2 V c) (gnum2 V c) := by
  funext i
  obtain ⟨g, j, rfl⟩ : ∃ (g : Fin 256) (j : Fin 64), i = ix2 g j := ⟨i 0, i 1, eq_ix2 i⟩
  refine ((sumsAt2 V c g j 19 (last2).isLt).trans (ESum.sum_blocks_eq_sum_lt_20_5000 (contrib2 V c g j)).symm).trans ?_
  rw [GCN.poolSum_apply]
  unfold contrib2 hot
  exact ESum.sum_indicator_mul (fun n : Fin 100000 => (gnum2 V c (ix2 n 0)).toInt = ((g.val : ℕ) : ℤ))
    (fun n => max (rows2 V c (ix2 n j) + bias2 V c (ix2 0 j)) 0)

/-- Likewise the counts' buffer is the pooled count. -/
theorem cnts_last2 (c : Dev nD) :
    (outsAt2 V c (last2).val (last2).isLt).2 = GCN.poolCnt 256 (gnum2 V c) := by
  funext i
  obtain ⟨z, g, rfl⟩ : ∃ (z : Fin 1) (g : Fin 256), i = ix2 z g := ⟨i 0, i 1, eq_ix2 i⟩
  obtain rfl : z = 0 := Subsingleton.elim _ _
  refine ((cntsAt2 V c g 19 (last2).isLt).trans (ESum.sum_blocks_eq_sum_lt_20_5000 (tally2 V c g)).symm).trans ?_
  rw [GCN.poolCnt_apply]
  unfold tally2 hot
  exact ESum.sum_indicator (fun n : Fin 100000 => (gnum2 V c (ix2 n 0)).toInt = ((g.val : ℕ) : ℤ))

/-- The one write-back of the sums, after the last point, writes the pooled sum: the block at zero offsets of the
    array's own sizes is the array. -/
theorem flushed2_3_eq (c : Dev nD) (t : Fin cfg2.N) (hf : (cfg2.win 3).flush t = true) :
    (dat2 (F := Ideal) V c).flushed 3 t
      = ((cfg2.win 3).blk t).view.read (Elt Ideal) (GCN.poolSum 256 (rows2 V c) (bias2 V c) (gnum2 V c)) := by
  have hN : cfg2.N = 20 := N_2
  have h19 : t.val = 19 := by have := (flush2_3 t).mp hf; have := t.isLt; omega
  obtain rfl : t = last2 := Fin.ext h19
  show (cfg2.win 3).cut (grid2.coords last2) ((dat2 (F := Ideal) V c).after 3 last2) = _
  rw [after2_3, sums_last2]
  have hz' : (fun a => win2_3.index last2 a * (Pipeline.arrRef spec2 3).ty.shape.size a) = fun _ => 0 := funext fun a => by fin_cases a <;> decide
  exact (Memref.read_access_unit_zero (Elt Ideal) (Pipeline.arrRef spec2 3) hz' (fun a => by rw [congrFun hz' a]; simp) (GCN.poolSum 256 (rows2 V c) (bias2 V c) (gnum2 V c))).symm

end Final

section Top
variable (V : (c : Dev nD) → (b : Ref sig .tc) → Buf (Elt Ideal) ((c : Thread nD τ).loc b))

/-- The one write-back of the counts, after the last point, writes the pooled count. -/
theorem flushed2_4_eq (c : Dev nD) (t : Fin cfg2.N) (hf : (cfg2.win 4).flush t = true) :
    (dat2 (F := Ideal) V c).flushed 4 t
      = ((cfg2.win 4).blk t).view.read (Elt Ideal) (GCN.poolCnt 256 (gnum2 V c)) := by
  have hN : cfg2.N = 20 := N_2
  have h19 : t.val = 19 := by have := (flush2_4 t).mp hf; have := t.isLt; omega
  obtain rfl : t = last2 := Fin.ext h19
  show (cfg2.win 4).cut (grid2.coords last2) ((dat2 (F := Ideal) V c).after 4 last2) = _
  rw [after2_4, cnts_last2]
  have hz' : (fun a => win2_4.index last2 a * (Pipeline.arrRef spec2 4).ty.shape.size a) = fun _ => 0 := funext fun a => by fin_cases a <;> decide
  exact (Memref.read_access_unit_zero (Elt Ideal) (Pipeline.arrRef spec2 4) hz' (fun a => by rw [congrFun hz' a]; simp) (GCN.poolCnt 256 (gnum2 V c))).symm

/-- The sums array after the region: the last point's block is the whole array, so it ends holding the pooled sum of
    the region's input arrays. -/
theorem region2_sum (c : Dev nD) : (dat2 (F := Ideal) V c).arrAt 3 cfg2.N
    = GCN.poolSum 256 (V c (Pipeline.arrRef spec2 0)) (V c (Pipeline.arrRef spec2 1)) (V c (Pipeline.arrRef spec2 2)) :=
  (dat2 (F := Ideal) V c).arrAt_eq_of_cover 3 (GCN.poolSum 256 (rows2 V c) (bias2 V c) (gnum2 V c)) (flushed2_3_eq V c) fun i =>
    ⟨last2, (flush2_3 last2).mpr rfl, by
      show i ∈ ((View.whole (Pipeline.arrRef spec2 3)).slice (win2_3.rect last2)).set
      rw [View.set_slice_whole, Rect.mem_set_unit]
      intro a
      have h0 : (i 0 : Nat) < 256 := (i 0).isLt
      have h1 : (i 1 : Nat) < 64 := (i 1).isLt
      match a with
      | ⟨0, _⟩ => show win2_3.index last2 0 * win2_3.size 0 ≤ (i 0 : Nat) ∧ (i 0 : Nat) < win2_3.index last2 0 * win2_3.size 0 + win2_3.xsize (grid2.coords last2) 0
                  rw [show win2_3.index last2 0 * win2_3.size 0 = 0 from by decide +kernel, show win2_3.xsize (grid2.coords last2) 0 = 256 from by decide +kernel]; omega
      | ⟨1, _⟩ => show win2_3.index last2 1 * win2_3.size 1 ≤ (i 1 : Nat) ∧ (i 1 : Nat) < win2_3.index last2 1 * win2_3.size 1 + win2_3.xsize (grid2.coords last2) 1
                  rw [show win2_3.index last2 1 * win2_3.size 1 = 0 from by decide +kernel, show win2_3.xsize (grid2.coords last2) 1 = 64 from by decide +kernel]; omega⟩

/-- The counts array after the region ends holding the pooled count of the graph numbers. -/
theorem region2_cnt (c : Dev nD) : (dat2 (F := Ideal) V c).arrAt 4 cfg2.N
    = GCN.poolCnt 256 (V c (Pipeline.arrRef spec2 2)) :=
  (dat2 (F := Ideal) V c).arrAt_eq_of_cover 4 (GCN.poolCnt 256 (gnum2 V c)) (flushed2_4_eq V c) fun i =>
    ⟨last2, (flush2_4 last2).mpr rfl, by
      show i ∈ ((View.whole (Pipeline.arrRef spec2 4)).slice (win2_4.rect last2)).set
      rw [View.set_slice_whole, Rect.mem_set_unit]
      intro a
      have h0 : (i 0 : Nat) < 1 := (i 0).isLt
      have h1 : (i 1 : Nat) < 256 := (i 1).isLt
      match a with
      | ⟨0, _⟩ => show win2_4.index last2 0 * win2_4.size 0 ≤ (i 0 : Nat) ∧ (i 0 : Nat) < win2_4.index last2 0 * win2_4.size 0 + win2_4.xsize (grid2.coords last2) 0
                  rw [show win2_4.index last2 0 * win2_4.size 0 = 0 from by decide +kernel, show win2_4.xsize (grid2.coords last2) 0 = 1 from by decide +kernel]; omega
      | ⟨1, _⟩ => show win2_4.index last2 1 * win2_4.size 1 ≤ (i 1 : Nat) ∧ (i 1 : Nat) < win2_4.index last2 1 * win2_4.size 1 + win2_4.xsize (grid2.coords last2) 1
                  rw [show win2_4.index last2 1 * win2_4.size 1 = 0 from by decide +kernel, show win2_4.xsize (grid2.coords last2) 1 = 256 from by decide +kernel]; omega⟩

end Top

end Cert.KernelIdeal.RegionValue

end
-- ==== Proof.Region2b.lean ====
/-
  The pooling region of the graph network (twenty grid points, each reading 5000 node rows, the bias row and the rows'
  graph numbers, and carrying two accumulators from point to point): what its two result arrays hold after the region,
  as whole-array functions of the region's three input arrays.

  The first point zero-fills both accumulators and accumulates its block; every later point accumulates its block onto
  what the point before left; the accumulators are written back once, after the last point, each as one block that is
  the whole array.  At graph `g` and lane `j` a point adds `∑ r, [node r is of graph g] * max (a r j + b j) 0` over its
  5000 rows (and `∑ r, [node r is of graph g]` to the count).  By induction on the point the accumulators after point
  `n` are these sums over the first `n + 1` blocks; the twenty blocks of 5000 rows are the 100000 nodes, and a sum
  weighted by a 0/1 indicator is the sum over the indices where it is 1: the pooled sum and the pooled count.
-/
import proofs.«425248_j7627861918208_2_alg».proof.Proof.Gen.KernelIdeal.Frame
import proofs.«425248_j7627861918208_2_alg».proof.Proof.Spec
import proofs.«425248_j7627861918208_2_alg».proof.Proof.LibSums
import proofs.«425248_j7627861918208_2_alg».proof.Proof.Region2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.RegionValue

open Cert.KernelIdeal Cert.KernelIdeal.Gen Idealize.ShloMosaic Idealize.ShloMosaic.ValueIdx

section Payloads

/-- The fills of the first point are zero at every index. -/
theorem fill5_3_apply (i : S256x64.Idx) : k5_pay1 (F := Ideal) i = 0 := pay1_apply i
theorem fill5_4_apply (i : S1x256.Idx) : k5_pay2 (F := Ideal) i = 0 := pay2_apply i

/-- The accumulation onto the sums at graph `g`, lane `j`: what was there plus, over the block's rows, the membership
    indicator times the rectified biased entry. -/
theorem acc5_3_apply (v3 : Vec Ideal S5000x64 .f32) (v5 : Vec Ideal S1x64 .f32) (v11 : Vec Ideal S5000x1 .i32) (v21 : Vec Ideal S256x64 .f32)
    (g : Fin 256) (j : Fin 64) :
    k5_pay4 v3 v5 v11 v21 (ix2 g j)
      = v21 (ix2 g j) + ∑ r : Fin 5000, hot (v11 (ix2 r 0)) g.val * max (v3 (ix2 r j) + v5 (ix2 0 j)) 0 :=
  pay4_apply v3 v5 v11 v21 g j

/-- The accumulation onto the counts at graph `g`: what was there plus the block's membership indicators. -/
theorem acc5_4_apply (v11 : Vec Ideal S5000x1 .i32) (v29 : Vec Ideal S1x256 .f32) (g : Fin 256) :
    k5_pay5 v11 v29 (ix2 0 g) = v29 (ix2 0 g) + ∑ r : Fin 5000, hot (v11 (ix2 r 0)) g.val :=
  pay5_apply v11 v29 g

end Payloads

section Pieces
variable {F : FTy → Type} [FloatOps F]

/-- The zero offsets of a whole-buffer access, however they are spelt. -/
theorem hz5 : (![0, 0] : Fin 2 → Nat) = fun _ => 0 := funext fun a => by fin_cases a <;> rfl

/-- A later point leaves in the sums' buffer the accumulation payload of its three input blocks over what the
    buffer held: one store covering the buffer, its loads reading whole buffers. -/
theorem out5_B_3_eq (c : Dev nD) (i : grid5.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : ¬cond5_0 i)
    (x0 : Vec F S5000x64 .f32) (x1 : Vec F S1x64 .f32) (x2 : Vec F S5000x1 .i32) (xo3 : Vec F S256x64 .f32) (xo4 : Vec F S1x256 .f32) :
    out5_B_3 c i arg1 harg1 arg2 harg2 arg3 harg3 arg4 harg4 arg5 harg5 hc0 x0 x1 x2 xo3 xo4 = k5_pay4 x0 x1 x2 xo3 := by
  unfold out5_B_3
  rw [View.read_writes_eq_canon _ _ _ (cover5_B_3 c i arg1 harg1 arg2 harg2 arg3 harg3 arg4 harg4 arg5 harg5 hc0 x0 x1 x2 xo3 xo4)]
  unfold kernelRun5_B
  dsimp only
  sl_unfold_words
  rw [View.canon_unit_zero (S := S256x64) hz5]
  simp only [View.readAt_eq_ld, harg1.read_unread, harg2.read_unread, harg3.read_unread, harg4.read_unread,
    View.ld_unit_zero (S := S5000x64) hz5, View.ld_unit_zero (S := S1x64) hz5, View.ld_unit_zero (S := S5000x1) hz5,
    View.ld_unit_zero (S := S256x64) hz5]

/-- Likewise the counts' buffer: the counting payload of the graph-number block over what the buffer held. -/
theorem out5_B_4_eq (c : Dev nD) (i : grid5.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : ¬cond5_0 i)
    (x0 : Vec F S5000x64 .f32) (x1 : Vec F S1x64 .f32) (x2 : Vec F S5000x1 .i32) (xo3 : Vec F S256x64 .f32) (xo4 : Vec F S1x256 .f32) :
    out5_B_4 c i arg1 harg1 arg2 harg2 arg3 harg3 arg4 harg4 arg5 harg5 hc0 x0 x1 x2 xo3 xo4 = k5_pay5 x2 xo4 := by
  unfold out5_B_4
  rw [View.read_writes_eq_canon _ _ _ (cover5_B_4 c i arg1 harg1 arg2 harg2 arg3 harg3 arg4 harg4 arg5 harg5 hc0 x0 x1 x2 xo3 xo4)]
  unfold kernelRun5_B
  dsimp only
  sl_unfold_words
  rw [View.canon_unit_zero (S := S1x256) hz5]
  simp only [View.readAt_eq_ld, harg3.read_unread, harg5.read_unread,
    View.ld_unit_zero (S := S5000x1) hz5, View.ld_unit_zero (S := S1x256) hz5]

/-- The first point stores the zero fill, reads it back and accumulates onto it: the later store covers the buffer, and
    the read-back of the one earlier store is the fill. -/
theorem out5_A_3_eq (c : Dev nD) (i : grid5.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : cond5_0 i)
    (x0 : Vec F S5000x64 .f32) (x1 : Vec F S1x64 .f32) (x2 : Vec F S5000x1 .i32) :
    out5_A_3 c i arg1 harg1 arg2 harg2 arg3 harg3 arg4 harg4 arg5 harg5 hc0 x0 x1 x2 = k5_pay4 x0 x1 x2 (k5_pay1 (F := F)) := by
  unfold out5_A_3
  rw [View.read_writes_eq_canon _ _ _ (cover5_A_3 c i arg1 harg1 arg2 harg2 arg3 harg3 arg4 harg4 arg5 harg5 hc0 x0 x1 x2)]
  unfold kernelRun5_A
  dsimp only
  sl_unfold_words
  rw [View.canon_cons_unit_zero (S := S256x64) hz5]
  simp only [View.readAt_eq_ld, harg1.read_unread, harg2.read_unread, harg3.read_unread,
    View.ld_unit_zero (S := S5000x64) hz5, View.ld_unit_zero (S := S1x64) hz5, View.ld_unit_zero (S := S5000x1) hz5,
    View.readCov_unit_zero (S := S256x64) _ hz5]

theorem out5_A_4_eq (c : Dev nD) (i : grid5.Coords) (arg1 : Memref sig .tc .vmem S5000x64 .f32) (harg1 : arg1.IsWhole) (arg2 : Memref sig .tc .vmem S1x64 .f32) (harg2 : arg2.IsWhole) (arg3 : Memref sig .tc .vmem S5000x1 .i32) (harg3 : arg3.IsWhole) (arg4 : Memref sig .tc .vmem S256x64 .f32) (harg4 : arg4.IsWhole) (arg5 : Memref sig .tc .vmem S1x256 .f32) (harg5 : arg5.IsWhole) (hc0 : cond5_0 i)
    (x0 : Vec F S5000x64 .f32) (x1 : Vec F S1x64 .f32) (x2 : Vec F S5000x1 .i32) :
    out5_A_4 c i arg1 harg1 arg2 harg2 arg3 harg3 arg4 harg4 arg5 harg5 hc0 x0 x1 x2 = k5_pay5 x2 (k5_pay2 (F := F)) := by
  unfold out5_A_4
  rw [View.read_writes_eq_canon _ _ _ (cover5_A_4 c i arg1 harg1 arg2 harg2 arg3 harg3 arg4 harg4 arg5 harg5 hc0 x0 x1 x2)]
  unfold kernelRun5_A
  dsimp only
  sl_unfold_words
  rw [View.canon_cons_unit_zero (S := S1x256) hz5]
  simp only [View.readAt_eq_ld, harg3.read_unread,
    View.ld_unit_zero (S := S5000x1) hz5,
    View.readCov_unit_zero (S := S1x256) _ hz5]

end Pieces

section Blocks
variable (V : (c : Dev nD) → (b : Ref sig .tc) → Buf (Elt Ideal) ((c : Thread nD τ).loc b))

/-- The region's three input arrays, at their literal types: the node rows, the bias row, the graph numbers. -/
abbrev rows5 (c : Dev nD) : Vec Ideal S100000x64 .f32 := V c (Pipeline.arrRef spec5 0)
abbrev bias5 (c : Dev nD) : Vec Ideal S1x64 .f32 := V c (Pipeline.arrRef spec5 1)
abbrev gnum5 (c : Dev nD) : Vec Ideal S100000x1 .i32 := V c (Pipeline.arrRef spec5 2)

/-- Their blocks at a grid point, at their literal types. -/
abbrev rowsBlk5 (c : Dev nD) (t : Fin cfg5.N) : Vec Ideal S5000x64 .f32 := iblk5 V c 0 t
abbrev biasBlk5 (c : Dev nD) (t : Fin cfg5.N) : Vec Ideal S1x64 .f32 := iblk5 V c 1 t
abbrev gnumBlk5 (c : Dev nD) (t : Fin cfg5.N) : Vec Ideal S5000x1 .i32 := iblk5 V c 2 t

/-- The index maps over the grid: the row blocks and the graph-number blocks move with the point along the rows,
    the bias row stays. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `r` of the point's row block is row `5000 t + r` of the array. -/
theorem rowsBlk5_apply (c : Dev nD) (t : Fin cfg5.N) (r : Fin 5000) (j : Fin 64) (h : 5000 * t.val + r.val < 100000) :
    rowsBlk5 V c t (ix2 r j) = rows5 V c (ix2 ⟨5000 * t.val + r.val, h⟩ j) := by
  obtain ⟨e0, e1, -, -, -, -⟩ := idx_facts5 t
  unfold rowsBlk5 iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * r.val = 5000 * t.val + r.val; rw [e0]; omega
  | ⟨1, _⟩ => show win5_0.index t (1 : Fin 2) * 64 + 1 * j.val = j.val; rw [e1]; omega

/-- Likewise the graph numbers. -/
theorem gnumBlk5_apply (c : Dev nD) (t : Fin cfg5.N) (r : Fin 5000) (h : 5000 * t.val + r.val < 100000) :
    gnumBlk5 V c t (ix2 r 0) = gnum5 V c (ix2 ⟨5000 * t.val + r.val, h⟩ 0) := by
  obtain ⟨-, -, -, -, e0, e1⟩ := idx_facts5 t
  unfold gnumBlk5 iblk5
  rw [View.read_apply]
  show V c (Pipeline.arrRef spec5 2) _ = V c (Pipeline.arrRef spec5 2) _
  congr 1
  funext a
  apply Fin.ext
  match a with
  | ⟨0, _⟩ => show win5_2.index t (0 : Fin 2) * 5000 + 1 * r.val = 5000 * t.val + r.val; rw [e0]; omega
  | ⟨1, _⟩ => show win5_2.index t (1 : Fin 2) * 1 + 1 * 0 = 0; rw [e1]

/-- The bias block is the whole bias row at every point. -/
theorem biasBlk5_apply (c : Dev nD) (t : Fin cfg5.N) (j : Fin 64) :
    biasBlk5 V c t (ix2 0 j) = bias5 V c (ix2 0 j) := by
  obtain ⟨-, -, e0, e1, -, -⟩ := idx_facts5 t
  unfold biasBlk5 iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * 0 = 0; rw [e0]
  | ⟨1, _⟩ => show win5_1.index t (1 : Fin 2) * 64 + 1 * j.val = j.val; rw [e1]; omega

end Blocks

section Invariant
variable (V : (c : Dev nD) → (b : Ref sig .tc) → Buf (Elt Ideal) ((c : Thread nD τ).loc b))

/-- Node `n`'s contribution to the sum of graph `g` in lane `j`: its rectified biased row entry if the node is of that
    graph, zero otherwise. -/
def contrib5 (c : Dev nD) (g : Fin 256) (j : Fin 64) (n : Fin 100000) : EReal :=
  hot (gnum5 V c (ix2 n 0)) g.val * max (rows5 V c (ix2 n j) + bias5 V c (ix2 0 j)) 0

/-- Node `n`'s contribution to the count of graph `g`. -/
def tally5 (c : Dev nD) (g : Fin 256) (n : Fin 100000) : EReal := hot (gnum5 V c (ix2 n 0)) g.val

/-- What point `t`'s block adds to the sums: the contributions of its 5000 nodes. -/
theorem blockSum5 (c : Dev nD) (t : Fin cfg5.N) (g : Fin 256) (j : Fin 64) (ht : t.val < 20) :
    ∑ r : Fin 5000, hot (gnumBlk5 V c t (ix2 r 0)) g.val * max (rowsBlk5 V c t (ix2 r j) + biasBlk5 V c t (ix2 0 j)) 0
      = ∑ r : Fin 5000, contrib5 V c g j ⟨5000 * t.val + r.val, by omega⟩ :=
  Finset.sum_congr rfl fun r _ => by
    unfold contrib5
    rw [gnumBlk5_apply V c t r (by omega), rowsBlk5_apply V c t r j (by omega), biasBlk5_apply V c t j]

/-- What point `t`'s block adds to the counts. -/
theorem blockCnt5 (c : Dev nD) (t : Fin cfg5.N) (g : Fin 256) (ht : t.val < 20) :
    ∑ r : Fin 5000, hot (gnumBlk5 V c t (ix2 r 0)) g.val
      = ∑ r : Fin 5000, tally5 V c g ⟨5000 * t.val + r.val, by omega⟩ :=
  Finset.sum_congr rfl fun r _ => by
    unfold tally5
    rw [gnumBlk5_apply V c t r (by omega)]

/-- After point `n` the sums' buffer holds, at graph `g` and lane `j`, the contributions of the nodes of the first
    `n + 1` blocks — by induction on the point: the first point accumulates onto the zero fill, each later one onto what
    the point before left. -/
theorem sumsAt5 (c : Dev nD) (g : Fin 256) (j : Fin 64) : ∀ (n : ℕ) (h : n < cfg5.N),
    (outsAt5 V c n h).1 (ix2 g j)
      = ∑ t ∈ Finset.univ.filter (fun t : Fin 20 => t.val < n + 1), ∑ r : Fin 5000, contrib5 V c g j ⟨5000 * t.val + r.val, by omega⟩
  | 0, h => by
    rw [outsAt5_A V c ⟨0, h⟩ rfl]
    dsimp only
    refine (congrFun (out5_A_3_eq (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) ((hcond5_0 ⟨0, h⟩).mpr rfl) (rowsBlk5 V c ⟨0, h⟩) (biasBlk5 V c ⟨0, h⟩) (gnumBlk5 V c ⟨0, h⟩)) (ix2 g j)).trans ?_
    refine (acc5_3_apply (rowsBlk5 V c ⟨0, h⟩) (biasBlk5 V c ⟨0, h⟩) (gnumBlk5 V c ⟨0, h⟩) (k5_pay1 (F := Ideal)) g j).trans ?_
    rw [fill5_3_apply, blockSum5 V c ⟨0, h⟩ g j (by show (0 : ℕ) < 20; decide),
      ESum.sum_range_succ_blocks_20_5000 (contrib5 V c g j) 0 (by decide), ESum.sum_lt_zero]
  | n + 1, h => by
    have hN : n + 1 < 20 := lt_of_lt_of_eq h (show cfg5.N = 20 from N_5)
    have hB : ¬(⟨n + 1, h⟩ : Fin cfg5.N).val % 20 = 0 := by dsimp only; omega
    rw [outsAt5_B V c ⟨n + 1, h⟩ hB]
    dsimp only
    refine (congrFun (out5_B_3_eq (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (fun hc => hB ((hcond5_0 ⟨n + 1, h⟩).mp hc)) (rowsBlk5 V c ⟨n + 1, h⟩) (biasBlk5 V c ⟨n + 1, h⟩) (gnumBlk5 V c ⟨n + 1, h⟩) (outsAt5 V c n (Nat.lt_of_succ_lt h)).1 (outsAt5 V c n (Nat.lt_of_succ_lt h)).2) (ix2 g j)).trans ?_
    refine (acc5_3_apply (rowsBlk5 V c ⟨n + 1, h⟩) (biasBlk5 V c ⟨n + 1, h⟩) (gnumBlk5 V c ⟨n + 1, h⟩) (outsAt5 V c n (Nat.lt_of_succ_lt h)).1 g j).trans ?_
    rw [sumsAt5 c g j n (Nat.lt_of_succ_lt h), blockSum5 V c ⟨n + 1, h⟩ g j hN,
      ESum.sum_range_succ_blocks_20_5000 (contrib5 V c g j) (n + 1) hN]

end Invariant

section Counts
variable (V : (c : Dev nD) → (b : Ref sig .tc) → Buf (Elt Ideal) ((c : Thread nD τ).loc b))

/-- After point `n` the counts' buffer holds, at graph `g`, the tallies of the nodes of the first `n + 1` blocks. -/
theorem cntsAt5 (c : Dev nD) (g : Fin 256) : ∀ (n : ℕ) (h : n < cfg5.N),
    (outsAt5 V c n h).2 (ix2 0 g)
      = ∑ t ∈ Finset.univ.filter (fun t : Fin 20 => t.val < n + 1), ∑ r : Fin 5000, tally5 V c g ⟨5000 * t.val + r.val, by omega⟩
  | 0, h => by
    rw [outsAt5_A V c ⟨0, h⟩ rfl]
    dsimp only
    refine (congrFun (out5_A_4_eq (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) ((hcond5_0 ⟨0, h⟩).mpr rfl) (rowsBlk5 V c ⟨0, h⟩) (biasBlk5 V c ⟨0, h⟩) (gnumBlk5 V c ⟨0, h⟩)) (ix2 0 g)).trans ?_
    refine (acc5_4_apply (gnumBlk5 V c ⟨0, h⟩) (k5_pay2 (F := Ideal)) g).trans ?_
    rw [fill5_4_apply, blockCnt5 V c ⟨0, h⟩ g (by show (0 : ℕ) < 20; decide),
      ESum.sum_range_succ_blocks_20_5000 (tally5 V c g) 0 (by decide), ESum.sum_lt_zero]
  | n + 1, h => by
    have hN : n + 1 < 20 := lt_of_lt_of_eq h (show cfg5.N = 20 from N_5)
    have hB : ¬(⟨n + 1, h⟩ : Fin cfg5.N).val % 20 = 0 := by dsimp only; omega
    rw [outsAt5_B V c ⟨n + 1, h⟩ hB]
    dsimp only
    refine (congrFun (out5_B_4_eq (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (fun hc => hB ((hcond5_0 ⟨n + 1, h⟩).mp hc)) (rowsBlk5 V c ⟨n + 1, h⟩) (biasBlk5 V c ⟨n + 1, h⟩) (gnumBlk5 V c ⟨n + 1, h⟩) (outsAt5 V c n (Nat.lt_of_succ_lt h)).1 (outsAt5 V c n (Nat.lt_of_succ_lt h)).2) (ix2 0 g)).trans ?_
    refine (acc5_4_apply (gnumBlk5 V c ⟨n + 1, h⟩) (outsAt5 V c n (Nat.lt_of_succ_lt h)).2 g).trans ?_
    rw [cntsAt5 c g n (Nat.lt_of_succ_lt h), blockCnt5 V c ⟨n + 1, h⟩ g hN,
      ESum.sum_range_succ_blocks_20_5000 (tally5 V c g) (n + 1) hN]

end Counts

section Final
variable (V : (c : Dev nD) → (b : Ref sig .tc) → Buf (Elt Ideal) ((c : Thread nD τ).loc b))

/-- The last grid point. -/
abbrev last5 : Fin cfg5.N := ⟨19, by rw [show cfg5.N = 20 from N_5]; decide⟩

/-- After the last point the sums' buffer is the pooled sum of the whole arrays: the twenty blocks of 5000 nodes are
    all 100000 nodes, and a sum weighted by the membership indicator is the sum over the members. -/
theorem sums_last5 (c : Dev nD) :
    (outsAt5 V c (last5).val (last5).isLt).1 = GCN.poolSum 256 (rows5 V c) (bias5 V c) (gnum5 V c) := by
  funext i
  obtain ⟨g, j, rfl⟩ : ∃ (g : Fin 256) (j : Fin 64), i = ix2 g j := ⟨i 0, i 1, eq_ix2 i⟩
  refine ((sumsAt5 V c g j 19 (last5).isLt).trans (ESum.sum_blocks_eq_sum_lt_20_5000 (contrib5 V c g j)).symm).trans ?_
  rw [GCN.poolSum_apply]
  unfold contrib5 hot
  exact ESum.sum_indicator_mul (fun n : Fin 100000 => (gnum5 V c (ix2 n 0)).toInt = ((g.val : ℕ) : ℤ))
    (fun n => max (rows5 V c (ix2 n j) + bias5 V c (ix2 0 j)) 0)

/-- Likewise the counts' buffer is the pooled count. -/
theorem cnts_last5 (c : Dev nD) :
    (outsAt5 V c (last5).val (last5).isLt).2 = GCN.poolCnt 256 (gnum5 V c) := by
  funext i
  obtain ⟨z, g, rfl⟩ : ∃ (z : Fin 1) (g : Fin 256), i = ix2 z g := ⟨i 0, i 1, eq_ix2 i⟩
  obtain rfl : z = 0 := Subsingleton.elim _ _
  refine ((cntsAt5 V c g 19 (last5).isLt).trans (ESum.sum_blocks_eq_sum_lt_20_5000 (tally5 V c g)).symm).trans ?_
  rw [GCN.poolCnt_apply]
  unfold tally5 hot
  exact ESum.sum_indicator (fun n : Fin 100000 => (gnum5 V c (ix2 n 0)).toInt = ((g.val : ℕ) : ℤ))

/-- The one write-back of the sums, after the last point, writes the pooled sum: the block at zero offsets of the
    array's own sizes is the array. -/
theorem flushed5_3_eq (c : Dev nD) (t : Fin cfg5.N) (hf : (cfg5.win 3).flush t = true) :
    (dat5 (F := Ideal) V c).flushed 3 t
      = ((cfg5.win 3).blk t).view.read (Elt Ideal) (GCN.poolSum 256 (rows5 V c) (bias5 V c) (gnum5 V c)) := by
  have hN : cfg5.N = 20 := N_5
  have h19 : t.val = 19 := by have := (flush5_3 t).mp hf; have := t.isLt; omega
  obtain rfl : t = last5 := Fin.ext h19
  show (cfg5.win 3).cut (grid5.coords last5) ((dat5 (F := Ideal) V c).after 3 last5) = _
  rw [after5_3, sums_last5]
  have hz' : (fun a => win5_3.index last5 a * (Pipeline.arrRef spec5 3).ty.shape.size a) = fun _ => 0 := funext fun a => by fin_cases a <;> decide
  exact (Memref.read_access_unit_zero (Elt Ideal) (Pipeline.arrRef spec5 3) hz' (fun a => by rw [congrFun hz' a]; simp) (GCN.poolSum 256 (rows5 V c) (bias5 V c) (gnum5 V c))).symm

end Final

section Top
variable (V : (c : Dev nD) → (b : Ref sig .tc) → Buf (Elt Ideal) ((c : Thread nD τ).loc b))

/-- The one write-back of the counts, after the last point, writes the pooled count. -/
theorem flushed5_4_eq (c : Dev nD) (t : Fin cfg5.N) (hf : (cfg5.win 4).flush t = true) :
    (dat5 (F := Ideal) V c).flushed 4 t
      = ((cfg5.win 4).blk t).view.read (Elt Ideal) (GCN.poolCnt 256 (gnum5 V c)) := by
  have hN : cfg5.N = 20 := N_5
  have h19 : t.val = 19 := by have := (flush5_4 t).mp hf; have := t.isLt; omega
  obtain rfl : t = last5 := Fin.ext h19
  show (cfg5.win 4).cut (grid5.coords last5) ((dat5 (F := Ideal) V c).after 4 last5) = _
  rw [after5_4, cnts_last5]
  have hz' : (fun a => win5_4.index last5 a * (Pipeline.arrRef spec5 4).ty.shape.size a) = fun _ => 0 := funext fun a => by fin_cases a <;> decide
  exact (Memref.read_access_unit_zero (Elt Ideal) (Pipeline.arrRef spec5 4) hz' (fun a => by rw [congrFun hz' a]; simp) (GCN.poolCnt 256 (gnum5 V c))).symm

/-- The sums array after the region: the last point's block is the whole array, so it ends holding the pooled sum of
    the region's input arrays. -/
theorem region5_sum (c : Dev nD) : (dat5 (F := Ideal) V c).arrAt 3 cfg5.N
    = GCN.poolSum 256 (V c (Pipeline.arrRef spec5 0)) (V c (Pipeline.arrRef spec5 1)) (V c (Pipeline.arrRef spec5 2)) :=
  (dat5 (F := Ideal) V c).arrAt_eq_of_cover 3 (GCN.poolSum 256 (rows5 V c) (bias5 V c) (gnum5 V c)) (flushed5_3_eq V c) fun i =>
    ⟨last5, (flush5_3 last5).mpr rfl, by
      show i ∈ ((View.whole (Pipeline.arrRef spec5 3)).slice (win5_3.rect last5)).set
      rw [View.set_slice_whole, Rect.mem_set_unit]
      intro a
      have h0 : (i 0 : Nat) < 256 := (i 0).isLt
      have h1 : (i 1 : Nat) < 64 := (i 1).isLt
      match a with
      | ⟨0, _⟩ => show win5_3.index last5 0 * win5_3.size 0 ≤ (i 0 : Nat) ∧ (i 0 : Nat) < win5_3.index last5 0 * win5_3.size 0 + win5_3.xsize (grid5.coords last5) 0
                  rw [show win5_3.index last5 0 * win5_3.size 0 = 0 from by decide +kernel, show win5_3.xsize (grid5.coords last5) 0 = 256 from by decide +kernel]; omega
      | ⟨1, _⟩ => show win5_3.index last5 1 * win5_3.size 1 ≤ (i 1 : Nat) ∧ (i 1 : Nat) < win5_3.index last5 1 * win5_3.size 1 + win5_3.xsize (grid5.coords last5) 1
                  rw [show win5_3.index last5 1 * win5_3.size 1 = 0 from by decide +kernel, show win5_3.xsize (grid5.coords last5) 1 = 64 from by decide +kernel]; omega⟩

/-- The counts array after the region ends holding the pooled count of the graph numbers. -/
theorem region5_cnt (c : Dev nD) : (dat5 (F := Ideal) V c).arrAt 4 cfg5.N
    = GCN.poolCnt 256 (V c (Pipeline.arrRef spec5 2)) :=
  (dat5 (F := Ideal) V c).arrAt_eq_of_cover 4 (GCN.poolCnt 256 (gnum5 V c)) (flushed5_4_eq V c) fun i =>
    ⟨last5, (flush5_4 last5).mpr rfl, by
      show i ∈ ((View.whole (Pipeline.arrRef spec5 4)).slice (win5_4.rect last5)).set
      rw [View.set_slice_whole, Rect.mem_set_unit]
      intro a
      have h0 : (i 0 : Nat) < 1 := (i 0).isLt
      have h1 : (i 1 : Nat) < 256 := (i 1).isLt
      match a with
      | ⟨0, _⟩ => show win5_4.index last5 0 * win5_4.size 0 ≤ (i 0 : Nat) ∧ (i 0 : Nat) < win5_4.index last5 0 * win5_4.size 0 + win5_4.xsize (grid5.coords last5) 0
                  rw [show win5_4.index last5 0 * win5_4.size 0 = 0 from by decide +kernel, show win5_4.xsize (grid5.coords last5) 0 = 1 from by decide +kernel]; omega
      | ⟨1, _⟩ => show win5_4.index last5 1 * win5_4.size 1 ≤ (i 1 : Nat) ∧ (i 1 : Nat) < win5_4.index last5 1 * win5_4.size 1 + win5_4.xsize (grid5.coords last5) 1
                  rw [show win5_4.index last5 1 * win5_4.size 1 = 0 from by decide +kernel, show win5_4.xsize (grid5.coords last5) 1 = 256 from by decide +kernel]; omega⟩

end Top

end Cert.KernelIdeal.RegionValue

end
-- ==== Proof.Region6.lean ====
/-
  Region 6, the two-layer head, as one whole-array function.

  The region has one grid point and every window's block is its whole array at block index (0, 0). So the body's
  stored value, read index by index, is
    out (r, j) = (∑ a, max ((∑ q, comb (r, q) * w1 (q, a)) + b1 (0, a)) 0 * w2 (a, j)) + b2 (0, j)
  of the five input arrays as the region finds them: on extended reals a change of format is the identity, a matrix
  product accumulated into zero is its plain sum, a row broadcast reads its one row, and the clamp is `max · 0`.
  The one point's write-back covers the whole output array, which therefore ends holding that function.
-/
import proofs.«425248_j7627861918208_2_alg».proof.Proof.Gen.KernelIdeal.Frame
import proofs.«425248_j7627861918208_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic Idealize.ShloMosaic.ValueIdx

namespace R6

/-! ## The two matrix products read at an index -/

theorem lhs_first_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem lhs_first_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem rhs_first_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem rhs_first_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- The first product into zero, at row `r` and column `p`: the plain sum over the 128 shared coordinates. -/
theorem first_product_apply (a : FVec Ideal S256x128 .bf16) (b : FVec Ideal S128x64 .bf16) (r : Fin 256) (p : Fin 64) :
    matmul dot_S256x128_S128x64_S256x64_1_0_0_1_n_n none a b (constant (F := Ideal) S256x64 .f32 0x00000000#32) (ix2 r p)
      = ∑ q : Fin 128, a (ix2 r q) * b (ix2 q p) := by
  simp only [matmul]
  rw [Ideal.matmul_constant_zero_apply, ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 r p) ((contrEquiv1 dot_S256x128_S128x64_S256x64_1_0_0_1_n_n 128 rfl rfl).symm k) = ix2 r k := funext fun ax => Fin.ext (by
    match ax with
    | ⟨0, _⟩ => exact lhs_first_0 _ _
    | ⟨1, _⟩ => exact (lhs_first_1 _ _).trans hk)
  have er : dot_S256x128_S128x64_S256x64_1_0_0_1_n_n.rhsIdx (ix2 r p) ((contrEquiv1 dot_S256x128_S128x64_S256x64_1_0_0_1_n_n 128 rfl rfl).symm k) = ix2 k p := funext fun ax => Fin.ext (by
    match ax with
    | ⟨0, _⟩ => exact (rhs_first_0 _ _).trans hk
    | ⟨1, _⟩ => exact rhs_first_1 _ _)
  rw [el, er]

theorem lhs_second_0 (i : S256x2.Idx) (q : dot_S256x64_S64x2_S256x2_1_0_0_1_n_n.contr.Idx) :
    (dot_S256x64_S64x2_S256x2_1_0_0_1_n_n.lhsIdx i q 0).val = (i 0).val := by
  unfold DotDims.lhsIdx
  rw [dif_neg (show ¬(0 : Fin S256x64.rank) ∈ dot_S256x64_S64x2_S256x2_1_0_0_1_n_n.lhsBatch by decide), dif_pos (show (0 : Fin S256x64.rank) ∈ dot_S256x64_S64x2_S256x2_1_0_0_1_n_n.lhsNonContracting by decide)]
  rfl
theorem lhs_second_1 (i : S256x2.Idx) (q : dot_S256x64_S64x2_S256x2_1_0_0_1_n_n.contr.Idx) :
    (dot_S256x64_S64x2_S256x2_1_0_0_1_n_n.lhsIdx i q 1).val = (q ⟨0, by decide⟩).val :=
  dot_S256x64_S64x2_S256x2_1_0_0_1_n_n.lhsIdx_val_of_single rfl i q
theorem rhs_second_0 (i : S256x2.Idx) (q : dot_S256x64_S64x2_S256x2_1_0_0_1_n_n.contr.Idx) :
    (dot_S256x64_S64x2_S256x2_1_0_0_1_n_n.rhsIdx i q 0).val = (q ⟨0, by decide⟩).val :=
  dot_S256x64_S64x2_S256x2_1_0_0_1_n_n.rhsIdx_val_of_single rfl i q
theorem rhs_second_1 (i : S256x2.Idx) (q : dot_S256x64_S64x2_S256x2_1_0_0_1_n_n.contr.Idx) :
    (dot_S256x64_S64x2_S256x2_1_0_0_1_n_n.rhsIdx i q 1).val = (i 1).val := by
  unfold DotDims.rhsIdx
  rw [dif_neg (show ¬(1 : Fin S64x2.rank) ∈ dot_S256x64_S64x2_S256x2_1_0_0_1_n_n.rhsBatch by decide), dif_pos (show (1 : Fin S64x2.rank) ∈ dot_S256x64_S64x2_S256x2_1_0_0_1_n_n.rhsNonContracting by decide)]
  rfl

/-- The second product into zero, at row `r` and column `j`: the plain sum over the 64 hidden coordinates. -/
theorem second_product_apply (a : FVec Ideal S256x64 .bf16) (b : FVec Ideal S64x2 .bf16) (r : Fin 256) (j : Fin 2) :
    matmul dot_S256x64_S64x2_S256x2_1_0_0_1_n_n none a b (constant (F := Ideal) S256x2 .f32 0x00000000#32) (ix2 r j)
      = ∑ q : Fin 64, a (ix2 r q) * b (ix2 q j) := by
  simp only [matmul]
  rw [Ideal.matmul_constant_zero_apply, ← Equiv.sum_comp (contrEquiv1 dot_S256x64_S64x2_S256x2_1_0_0_1_n_n 64 rfl rfl).symm]
  refine Finset.sum_congr rfl fun k _ => ?_
  have hk := contrEquiv1_symm_val dot_S256x64_S64x2_S256x2_1_0_0_1_n_n 64 rfl rfl k
  have el : dot_S256x64_S64x2_S256x2_1_0_0_1_n_n.lhsIdx (ix2 r j) ((contrEquiv1 dot_S256x64_S64x2_S256x2_1_0_0_1_n_n 64 rfl rfl).symm k) = ix2 r k := funext fun ax => Fin.ext (by
    match ax with
    | ⟨0, _⟩ => exact lhs_second_0 _ _
    | ⟨1, _⟩ => exact (lhs_second_1 _ _).trans hk)
  have er : dot_S256x64_S64x2_S256x2_1_0_0_1_n_n.rhsIdx (ix2 r j) ((contrEquiv1 dot_S256x64_S64x2_S256x2_1_0_0_1_n_n 64 rfl rfl).symm k) = ix2 k j := funext fun ax => Fin.ext (by
    match ax with
    | ⟨0, _⟩ => exact (rhs_second_0 _ _).trans hk
    | ⟨1, _⟩ => exact rhs_second_1 _ _)
  rw [el, er]

/-! ## The body's payload is the head -/

/-- The stored value at row `r`, column `j`: both roundings to the narrow format are the identity on extended reals, each
    product into zero is its plain sum, each bias is its one row, and the clamp is `max · 0`. -/
theorem payload_apply (x0 : Vec Ideal S256x128 .f32) (x1 : Vec Ideal S128x64 .f32) (x2 : Vec Ideal S1x64 .f32)
    (x3 : Vec Ideal S64x2 .f32) (x4 : Vec Ideal S1x2 .f32) (r : Fin 256) (j : Fin 2) :
    (k6_pay1 (F := Ideal) x0 x1 x2 x3 x4) (ix2 r j)
      = (∑ a : Fin 64, max ((∑ q : Fin 128, x0 (ix2 r q) * x1 (ix2 q a)) + x2 (ix2 0 a)) 0 * x3 (ix2 a j)) + x4 (ix2 0 j) := by
  unfold k6_pay1
  simp only [shapeCast_self]
  rw [addf_apply, second_product_apply, broadcastTo_1b_ab_apply]
  refine congrArg (· + x4 (ix2 0 j)) (Finset.sum_congr rfl fun a _ => ?_)
  rw [truncf_apply, truncf_apply, maximumf_apply, addf_apply, first_product_apply, broadcastTo_1b_ab_apply, broadcast_apply]
  simp only [truncf_apply]
  exact congrArg (fun z => max _ z * _) Ideal.ofBits_zero_f32

/-- As whole arrays: the payload of five arrays is their two-layer head. -/
theorem payload_eq_head (x0 : Vec Ideal S256x128 .f32) (x1 : Vec Ideal S128x64 .f32) (x2 : Vec Ideal S1x64 .f32)
    (x3 : Vec Ideal S64x2 .f32) (x4 : Vec Ideal S1x2 .f32) :
    k6_pay1 (F := Ideal) x0 x1 x2 x3 x4 = GCN.head x0 x1 x2 x3 x4 := by
  funext y
  obtain ⟨r, j, rfl⟩ : ∃ (r : Fin 256) (j : Fin 2), y = ix2 r j := ⟨y 0, y 1, eq_ix2 y⟩
  rw [payload_apply, GCN.head_apply]

/-! ## Every window's block at the one grid point is its whole array -/

theorem zero_offsets : (![0, 0] : Fin 2 → Nat) = fun _ => 0 := funext fun a => by fin_cases a <;> rfl

section
variable (V : (c : Dev nD) → (b : Ref sig .tc) → Buf (Elt Ideal) ((c : Thread nD τ).loc b)) (c : Dev nD)

/-- The combined embeddings' window: block (0, 0) of extent [256, 128] of a [256, 128] array. -/
theorem block0_eq (t : Fin cfg6.N) : (iblk6 V c 0 t : Vec Ideal S256x128 .f32) = V c (Pipeline.arrRef spec6 0) := by
  obtain rfl := fin_N6 t
  unfold iblk6
  have h0 : (fun a => win6_0.index t6_0 a * main_v126.ty.shape.size a) = fun _ => 0 := funext fun a => by fin_cases a <;> decide
  exact Memref.read_access_unit_zero (Elt Ideal) main_v126 h0 (fun a => by rw [congrFun h0 a]; simp) (V c (Pipeline.arrRef spec6 0))

/-- The first weights' window: the whole [128, 64] array. -/
theorem block1_eq (t : Fin cfg6.N) : (iblk6 V c 1 t : Vec Ideal S128x64 .f32) = V c (Pipeline.arrRef spec6 1) := by
  obtain rfl := fin_N6 t
  unfold iblk6
  have h0 : (fun a => win6_1.index t6_0 a * main_arg10.ty.shape.size a) = fun _ => 0 := funext fun a => by fin_cases a <;> decide
  exact Memref.read_access_unit_zero (Elt Ideal) main_arg10 h0 (fun a => by rw [congrFun h0 a]; simp) (V c (Pipeline.arrRef spec6 1))

/-- The first bias row's window: the whole [1, 64] array. -/
theorem block2_eq (t : Fin cfg6.N) : (iblk6 V c 2 t : Vec Ideal S1x64 .f32) = V c (Pipeline.arrRef spec6 2) := by
  obtain rfl := fin_N6 t
  unfold iblk6
  have h0 : (fun a => win6_2.index t6_0 a * main_v127.ty.shape.size a) = fun _ => 0 := funext fun a => by fin_cases a <;> decide
  exact Memref.read_access_unit_zero (Elt Ideal) main_v127 h0 (fun a => by rw [congrFun h0 a]; simp) (V c (Pipeline.arrRef spec6 2))

/-- The second weights' window: the whole [64, 2] array. -/
theorem block3_eq (t : Fin cfg6.N) : (iblk6 V c 3 t : Vec Ideal S64x2 .f32) = V c (Pipeline.arrRef spec6 3) := by
  obtain rfl := fin_N6 t
  unfold iblk6
  have h0 : (fun a => win6_3.index t6_0 a * main_arg12.ty.shape.size a) = fun _ => 0 := funext fun a => by fin_cases a <;> decide
  exact Memref.read_access_unit_zero (Elt Ideal) main_arg12 h0 (fun a => by rw [congrFun h0 a]; simp) (V c (Pipeline.arrRef spec6 3))

/-- The second bias row's window: the whole [1, 2] array. -/
theorem block4_eq (t : Fin cfg6.N) : (iblk6 V c 4 t : Vec Ideal S1x2 .f32) = V c (Pipeline.arrRef spec6 4) := by
  obtain rfl := fin_N6 t
  unfold iblk6
  have h0 : (fun a => win6_4.index t6_0 a * main_v128.ty.shape.size a) = fun _ => 0 := funext fun a => by fin_cases a <;> decide
  exact Memref.read_access_unit_zero (Elt Ideal) main_v128 h0 (fun a => by rw [congrFun h0 a]; simp) (V c (Pipeline.arrRef spec6 4))

/-! ## What the point writes back, and the array after the run -/

/-- The head of the region's five input arrays as the region finds them. -/
abbrev headOf : Vec Ideal S256x2 .f32 :=
  GCN.head (V c (Pipeline.arrRef spec6 0)) (V c (Pipeline.arrRef spec6 1)) (V c (Pipeline.arrRef spec6 2))
    (V c (Pipeline.arrRef spec6 3)) (V c (Pipeline.arrRef spec6 4))

/-- The one write-back is the output window's block of `headOf`: the body stores its payload over the whole staging buffer,
    every loaded block is its whole array, and block (0, 0) of extent [256, 2] of a [256, 2] array reads the array. -/
theorem flushed_eq (t : Fin cfg6.N) :
    (dat6 (F := Ideal) V c).flushed 5 t = ((cfg6.win 5).blk t).view.read (Elt Ideal) (headOf V c) := by
  show (cfg6.win 5).cut (grid6.coords t) ((dat6 V c).after 5 t) = _
  rw [after6_5]
  unfold out6_5
  rw [View.canon_unit_zero zero_offsets]
  simp only [View.ld_unit_zero (S := S256x128) zero_offsets, View.ld_unit_zero (S := S128x64) zero_offsets,
    View.ld_unit_zero (S := S1x64) zero_offsets, View.ld_unit_zero (S := S64x2) zero_offsets, View.ld_unit_zero (S := S1x2) zero_offsets]
  rw [block0_eq, block1_eq, block2_eq, block3_eq, block4_eq, payload_eq_head]
  unfold headOf
  generalize GCN.head (V c (Pipeline.arrRef spec6 0)) (V c (Pipeline.arrRef spec6 1)) (V c (Pipeline.arrRef spec6 2))
    (V c (Pipeline.arrRef spec6 3)) (V c (Pipeline.arrRef spec6 4)) = G
  obtain rfl := fin_N6 t
  have h0 : (fun a => win6_5.index t6_0 a * main_v129.ty.shape.size a) = fun _ => 0 := funext fun a => by fin_cases a <;> decide
  exact (Memref.read_access_unit_zero (Elt Ideal) main_v129 h0 (fun a => by rw [congrFun h0 a]; simp) G).symm

/-- The output window's index map sends the one point to block (0, 0). -/
theorem out_index_zero : ∀ t : Fin cfg6.N, win6_5.index t (0 : Fin 2) = 0 ∧ win6_5.index t (1 : Fin 2) = 0 :=
  (by decide +kernel : ∀ t : Fin grid6.N, _)

/-- An index of the output array is in point `t`'s block iff each coordinate is in the block's range on its axis. -/
theorem mem_out_block (t : Fin cfg6.N) (i : S256x2.Idx) :
    i ∈ ((cfg6.win 5).blk t).view.set
      ↔ ∀ a : Fin 2, win6_5.index t a * S256x2.size a ≤ (i a).val ∧ (i a).val < win6_5.index t a * S256x2.size a + S256x2.size a := by
  show i ∈ ((View.whole main_v129).slice (win6_5.rect t)).set ↔ _
  rw [View.set_slice_whole, Rect.mem_set_unit]
  exact Iff.rfl

/-- The one point's block is the whole output array. -/
theorem covered (i : S256x2.Idx) : ∃ t : Fin cfg6.N, (cfg6.win 5).flush t = true ∧ i ∈ ((cfg6.win 5).blk t).view.set := by
  refine ⟨t6_0, flush6_5 t6_0, ?_⟩
  rw [mem_out_block]
  obtain ⟨e0, e1⟩ := out_index_zero t6_0
  have h0 : (i 0).val < 256 := idx2_lt0 i
  have h1 : (i 1).val < 2 := idx2_lt1 i
  intro a
  match a with
  | ⟨0, _⟩ =>
    show win6_5.index t6_0 (0 : Fin 2) * 256 ≤ (i 0).val ∧ (i 0).val < win6_5.index t6_0 (0 : Fin 2) * 256 + 256
    omega
  | ⟨1, _⟩ =>
    show win6_5.index t6_0 (1 : Fin 2) * 2 ≤ (i 1).val ∧ (i 1).val < win6_5.index t6_0 (1 : Fin 2) * 2 + 2
    omega

end

end R6

section
variable (V : (c : Dev nD) → (b : Ref sig .tc) → Buf (Elt Ideal) ((c : Thread nD τ).loc b)) (c : Dev nD)

/-- REGION 6: after the run its output array holds the two-layer head of the five input arrays as the region found them. -/
theorem region6_value :
    (dat6 (F := Ideal) V c).arrAt 5 cfg6.N
      = GCN.head (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 (R6.headOf V c) (fun t _ => R6.flushed_eq V c t) R6.covered
end

end Cert.KernelIdeal.RegionValue

end
-- ==== Proof.FinitePre.lean ====
/-
  The precondition's finiteness test, read back.  For each float argument `x` the printed predicate forms
  `|x| < +∞` entry by entry (absolute value, then an ordered less-than against the splat of the f32 pattern of +∞),
  folds the answers by `and` over every axis into one bit, and conjoins the arguments' bits.  At the ideal
  instance a float is an extended real and `|x| = max x (-x)`, so the test holds at an entry exactly when the entry
  is neither `⊥` nor `⊤`: a real number.  Here: that reading for one entry, for one argument's bit, and for three of
  the arguments: the two `100000 × 16` matrices (arguments 0 and 3) and the `16 × 64` matrix (argument 6).
-/
import proofs.«425248_j7627861918208_2_alg».proof.Defs
import proofs.«425248_j7627861918208_2_alg».proof.Proof.Gen.Pre_finite_inputs
import proofs.«425248_j7627861918208_2_alg».proof.Proof.Gen.KernelIdeal
import Idealize.ShloMosaic.Lib.ReduceAll
import Idealize.ShloMosaic.Lib.ValueIdx

noncomputable section

namespace Cert.Bridge

open Idealize.ShloMosaic

/-- One entry: if `max x (-x)` is strictly below the value of the f32 pattern `0x7F800000` (which is `⊤`), then `x`
    is a real.  For `x = ⊥` and for `x = ⊤` the maximum is `⊤`, and `⊤ < ⊤` fails. -/
theorem real_of_abs_lt_inf (x : EReal)
    (h : Ideal.cmp .olt (max x (-x)) (Ideal.ofBits .f32 0x7F800000#32) = 1#1) : ∃ r : ℝ, x = (r : EReal) := by
  induction x using EReal.rec with
  | bot => exfalso; simp [Ideal.cmp, Ideal.ofBits, Ideal.ieee] at h
  | coe r => exact ⟨r, rfl⟩
  | top => exfalso; simp [Ideal.cmp, Ideal.ofBits, Ideal.ieee] at h

/-- The rank-0 shape has a single index. -/
instance subsingleton_scalar_idx : Subsingleton Cert.Pre_finite_inputs.S_.Idx :=
  ⟨fun a b => funext fun d => d.elim0⟩

/-- One argument's bit: if the `and` over all axes of `|x| < +∞` is 1, every entry of `x` is a real.  The shape `s`,
    the reduced axes and the two shape facts are arbitrary, so the same lemma serves every float argument. -/
theorem entries_real_of_all_finite {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1)
    (i : s.Idx) : ∃ r : ℝ, x i = (r : EReal) :=
  real_of_abs_lt_inf (x i) (Host.reduce_andi_all _ _ hr hu j e i)

/-- Under the certificate's precondition arguments 0, 3 and 6 (two `100000 × 16` matrices and a `16 × 64` one) hold only
    reals.  The precondition's bit is a left-nested conjunction of the ten float arguments' bits in argument order (the four
    integer arguments are not tested), so the three wanted bits sit at the bottom of the nest: peel the seven later
    conjuncts off the right, then split. -/
theorem real_of_pre (m : (ℓ : Loc Cert.KernelIdeal.nD Cert.KernelIdeal.τ Cert.KernelIdeal.sig) → Buf (Elt Ideal) ℓ) (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
      ∧ (∀ i, ∃ r : ℝ, m ((c.tc : Thread _ _).loc Cert.KernelIdeal.main_arg3) i = (r : EReal))
      ∧ (∀ i, ∃ r : ℝ, m ((c.tc : Thread _ _).loc Cert.KernelIdeal.main_arg6) i = (r : EReal)) := by
  have h0 := congrFun (h c) ValueIdx.ix0
  dsimp only [Cert.Pre_finite_inputs.fn, Cert.Pre_finite_inputs.fn_part1, Cert.Pre_finite_inputs.fn_part2] at h0
  -- the bits of arguments 13, 12, 11, 10, 9, 8, 7 come off the right, one at a time
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  -- what is left is (bit of argument 0 ∧ bit of argument 3) ∧ bit of argument 6
  obtain ⟨h03, hW⟩ := IntOp.andi_eq_one.1 h7
  obtain ⟨hx1, hx2⟩ := IntOp.andi_eq_one.1 h03
  exact ⟨fun i => entries_real_of_all_finite _ _ _ _ _ hx1 i,
    fun i => entries_real_of_all_finite _ _ _ _ _ hx2 i,
    fun i => entries_real_of_all_finite _ _ _ _ _ hW i⟩

end Cert.Bridge
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.BridgeLayer1.lean ====
/-
  The first graph convolution, in the kernel's order and in the reference's order.

  Per target node `r` and output feature `j` both programs compute
  `max ((∑ over the edges k ending in r, of the factor of k times (row of the source of k) · W1 (·, j)) + b1 j) 0`,
  but the kernel adds up the 16 input features over the edges first and multiplies the aggregated row by `W1`
  afterwards, while the reference multiplies every node's row by `W1` first and adds up the 64-wide rows.  Written out,
  the kernel's entry is `∑ a, (0 + ∑ k, x (src k, a) * nrm k) * W1 (a, j)` and the reference's is
  `0 + ∑ k, (∑ a, x (src k, a) * W1 (a, j)) * nrm k`.  These are equal when the entries of `x`, `W1` and the factor
  column are real numbers: then both are coercions of real sums, where the two summations may be exchanged and the
  product distributes.  (Over the extended reals distributivity fails at infinities, hence the hypotheses.)

  The proof has three parts.  Both orders are stated over ANY two index columns and factor column (`kerLayer`,
  `refLayer`) and each program's stage is unfolded to one of them.  The index columns and the factor column the two
  programs build — the edge ends with the self loops appended, wrapped, turned into columns; the inverse square roots of
  the degrees gathered at both ends and multiplied — are the same arrays, operation by operation.  Last, both orders are
  read at an index `(r, j)`: a row scatter-add is the operand plus the sum over the update rows whose index is `r`, a
  row gather reads the operand at the clamped index, a broadcast column reads its row's entry; and the two sums are
  joined by the exchange law for real entries.
-/
import proofs.«425248_j7627861918208_2_alg».proof.Proof.KernelStages
import proofs.«425248_j7627861918208_2_alg».proof.Proof.Gen.ReferenceIdeal.Read
import proofs.«425248_j7627861918208_2_alg».proof.Proof.LibRowOps
import proofs.«425248_j7627861918208_2_alg».proof.Proof.LibSums

noncomputable section

open scoped BigOperators

namespace Cert.Bridge

open Cert.KernelIdeal Cert.KernelIdeal.Facts₀ Cert.KernelIdeal.Stages Idealize.ShloMosaic Idealize.ShloMosaic.ValueIdx
open Cert.ReferenceIdeal.Read

namespace Layer1

/-- The first convolution in the kernel's order, over any two index columns and any factor column: add up, per target
    node, the source nodes' 16 features times the edge's factor; then multiply by the weights, add the bias, floor at 0. -/
def kerLayer (src dst : IArr S1700000x1) (nrm : FArr S1700000x1) (x : FArr S100000x16) (W1 : FArr S16x64) (b1 : FArr S64) :
    FArr S100000x64 :=
  GCN.layer1 (Host.scatterAdd scatter_S100000x16_S1700000x1_S1700000x16_1_0_0_1
      (broadcastInDim S100000x16 ![] bcast_S_S100000x16 (constant S_ .f32 0x00000000#32)) dst
      (mulf (Host.gather gather_S100000x16_S1700000x1_S1700000x16_1_0_n_n_0_1_116 x src)
        (broadcastInDim S1700000x16 ![0, 1] bcast_S1700000x1_S1700000x16_0_1 nrm))) W1 (row64 b1)

/-- The same convolution in the reference's order: multiply the 16 features by the weights first, then add up, per
    target node, the source nodes' 64-wide rows times the edge's factor; add the bias, floor at 0. -/
def refLayer (src dst : IArr Cert.ReferenceIdeal.S1700000x1) (nrm : FArr Cert.ReferenceIdeal.S1700000x1)
    (x : FArr Cert.ReferenceIdeal.S100000x16) (W1 : FArr Cert.ReferenceIdeal.S16x64) (b1 : FArr Cert.ReferenceIdeal.S64) :
    FArr Cert.ReferenceIdeal.S100000x64 :=
  maximumf
    (addf
      (Host.scatterAdd Cert.ReferenceIdeal.scatter_S100000x64_S1700000x1_S1700000x64_1_0_0_1
        (broadcastInDim Cert.ReferenceIdeal.S100000x64 ![] Cert.ReferenceIdeal.Facts₀.bcast_S_S100000x64
          (constant Cert.ReferenceIdeal.S_ .f32 0x00000000#32)) dst
        (mulf (Host.gather Cert.ReferenceIdeal.gather_S100000x64_S1700000x1_S1700000x64_1_0_n_n_0_1_164
            (val_main_v12 (F := Ideal) x W1) src)
          (broadcastInDim Cert.ReferenceIdeal.S1700000x64 ![0, 1] Cert.ReferenceIdeal.Facts₀.bcast_S1700000x1_S1700000x64_0_1 nrm)))
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b1)))
    (broadcastInDim Cert.ReferenceIdeal.S100000x64 ![] Cert.ReferenceIdeal.Facts₀.bcast_S_S100000x64
      (constant Cert.ReferenceIdeal.S_ .f32 0x00000000#32))

/-- The kernel's first convolution is `kerLayer` at the kernel's index columns and factor column. -/
theorem h1_unfold (x : FArr S100000x16) (e : IArr S2x1600000) (W1 : FArr S16x64) (b1 : FArr S64) :
    Stages.h1 x e W1 b1 = kerLayer (col (wrap (ends0 e))) (col (ends1 e)) (norm e) x W1 b1 := by
  unfold Stages.h1 Stages.agg16 kerLayer
  rfl

/-- Side 1 of the reference: its first convolution is `refLayer` at its own index columns and factor column. -/
theorem v44_unfold (x : FArr S100000x16) (e : IArr S2x1600000) (W1 : FArr S16x64) (b1 : FArr S64) :
    val_main_v44 (F := Ideal) x e W1 b1
      = refLayer (val_main_v34 (F := Ideal) e) (val_main_v39 (F := Ideal) e) (val_main_v28 (F := Ideal) e) x W1 b1 := by
  unfold val_main_v44 val_main_v43 val_main_v40 val_main_v37 val_main_v35 val_main_v36 val_main_v42 val_main_v41
    val_main_v38 val_main_cst_6 val_main_call0_v0 val_main_call0_cst refLayer
  rfl

/-- Side 2 of the reference, the same. -/
theorem v142_unfold (x : FArr S100000x16) (e : IArr S2x1600000) (W1 : FArr S16x64) (b1 : FArr S64) :
    val_main_v142 (F := Ideal) x e W1 b1
      = refLayer (val_main_v132 (F := Ideal) e) (val_main_v137 (F := Ideal) e) (val_main_v126 (F := Ideal) e) x W1 b1 := by
  unfold val_main_v142 val_main_v141 val_main_v138 val_main_v135 val_main_v133 val_main_v134 val_main_v140 val_main_v139
    val_main_v136 val_main_cst_28 val_main_call2_v0 val_main_call2_cst val_main_v110 refLayer val_main_v12
  rfl

/-! ### The two programs' index columns and factor column are the same arrays -/

/-- The source ends with the self loops appended, side 1 and side 2 of the reference. -/
theorem ends0_v5 (e : IArr S2x1600000) : Stages.ends0 e = val_main_v5 (F := Ideal) e := by
  unfold Stages.ends0 val_main_v5 val_main_v1 val_main_v0 val_main_v4
  rfl
theorem ends0_v103 (e : IArr S2x1600000) : Stages.ends0 e = val_main_v103 (F := Ideal) e := by
  unfold Stages.ends0 val_main_v103 val_main_v99 val_main_v98 val_main_v102
  rfl
/-- The target ends with the self loops appended. -/
theorem ends1_v6 (e : IArr S2x1600000) : Stages.ends1 e = val_main_v6 (F := Ideal) e := by
  unfold Stages.ends1 val_main_v6 val_main_v3 val_main_v2 val_main_v4
  rfl
theorem ends1_v104 (e : IArr S2x1600000) : Stages.ends1 e = val_main_v104 (F := Ideal) e := by
  unfold Stages.ends1 val_main_v104 val_main_v101 val_main_v100 val_main_v102
  rfl

/-- The wrapped source column, where the reference gathers the inverse square roots … -/
theorem src_v18 (e : IArr S2x1600000) : col (wrap (ends0 e)) = val_main_v18 (F := Ideal) e := by
  unfold val_main_v18 val_main_v17 val_main_v14 val_main_v16 val_main_v13 val_main_v15 val_main_c val_main_c_1
  rw [← ends0_v5 e]; rfl
theorem src_v116 (e : IArr S2x1600000) : col (wrap (ends0 e)) = val_main_v116 (F := Ideal) e := by
  unfold val_main_v116 val_main_v115 val_main_v112 val_main_v114 val_main_v111 val_main_v113 val_main_c_22 val_main_c_23
  rw [← ends0_v103 e]; rfl
/-- … and where it gathers the transformed rows. -/
theorem src_v34 (e : IArr S2x1600000) : col (wrap (ends0 e)) = val_main_v34 (F := Ideal) e := by
  unfold val_main_v34 val_main_v33 val_main_v30 val_main_v32 val_main_v29 val_main_v31 val_main_c_4 val_main_c_5
  rw [← ends0_v5 e]; rfl
theorem src_v132 (e : IArr S2x1600000) : col (wrap (ends0 e)) = val_main_v132 (F := Ideal) e := by
  unfold val_main_v132 val_main_v131 val_main_v128 val_main_v130 val_main_v127 val_main_v129 val_main_c_26 val_main_c_27
  rw [← ends0_v103 e]; rfl
/-- The wrapped target column. -/
theorem dst_v25 (e : IArr S2x1600000) : col (wrap (ends1 e)) = val_main_v25 (F := Ideal) e := by
  unfold val_main_v25 val_main_v24 val_main_v21 val_main_v23 val_main_v20 val_main_v22 val_main_c_2 val_main_c_3
  rw [← ends1_v6 e]; rfl
theorem dst_v123 (e : IArr S2x1600000) : col (wrap (ends1 e)) = val_main_v123 (F := Ideal) e := by
  unfold val_main_v123 val_main_v122 val_main_v119 val_main_v121 val_main_v118 val_main_v120 val_main_c_24 val_main_c_25
  rw [← ends1_v104 e]; rfl
/-- The target column as the two scatters read it. -/
theorem dst_v9 (e : IArr S2x1600000) : col (ends1 e) = val_main_v9 (F := Ideal) e := by
  unfold val_main_v9; rw [← ends1_v6 e]; rfl
theorem dst_v39 (e : IArr S2x1600000) : col (ends1 e) = val_main_v39 (F := Ideal) e := by
  unfold val_main_v39; rw [← ends1_v6 e]; rfl
theorem dst_v107 (e : IArr S2x1600000) : col (ends1 e) = val_main_v107 (F := Ideal) e := by
  unfold val_main_v107; rw [← ends1_v104 e]; rfl
theorem dst_v137 (e : IArr S2x1600000) : col (ends1 e) = val_main_v137 (F := Ideal) e := by
  unfold val_main_v137; rw [← ends1_v104 e]; rfl

/-- The inverse square roots of the degrees. -/
theorem dinv_v11 (e : IArr S2x1600000) : Stages.dinv e = val_main_v11 (F := Ideal) e := by
  unfold Stages.dinv Stages.deg val_main_v11 val_main_v10 val_main_v8 val_main_v7 val_main_cst val_main_cst_0
  rw [dst_v9 e]; rfl
theorem dinv_v109 (e : IArr S2x1600000) : Stages.dinv e = val_main_v109 (F := Ideal) e := by
  unfold Stages.dinv Stages.deg val_main_v109 val_main_v108 val_main_v106 val_main_v105 val_main_cst_20 val_main_cst_21
  rw [dst_v107 e]; rfl

/-- The per-edge factor column. -/
theorem norm_v28 (e : IArr S2x1600000) : Stages.norm e = val_main_v28 (F := Ideal) e := by
  unfold Stages.norm val_main_v28 val_main_v27 val_main_v19 val_main_v26
  rw [src_v18 e, dst_v25 e, dinv_v11 e]; rfl
theorem norm_v126 (e : IArr S2x1600000) : Stages.norm e = val_main_v126 (F := Ideal) e := by
  unfold Stages.norm val_main_v126 val_main_v125 val_main_v117 val_main_v124
  rw [src_v116 e, dst_v123 e, dinv_v109 e]; rfl

/-! ### The two orders read at an index -/

/-- `RowOps.scatterAdd_apply` for any record that is those dimension numbers. -/
theorem scatterAdd_apply_of {N E C w : Nat} {φ : FTy}
    {wf : ScatterDims.WF ⟨2, ![N, C]⟩ ⟨2, ![E, 1]⟩ ⟨2, ![E, C]⟩ [1] [0] [0] 1}
    (d : ScatterDims ⟨2, ![N, C]⟩ ⟨2, ![E, 1]⟩ ⟨2, ![E, C]⟩) (hd : d = RowOps.scatterDims N E C wf)
    (x : FVec Ideal ⟨2, ![N, C]⟩ φ) (idx : IVec ⟨2, ![E, 1]⟩ w) (upd : FVec Ideal ⟨2, ![E, C]⟩ φ) (r : Fin N) (p : Fin C) :
    Host.scatterAdd (F := Ideal) d x idx upd (ix2 r p)
      = x (ix2 r p) + ∑ e ∈ Finset.univ.filter (fun e : Fin E => (idx (ix2 e 0)).toInt = (r.val : Int)), upd (ix2 e p) := by
  subst hd
  exact RowOps.scatterAdd_apply wf idx x upd r p

/-- `RowOps.gather_apply` for any record that is those dimension numbers. -/
theorem gather_apply_of {α : Type} {N E C w : Nat} (hN : 0 < N)
    {wf : GatherDims.WF ⟨2, ![N, C]⟩ ⟨2, ![E, 1]⟩ ⟨2, ![E, C]⟩ [1] [0] [] [0] [] 1 ![1, C]}
    (d : GatherDims ⟨2, ![N, C]⟩ ⟨2, ![E, 1]⟩ ⟨2, ![E, C]⟩) (hd : d = RowOps.gatherDims N E C wf)
    (x : (⟨2, ![N, C]⟩ : Shape).Idx → α) (idx : IVec ⟨2, ![E, 1]⟩ w) (e : Fin E) (q : Fin C) :
    Host.gather d x idx (ix2 e q) = x (ix2 (RowOps.clampRow N hN (idx (ix2 e 0))) q) := by
  subst hd
  exact RowOps.gather_apply hN wf x idx e q

/-- The factor column spread over `C` columns reads the column's entry of the row. -/
theorem spread16_apply (nrm : FArr S1700000x1) (k : Fin 1700000) (a : Fin 16) :
    broadcastInDim S1700000x16 ![0, 1] bcast_S1700000x1_S1700000x16_0_1 nrm (ix2 k a) = nrm (ix2 k 0) :=
  broadcastInDim_apply _ bcast_S1700000x1_S1700000x16_0_1 nrm (ix2 k a) (ix2 k 0) (fun b => match b with
    | ⟨0, _⟩ => by show k.val = if (1700000 : Nat) = 1 then 0 else k.val; rw [if_neg (by decide)]
    | ⟨1, _⟩ => by show 0 = if (1 : Nat) = 1 then 0 else a.val; rw [if_pos rfl])

theorem spread64_apply (nrm : FArr Cert.ReferenceIdeal.S1700000x1) (k : Fin 1700000) (j : Fin 64) :
    broadcastInDim Cert.ReferenceIdeal.S1700000x64 ![0, 1] Cert.ReferenceIdeal.Facts₀.bcast_S1700000x1_S1700000x64_0_1 nrm (ix2 k j)
      = nrm (ix2 k 0) :=
  broadcastInDim_apply _ Cert.ReferenceIdeal.Facts₀.bcast_S1700000x1_S1700000x64_0_1 nrm (ix2 k j) (ix2 k 0) (fun b => match b with
    | ⟨0, _⟩ => by show k.val = if (1700000 : Nat) = 1 then 0 else k.val; rw [if_neg (by decide)]
    | ⟨1, _⟩ => by show 0 = if (1 : Nat) = 1 then 0 else j.val; rw [if_pos rfl])

/-- Entry `(r, a)` of the features aggregated over the edges: zero plus, over the edges `k` that end in `r`, feature
    `a` of the edge's source node times the edge's factor. -/
theorem agg_apply (src dst : IArr S1700000x1) (nrm : FArr S1700000x1) (x : FArr S100000x16) (r : Fin 100000) (a : Fin 16) :
    Host.scatterAdd scatter_S100000x16_S1700000x1_S1700000x16_1_0_0_1
        (broadcastInDim S100000x16 ![] bcast_S_S100000x16 (constant S_ .f32 0x00000000#32)) dst
        (mulf (Host.gather gather_S100000x16_S1700000x1_S1700000x16_1_0_n_n_0_1_116 x src)
          (broadcastInDim S1700000x16 ![0, 1] bcast_S1700000x1_S1700000x16_0_1 nrm)) (ix2 r a)
      = (0 : EReal) + ∑ k ∈ Finset.univ.filter (fun k : Fin 1700000 => (dst (ix2 k 0)).toInt = (r.val : Int)),
          x (ix2 (RowOps.clampRow 100000 (by decide) (src (ix2 k 0))) a) * nrm (ix2 k 0) := by
  refine (scatterAdd_apply_of scatter_S100000x16_S1700000x1_S1700000x16_1_0_0_1 rfl _ dst _ r a).trans ?_
  refine congrArg₂ (· + ·) Ideal.ofBits_zero_f32 (Finset.sum_congr rfl fun k _ => ?_)
  refine (mulf_apply _ _ (ix2 k a)).trans ?_
  rw [gather_apply_of (by decide) gather_S100000x16_S1700000x1_S1700000x16_1_0_n_n_0_1_116 rfl, spread16_apply]

/-- Entry `(r, j)` in the kernel's order. -/
theorem kerLayer_apply (src dst : IArr S1700000x1) (nrm : FArr S1700000x1) (x : FArr S100000x16) (W1 : FArr S16x64) (b1 : FArr S64)
    (r : Fin 100000) (j : Fin 64) :
    kerLayer src dst nrm x W1 b1 (ix2 r j)
      = max ((∑ a : Fin 16,
            ((0 : EReal) + ∑ k ∈ Finset.univ.filter (fun k : Fin 1700000 => (dst (ix2 k 0)).toInt = (r.val : Int)),
                x (ix2 (RowOps.clampRow 100000 (by decide) (src (ix2 k 0))) a) * nrm (ix2 k 0)) * W1 (ix2 a j))
          + b1 (ix1 j)) 0 := by
  unfold kerLayer
  refine (GCN.layer1_apply _ W1 (row64 b1) r j).trans ?_
  refine congrArg₂ max (congrArg₂ (· + ·)
    (Finset.sum_congr rfl fun a _ => congrArg (· * W1 (ix2 a j)) (agg_apply src dst nrm x r a)) ?_) rfl
  unfold row64
  exact shapeCast_apply b1 shapeCasts_S64_S1x64 (ix2 0 j) (ix1 j)
    (by rw [Shape.rowMajor_val_two, Shape.rowMajor_val_one]; show j.val = 0 * 64 + j.val; omega)

/-- Entry `(s, j)` of the features times the weights. -/
theorem dense_apply (x : FArr Cert.ReferenceIdeal.S100000x16) (W1 : FArr Cert.ReferenceIdeal.S16x64) (s : Fin 100000) (j : Fin 64) :
    val_main_v12 (F := Ideal) x W1 (ix2 s j) = ∑ a : Fin 16, x (ix2 s a) * W1 (ix2 a j) := by
  refine (val_main_v12_apply x W1 (ix2 s j)).trans (Finset.sum_congr rfl fun a _ => ?_)
  have el : lidx_main_v12 (ix2 s j) a = ix2 s a := by
    funext b; match b with | ⟨0, _⟩ => rfl | ⟨1, _⟩ => rfl
  have er : ridx_main_v12 (ix2 s j) a = ix2 a j := by
    funext b; match b with | ⟨0, _⟩ => rfl | ⟨1, _⟩ => rfl
  rw [el, er]

/-- The bias spread over the rows reads the bias's entry of the column. -/
theorem bias_apply (b1 : FArr Cert.ReferenceIdeal.S64) (r : Fin 100000) (j : Fin 64) :
    broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b1) (ix2 r j) = b1 (ix1 j) := by
  refine (broadcastInDim_apply _ Cert.ReferenceIdeal.Facts₀.bcast_S1x64_S100000x64_0_1 _ (ix2 r j) (ix2 0 j) (fun b => match b with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ Cert.ReferenceIdeal.Facts₀.bcast_S64_S1x64_1 b1 (ix2 0 j) (ix1 j) (fun b => match b with
    | ⟨0, _⟩ => by show j.val = if (64 : Nat) = 1 then 0 else j.val; rw [if_neg (by decide)])

/-- Entry `(r, j)` in the reference's order. -/
theorem refLayer_apply (src dst : IArr Cert.ReferenceIdeal.S1700000x1) (nrm : FArr Cert.ReferenceIdeal.S1700000x1)
    (x : FArr Cert.ReferenceIdeal.S100000x16) (W1 : FArr Cert.ReferenceIdeal.S16x64) (b1 : FArr Cert.ReferenceIdeal.S64)
    (r : Fin 100000) (j : Fin 64) :
    refLayer src dst nrm x W1 b1 (ix2 r j)
      = max (((0 : EReal) + ∑ k ∈ Finset.univ.filter (fun k : Fin 1700000 => (dst (ix2 k 0)).toInt = (r.val : Int)),
              (∑ a : Fin 16, x (ix2 (RowOps.clampRow 100000 (by decide) (src (ix2 k 0))) a) * W1 (ix2 a j)) * nrm (ix2 k 0))
          + b1 (ix1 j)) 0 := by
  unfold refLayer
  refine (maximumf_apply _ _ (ix2 r j)).trans ?_
  refine congrArg₂ max ((addf_apply _ _ (ix2 r j)).trans (congrArg₂ (· + ·) ?_ (bias_apply b1 r j))) Ideal.ofBits_zero_f32
  refine (scatterAdd_apply_of Cert.ReferenceIdeal.scatter_S100000x64_S1700000x1_S1700000x64_1_0_0_1 rfl _ dst _ r j).trans ?_
  refine congrArg₂ (· + ·) Ideal.ofBits_zero_f32 (Finset.sum_congr rfl fun k _ => ?_)
  refine (mulf_apply _ _ (ix2 k j)).trans ?_
  rw [gather_apply_of (by decide) Cert.ReferenceIdeal.gather_S100000x64_S1700000x1_S1700000x64_1_0_n_n_0_1_164 rfl,
    spread64_apply, dense_apply]

/-- The two orders agree where the features, the weights and the factors are real numbers: the sum over the edges
    commutes with the product by the weights. -/
theorem kerLayer_eq_refLayer (src dst : IArr S1700000x1) (nrm : FArr S1700000x1) (x : FArr S100000x16) (W1 : FArr S16x64) (b1 : FArr S64)
    (hx : ∀ i, ∃ r : ℝ, x i = (r : EReal)) (hW : ∀ i, ∃ r : ℝ, W1 i = (r : EReal)) (hn : ∀ i, ∃ r : ℝ, nrm i = (r : EReal)) :
    kerLayer src dst nrm x W1 b1 = refLayer src dst nrm x W1 b1 := by
  choose xr hxr using hx
  choose wr hwr using hW
  choose nr hnr using hn
  funext i
  obtain ⟨r, j, rfl⟩ : ∃ (r : Fin 100000) (j : Fin 64), i = ix2 r j := ⟨i 0, i 1, eq_ix2 i⟩
  rw [kerLayer_apply, refLayer_apply]
  refine congrArg₂ max (congrArg₂ (· + ·) ?_ rfl) rfl
  simp only [hxr, hwr, hnr]
  exact ESum.agg_dense_comm _ (fun k a => xr (ix2 (RowOps.clampRow 100000 (by decide) (src (ix2 k 0))) a))
    (fun k => nr (ix2 k 0)) (fun a => wr (ix2 a j))

end Layer1

/-- The kernel's first convolution is the reference's, side 1 … -/
theorem h1_eq (x : FArr S100000x16) (e : IArr S2x1600000) (W1 : FArr S16x64) (b1 : FArr S64)
    (hx : ∀ i, ∃ r : ℝ, x i = (r : EReal)) (hW : ∀ i, ∃ r : ℝ, W1 i = (r : EReal))
    (hn : ∀ i, ∃ r : ℝ, Stages.norm e i = (r : EReal)) :
    Stages.h1 x e W1 b1 = val_main_v44 (F := Ideal) x e W1 b1 := by
  rw [Layer1.h1_unfold, Layer1.v44_unfold, ← Layer1.src_v34 e, ← Layer1.dst_v39 e, ← Layer1.norm_v28 e]
  exact Layer1.kerLayer_eq_refLayer _ _ _ x W1 b1 hx hW hn

/-- … and side 2. -/
theorem h1_eq' (x : FArr S100000x16) (e : IArr S2x1600000) (W1 : FArr S16x64) (b1 : FArr S64)
    (hx : ∀ i, ∃ r : ℝ, x i = (r : EReal)) (hW : ∀ i, ∃ r : ℝ, W1 i = (r : EReal))
    (hn : ∀ i, ∃ r : ℝ, Stages.norm e i = (r : EReal)) :
    Stages.h1 x e W1 b1 = val_main_v142 (F := Ideal) x e W1 b1 := by
  rw [Layer1.h1_unfold, Layer1.v142_unfold, ← Layer1.src_v132 e, ← Layer1.dst_v137 e, ← Layer1.norm_v126 e]
  exact Layer1.kerLayer_eq_refLayer _ _ _ x W1 b1 hx hW hn

end Cert.Bridge

end
-- ==== Proof.BridgeSide.lean ====
/-
  One graph side after the first convolution, and the two sides joined.

  Given that the first convolution's outputs agree, the kernel program and the reference compute the rest of a side by
  the same operations on the same data: the product with the second weight (a matrix product in one, a contraction in
  the other), the aggregation over the edges with the same index columns and the same per-edge factor, and the pooling
  over the graphs.  The reference runs side 2 through the same operations as side 1 under other stage names, so side
  2's statements follow from side 1's; the two embeddings are then joined along the feature axis.

  Three facts are taken as hypotheses here: that the matrix product is the reference's contraction, that the
  reference's pooling tail is a function `refPool` of the aggregated matrix, the second bias and the graph numbers,
  and that the kernel program's pooling is that same function.
-/
import proofs.«425248_j7627861918208_2_alg».proof.Proof.KernelStages
import proofs.«425248_j7627861918208_2_alg».proof.Proof.Gen.ReferenceIdeal.Read

noncomputable section

namespace Cert.Bridge

open Cert.KernelIdeal Cert.KernelIdeal.Facts₀ Cert.KernelIdeal.Facts Cert.KernelIdeal.Stages Idealize.ShloMosaic
open Cert.ReferenceIdeal.Read

/-! ## The stages both programs compute alike

The edge columns and the per-edge factor are the same expressions in the two programs; the reference computes them
again for its second convolution, under new stage names. -/

/-- The target column with the self loops is the index column of the reference's second aggregation. -/
theorem col_ends1 (e : IArr S2x1600000) : Stages.col (Stages.ends1 e) = val_main_v80 (F := Ideal) e := rfl

/-- The wrapped source column with the self loops is the index column of the reference's second row gather. -/
theorem col_src (e : IArr S2x1600000) : Stages.col (Stages.wrap (Stages.ends0 e)) = val_main_v75 (F := Ideal) e := rfl

/-- The per-edge factor `dinv (source) · dinv (target)`, which the reference recomputes for its second convolution. -/
theorem norm_eq (e : IArr S2x1600000) : Stages.norm e = val_main_v69 (F := Ideal) e := rfl

/-! ## Side 2 is side 1 under other names

The reference's stages of side 2 are the same compositions of the same operations as side 1's, applied to side 2's
arguments. -/

/-- The first convolution's output. -/
theorem v142_eq (x : FArr S100000x16) (e : IArr S2x1600000) (W1 : FArr S16x64) (b1 : FArr S64) :
    val_main_v142 (F := Ideal) x e W1 b1 = val_main_v44 (F := Ideal) x e W1 b1 := rfl

/-- The second aggregation. -/
theorem v179_eq (x : FArr S100000x16) (e : IArr S2x1600000) (W1 : FArr S16x64) (b1 : FArr S64) (W2 : FArr S64x64) :
    val_main_v179 (F := Ideal) x e W1 b1 W2 = val_main_v81 (F := Ideal) x e W1 b1 W2 := rfl

/-- The embedding. -/
theorem v195_eq (x : FArr S100000x16) (e : IArr S2x1600000) (bt : IArr S100000) (W1 : FArr S16x64) (b1 : FArr S64)
    (W2 : FArr S64x64) (b2 : FArr S64) :
    val_main_v195 (F := Ideal) x e bt W1 b1 W2 b2 = val_main_v97 (F := Ideal) x e bt W1 b1 W2 b2 := rfl

/-! ## The second convolution -/

section
variable (hdense : ∀ (h : FArr S100000x64) (w : FArr S64x64),
  GCN.dense h w = Host.dotGeneral (F := Ideal) Cert.ReferenceIdeal.dot_S100000x64_S64x64_S100000x64_1_0_0_1_n_n none h w)
include hdense

/-- Its transform: the matrix product with the second weight is the reference's contraction of the first
    convolution's output with that weight. -/
theorem lin_eq (x : FArr S100000x16) (e : IArr S2x1600000) (W1 : FArr S16x64) (b1 : FArr S64) (W2 : FArr S64x64)
    (hh : Stages.h1 x e W1 b1 = val_main_v44 (F := Ideal) x e W1 b1) :
    Stages.lin x e W1 b1 W2 = val_main_v53 (F := Ideal) x e W1 b1 W2 := by
  unfold Stages.lin val_main_v53
  rw [hh]
  exact hdense _ _

/-- Its aggregation: the same scatter-add, by the same target column into zeros, of the same gathered rows times the
    same factor. -/
theorem agg64_eq (x : FArr S100000x16) (e : IArr S2x1600000) (W1 : FArr S16x64) (b1 : FArr S64) (W2 : FArr S64x64)
    (hh : Stages.h1 x e W1 b1 = val_main_v44 (F := Ideal) x e W1 b1) :
    Stages.agg64 x e W1 b1 W2 = val_main_v81 (F := Ideal) x e W1 b1 W2 := by
  unfold Stages.agg64 val_main_v81 val_main_v78 val_main_v76 val_main_v77 val_main_v79 val_main_cst_15
  rw [lin_eq hdense x e W1 b1 W2 hh, col_ends1, col_src, norm_eq]
  rfl

/-- The same on side 2. -/
theorem agg64_eq' (x : FArr S100000x16) (e : IArr S2x1600000) (W1 : FArr S16x64) (b1 : FArr S64) (W2 : FArr S64x64)
    (hh : Stages.h1 x e W1 b1 = val_main_v142 (F := Ideal) x e W1 b1) :
    Stages.agg64 x e W1 b1 W2 = val_main_v179 (F := Ideal) x e W1 b1 W2 :=
  (agg64_eq hdense x e W1 b1 W2 (hh.trans (v142_eq x e W1 b1))).trans (v179_eq x e W1 b1 W2).symm

/-! ## The embeddings -/

variable (refPool : FArr S100000x64 → FArr S64 → IArr S100000 → FArr S256x64)
  (h97 : ∀ (x0 : FArr S100000x16) (x1 : IArr S2x1600000) (x2 : IArr S100000) (x6 : FArr S16x64) (x7 : FArr S64)
    (x8 : FArr S64x64) (x9 : FArr S64),
    val_main_v97 (F := Ideal) x0 x1 x2 x6 x7 x8 x9 = refPool (val_main_v81 (F := Ideal) x0 x1 x6 x7 x8) x9 x2)
  (hpool : ∀ (a : FArr S100000x64) (b2 : FArr S64) (bt : IArr S100000),
    Host.divf (F := Ideal) (GCN.poolSum 256 a (Stages.row64 b2) (Stages.bcol bt))
      (broadcastInDim S256x64 ![0, 1] bcast_S256x1_S256x64_0_1
        (maximumf (shapeCast _ (GCN.poolCnt 256 (Stages.bcol bt)) shapeCasts_S1x256_S256x1)
          (broadcastInDim S256x1 ![] bcast_S_S256x1 (constant (F := Ideal) S_ .f32 0x3F800000#32)))) = refPool a b2 bt)
include h97 hpool

/-- One side's embedding: both programs pool the same aggregated matrix, the per-graph sums over the per-graph
    counts floored at one. -/
theorem emb_eq (x : FArr S100000x16) (e : IArr S2x1600000) (bt : IArr S100000) (W1 : FArr S16x64) (b1 : FArr S64)
    (W2 : FArr S64x64) (b2 : FArr S64)
    (hh : Stages.h1 x e W1 b1 = val_main_v44 (F := Ideal) x e W1 b1) :
    Stages.emb x e bt W1 b1 W2 b2 = val_main_v97 (F := Ideal) x e bt W1 b1 W2 b2 := by
  rw [h97, ← agg64_eq hdense x e W1 b1 W2 hh]
  exact hpool _ _ _

/-- The same on side 2. -/
theorem emb_eq' (x : FArr S100000x16) (e : IArr S2x1600000) (bt : IArr S100000) (W1 : FArr S16x64) (b1 : FArr S64)
    (W2 : FArr S64x64) (b2 : FArr S64)
    (hh : Stages.h1 x e W1 b1 = val_main_v142 (F := Ideal) x e W1 b1) :
    Stages.emb x e bt W1 b1 W2 b2 = val_main_v195 (F := Ideal) x e bt W1 b1 W2 b2 :=
  (emb_eq hdense refPool h97 hpool x e bt W1 b1 W2 b2 (hh.trans (v142_eq x e W1 b1))).trans
    (v195_eq x e bt W1 b1 W2 b2).symm

/-- The two embeddings side by side. -/
theorem comb_eq (x0 : FArr S100000x16) (x1 : IArr S2x1600000) (x2 : IArr S100000) (x3 : FArr S100000x16) (x4 : IArr S2x1600000)
    (x5 : IArr S100000) (x6 : FArr S16x64) (x7 : FArr S64) (x8 : FArr S64x64) (x9 : FArr S64)
    (hh1 : Stages.h1 x0 x1 x6 x7 = val_main_v44 (F := Ideal) x0 x1 x6 x7)
    (hh2 : Stages.h1 x3 x4 x6 x7 = val_main_v142 (F := Ideal) x3 x4 x6 x7) :
    concatenate S256x128 1 [⟨S256x64, Stages.emb x0 x1 x2 x6 x7 x8 x9⟩, ⟨S256x64, Stages.emb x3 x4 x5 x6 x7 x8 x9⟩]
        concatenates_S256x64_S256x64_S256x128_d1
      = val_main_v196 (F := Ideal) x0 x1 x2 x3 x4 x5 x6 x7 x8 x9 := by
  unfold val_main_v196
  rw [emb_eq hdense refPool h97 hpool x0 x1 x2 x6 x7 x8 x9 hh1, emb_eq' hdense refPool h97 hpool x3 x4 x5 x6 x7 x8 x9 hh2]

end

end Cert.Bridge

end
-- ==== Proof.LibVecOps.lean ====
/-
  Gathers and scatter-adds of a vector, read at an index: the rank-1 siblings of the row operations on a matrix.

  A vector `x : [N]` gathered at a column `idx : [E, 1]` of positions gives `[E]`: entry `e` of the result is
  `x` at `clamp(idx e)` (the start index read signed and clamped into `[0, N - 1]`).
  A scatter-add of updates `u : [E]` at the same kind of column into `x : [N]` adds to entry `r` every update
  `e` whose index, read signed and unclamped, is `r`; updates whose index is out of range are dropped.
  Each statement, and each of the row operations' two, is also given for an arbitrary record of dimension numbers
  that equals the one named, so that it applies to a record a program defines under another name.
-/
import Idealize.ShloMosaic.PureOps.Ideal
import Idealize.ShloMosaic.Lib.ValueIdx
import proofs.«425248_j7627861918208_2_alg».proof.Proof.LibRowOps

noncomputable section

open scoped BigOperators

namespace RowOps

open Idealize.ShloMosaic Idealize.ShloMosaic.ValueIdx

/-! ## Sums over a flat index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The gather of a vector -/

section Gather1
variable {α : Type}

/-- The dimension numbers of `x[idx]` over a vector: operand `[N]`, start indices `[E, 1]`, result `[E]`. Every result
    axis is a batch axis; the operand's one axis is collapsed. -/
abbrev gatherDims1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather of a vector is the vector at the clamped position `idx e`: the start index is read
    signed and clamped into `[0, N - 1]`; there is no batching and no offset coordinate to add. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims1 N E wf) x idx (ix1 e) = x (ix1 (clampRow N hN (idx (ix2 e 0)))) := by
  unfold Host.gather
  congr 1
  funext a
  obtain rfl : a = 0 := Subsingleton.elim _ _
  refine Fin.ext ?_
  show (gatherDims1 N E wf).start (ix1 e) idx 0 + (gatherDims1 N E wf).batchCoord (ix1 e) 0
    + (gatherDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherDims1 N E wf).startIndexMap from List.mem_singleton.mpr rfl)]
  have hsi : (gatherDims1 N E wf).siIdx (ix1 e) ⟨List.idxOf (0 : Fin 1) (gatherDims1 N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The same for any record that is these dimension numbers. -/
theorem gather1_apply_of {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = gatherDims1 N E wf)
    (x : (⟨1, ![N]⟩ : Shape).Idx → α) (idx : IVec ⟨2, ![E, 1]⟩ w) (e : Fin E) :
    Host.gather d x idx (ix1 e) = x (ix1 (clampRow N hN (idx (ix2 e 0)))) := by
  subst hd
  exact gather1_apply hN wf x idx e

end Gather1

/-! ## The scatter-add into a vector -/

section Scatter1

/-- The dimension numbers of `x.at[idx].add(u)` over a vector: operand `[N]`, scatter indices `[E, 1]`, updates `[E]`.
    The updates have no window axis; the operand's one axis is an inserted window axis. -/
abbrev scatterDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- Update `e` starts at the position its index names, read signed and not clamped … -/
theorem start1 : (scatterDims1 N E wf).start (ix1 e) idx 0 = (idx (ix2 e 0)).toInt := by
  unfold ScatterDims.start
  rw [dif_pos (show (0 : Fin 1) ∈ (scatterDims1 N E wf).scatterDimsToOperandDims from List.mem_singleton.mpr rfl)]
  have hsi : (scatterDims1 N E wf).siIdx (ix1 e) ⟨List.idxOf (0 : Fin 1) (scatterDims1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and has window coordinate 0 there, the one axis being inserted. -/
theorem window1 : (scatterDims1 N E wf).window (ix1 e) 0 = 0 := by
  unfold ScatterDims.window
  rw [dif_neg (show (0 : Fin 1) ∉ (scatterDims1 N E wf).sKept from by
    show (0 : Fin 1) ∉ (List.finRange 1).filter (fun a => a ∉ [(0 : Fin 1)]); decide)]

/-- Update `e` lands on position `r` exactly when its index, read signed, is `r`; an index outside `[0, N)` lands
    nowhere. -/
theorem resultIdx1?_eq_some_iff (r : Fin N) :
    (scatterDims1 N E wf).resultIdx? (ix1 e) idx = some (ix1 r) ↔ (idx (ix2 e 0)).toInt = (r.val : Int) := by
  unfold ScatterDims.resultIdx?
  have hr := r.isLt
  split
  · rename_i h
    rw [Option.some.injEq]
    constructor
    · intro hf
      have h0 := congrArg (fun f : (⟨1, ![N]⟩ : Shape).Idx => (f 0).val) hf
      simp only [start1, window1] at h0
      have hh := (h 0).1
      simp only [start1, window1] at hh
      have : ((idx (ix2 e 0)).toInt + ((0 : Nat) : Int)).toNat = r.val := h0
      omega
    · intro hs
      funext a
      obtain rfl : a = 0 := Subsingleton.elim _ _
      refine Fin.ext ?_
      show ((scatterDims1 N E wf).start (ix1 e) idx 0 + ((scatterDims1 N E wf).window (ix1 e) 0 : Nat)).toNat = r.val
      rw [start1, window1, hs]; omega
  · rename_i h
    constructor
    · intro hf; exact absurd hf (by simp)
    · intro hs
      refine absurd (fun a => ?_) h
      obtain rfl : a = 0 := Subsingleton.elim _ _
      show 0 ≤ (scatterDims1 N E wf).start (ix1 e) idx 0 + ((scatterDims1 N E wf).window (ix1 e) 0 : Nat)
        ∧ (scatterDims1 N E wf).start (ix1 e) idx 0 + ((scatterDims1 N E wf).window (ix1 e) 0 : Nat) < (N : Int)
      rw [start1, window1, hs]; omega

/-- Entry `r` of the scatter-add over the extended reals: the operand's entry plus the sum of the updates whose
    index is `r`. -/
theorem scatterAdd1_apply {φ : FTy} (x : FVec Ideal ⟨1, ![N]⟩ φ) (upd : FVec Ideal ⟨1, ![E]⟩ φ) (r : Fin N) :
    Host.scatterAdd (F := Ideal) (scatterDims1 N E wf) x idx upd (ix1 r)
      = x (ix1 r) + ∑ e ∈ Finset.univ.filter (fun e : Fin E => (idx (ix2 e 0)).toInt = (r.val : Int)), upd (ix1 e) := by
  unfold Host.scatterAdd
  rw [Ideal.hostScatterAdd_def]
  unfold Ideal.hostScatterAdd
  congr 1
  rw [Finset.sum_filter, sum_idx1, Finset.sum_filter]
  refine Finset.sum_congr rfl fun e _ => ?_
  simp only [resultIdx1?_eq_some_iff]

end Scatter1

/-- The same for any record that is these dimension numbers. -/
theorem scatterAdd1_apply_of {N E w : Nat} {φ : FTy}
    {wf : ScatterDims.WF ⟨1, ![N]⟩ ⟨2, ![E, 1]⟩ ⟨1, ![E]⟩ [] [0] [0] 1}
    (d : ScatterDims ⟨1, ![N]⟩ ⟨2, ![E, 1]⟩ ⟨1, ![E]⟩) (hd : d = scatterDims1 N E wf)
    (x : FVec Ideal ⟨1, ![N]⟩ φ) (idx : IVec ⟨2, ![E, 1]⟩ w) (upd : FVec Ideal ⟨1, ![E]⟩ φ) (r : Fin N) :
    Host.scatterAdd (F := Ideal) d x idx upd (ix1 r)
      = x (ix1 r) + ∑ e ∈ Finset.univ.filter (fun e : Fin E => (idx (ix2 e 0)).toInt = (r.val : Int)), upd (ix1 e) := by
  subst hd
  exact scatterAdd1_apply wf idx x upd r

/-! ## The row operations for a record under another name -/

/-- Entry `(e, q)` of the row gather, for any record that is the row gather's dimension numbers. -/
theorem gather_apply_of {α : Type} {N E C w : Nat} (hN : 0 < N)
    {wf : GatherDims.WF ⟨2, ![N, C]⟩ ⟨2, ![E, 1]⟩ ⟨2, ![E, C]⟩ [1] [0] [] [0] [] 1 ![1, C]}
    (d : GatherDims ⟨2, ![N, C]⟩ ⟨2, ![E, 1]⟩ ⟨2, ![E, C]⟩) (hd : d = gatherDims N E C wf)
    (x : (⟨2, ![N, C]⟩ : Shape).Idx → α) (idx : IVec ⟨2, ![E, 1]⟩ w) (e : Fin E) (q : Fin C) :
    Host.gather d x idx (ix2 e q) = x (ix2 (clampRow N hN (idx (ix2 e 0))) q) := by
  subst hd
  exact gather_apply hN wf x idx e q

/-- Entry `(r, p)` of the row scatter-add, for any record that is the row scatter-add's dimension numbers. -/
theorem scatterAdd_apply_of {N E C w : Nat} {φ : FTy}
    {wf : ScatterDims.WF ⟨2, ![N, C]⟩ ⟨2, ![E, 1]⟩ ⟨2, ![E, C]⟩ [1] [0] [0] 1}
    (d : ScatterDims ⟨2, ![N, C]⟩ ⟨2, ![E, 1]⟩ ⟨2, ![E, C]⟩) (hd : d = scatterDims N E C wf)
    (x : FVec Ideal ⟨2, ![N, C]⟩ φ) (idx : IVec ⟨2, ![E, 1]⟩ w) (upd : FVec Ideal ⟨2, ![E, C]⟩ φ) (r : Fin N) (p : Fin C) :
    Host.scatterAdd (F := Ideal) d x idx upd (ix2 r p)
      = x (ix2 r p) + ∑ e ∈ Finset.univ.filter (fun e : Fin E => (idx (ix2 e 0)).toInt = (r.val : Int)), upd (ix2 e p) := by
  subst hd
  exact scatterAdd_apply wf idx x upd r p

end RowOps

end
-- ==== Proof.BridgePool.lean ====
/-
  The pooling tail of one graph side, on the kernel's side and on the reference's, as functions of the aggregated
  matrix `a : [100000, 64]`, the bias `b : [64]` and the graph numbers `bt : [100000]`.

  Both compute, for graph `g < 256` and column `j < 64`,
      `(∑ over the nodes r with bt r = g of max (a (r, j) + b j) 0) / max (number of those nodes) 1`,
  the graph number read as a signed word and nodes whose number is outside `[0, 256)` dropped.
  The reference spells it with two scatter-adds into zeros (of the rows `max (a + b) 0`, and of ones) at the graph
  numbers broadcast to a column, and broadcasts the floored count across the columns; the kernel's side spells the
  sums directly, with the graph numbers and the bias reshaped to a column and a row and the count row reshaped to a
  column.  `refPool` is the reference's text from the aggregated matrix down; the two sides' pooled embeddings in
  the reference program are `refPool` of their aggregated matrices by unfolding, and the kernel's tail equals
  `refPool` index by index.
-/
import proofs.«425248_j7627861918208_2_alg».proof.Proof.KernelStages
import proofs.«425248_j7627861918208_2_alg».proof.Proof.Gen.ReferenceIdeal.Read
import proofs.«425248_j7627861918208_2_alg».proof.Proof.LibRowOps
import proofs.«425248_j7627861918208_2_alg».proof.Proof.LibVecOps
import proofs.«425248_j7627861918208_2_alg».proof.Proof.Spec
import Idealize.ShloMosaic.Lib.IdealHost
import Idealize.ShloMosaic.Lib.Pipeline.Value
import Idealize.ShloMosaic.PureOps.Ideal.Laws

noncomputable section

open scoped BigOperators

namespace Cert.Bridge

open Idealize.ShloMosaic Idealize.ShloMosaic.ValueIdx
open Cert.KernelIdeal.Stages (FArr IArr)

section Reference
open Cert.ReferenceIdeal Cert.ReferenceIdeal.Facts₀ Cert.ReferenceIdeal.Facts

/-- The graph numbers as a column, by a broadcast. -/
def refCol (x2 : IArr S100000) : IArr S100000x1 := broadcastInDim S100000x1 ![0] bcast_S100000_S100000x1_0 x2

/-- The rows that are pooled: `max (a + bias) 0`, the bias broadcast to one row and then down the rows. -/
def refUpd (a : FArr S100000x64) (x9 : FArr S64) : FArr S100000x64 :=
  maximumf (addf a (broadcastInDim S100000x64 ![0, 1] bcast_S1x64_S100000x64_0_1 (broadcastInDim S1x64 ![1] bcast_S64_S1x64_1 x9)))
    (broadcastInDim S100000x64 ![] bcast_S_S100000x64 (constant (F := Ideal) S_ .f32 0x00000000#32))

/-- Per graph, the sum of its nodes' pooled rows: a row scatter-add into zeros. -/
def refSum (a : FArr S100000x64) (x9 : FArr S64) (x2 : IArr S100000) : FArr S256x64 :=
  Host.scatterAdd (F := Ideal) scatter_S256x64_S100000x1_S100000x64_1_0_0_1
    (broadcastInDim S256x64 ![] bcast_S_S256x64 (constant (F := Ideal) S_ .f32 0x00000000#32)) (refCol x2) (refUpd a x9)

/-- Per graph, the number of its nodes: a scatter-add of ones into zeros. -/
def refCnt (x2 : IArr S100000) : FArr S256 :=
  Host.scatterAdd (F := Ideal) scatter_S256_S100000x1_S100000_n_0_0_1
    (broadcastInDim S256 ![] bcast_S_S256 (constant (F := Ideal) S_ .f32 0x00000000#32)) (refCol x2)
    (broadcastInDim S100000 ![] bcast_S_S100000 (constant (F := Ideal) S_ .f32 0x3F800000#32))

/-- The divisor: the count floored at one, as a column, then across the 64 columns. -/
def refDen (x2 : IArr S100000) : FArr S256x64 :=
  broadcastInDim S256x64 ![0, 1] bcast_S256x1_S256x64_0_1 (broadcastInDim S256x1 ![0] bcast_S256_S256x1_0
    (maximumf (refCnt x2) (broadcastInDim S256 ![] bcast_S_S256 (constant (F := Ideal) S_ .f32 0x3F800000#32))))

/-- The reference's pooling tail of one graph side, as a function of the aggregated matrix, the bias and the graph numbers. -/
def refPool (a : FArr S100000x64) (x9 : FArr S64) (x2 : IArr S100000) : FArr S256x64 :=
  Host.divf (F := Ideal) (refSum a x9 x2) (refDen x2)

/-- Side 1's pooled embedding in the reference program is the pooling tail of its aggregated matrix. -/
theorem val_main_v97_eq_refPool (x0 : FArr S100000x16) (x1 : IArr S2x1600000) (x2 : IArr S100000) (x6 : FArr S16x64) (x7 : FArr S64)
    (x8 : FArr S64x64) (x9 : FArr S64) :
    Read.val_main_v97 (F := Ideal) x0 x1 x2 x6 x7 x8 x9 = refPool (Read.val_main_v81 (F := Ideal) x0 x1 x6 x7 x8) x9 x2 := rfl

/-- Side 2's likewise. -/
theorem val_main_v195_eq_refPool (x3 : FArr S100000x16) (x4 : IArr S2x1600000) (x5 : IArr S100000) (x6 : FArr S16x64) (x7 : FArr S64)
    (x8 : FArr S64x64) (x9 : FArr S64) :
    Read.val_main_v195 (F := Ideal) x3 x4 x5 x6 x7 x8 x9 = refPool (Read.val_main_v179 (F := Ideal) x3 x4 x6 x7 x8) x9 x5 := rfl

/-- The column at row `r` is the vector at `r`. -/
theorem refCol_apply (x2 : IArr S100000) (r : Fin 100000) : refCol x2 (ix2 r 0) = x2 (ix1 r) := by
  unfold refCol
  exact broadcastInDim_apply _ bcast_S100000_S100000x1_0 x2 (ix2 r 0) (ix1 r) (fun a => match a with
    | ⟨0, _⟩ => by show r.val = if (100000 : Nat) = 1 then 0 else r.val; rw [if_neg (by decide)])

/-- A zero splat reads 0 everywhere … -/
theorem zeros_apply {T : Shape} (h : (⟨0, ![]⟩ : Shape).BroadcastsInDim T ![]) (i : T.Idx) :
    broadcastInDim T ![] h (constant (F := Ideal) ⟨0, ![]⟩ .f32 0x00000000#32) i = (0 : EReal) :=
  (broadcastInDim_scalar_apply h _ i).trans Ideal.ofBits_zero_f32
/-- … and a one splat 1. -/
theorem ones_apply {T : Shape} (h : (⟨0, ![]⟩ : Shape).BroadcastsInDim T ![]) (i : T.Idx) :
    broadcastInDim T ![] h (constant (F := Ideal) ⟨0, ![]⟩ .f32 0x3F800000#32) i = (1 : EReal) :=
  (broadcastInDim_scalar_apply h _ i).trans Ideal.ofBits_one_f32

/-- The pooled row `r` at column `j`: `max (a (r, j) + bias j) 0`. -/
theorem refUpd_apply (a : FArr S100000x64) (x9 : FArr S64) (r : Fin 100000) (j : Fin 64) :
    refUpd a x9 (ix2 r j) = max (a (ix2 r j) + x9 (ix1 j)) 0 := by
  have h1 : broadcastInDim S100000x64 ![0, 1] bcast_S1x64_S100000x64_0_1 (broadcastInDim S1x64 ![1] bcast_S64_S1x64_1 x9) (ix2 r j)
      = x9 (ix1 j) :=
    (broadcastInDim_apply _ bcast_S1x64_S100000x64_0_1 _ (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])).trans
    (broadcastInDim_apply _ bcast_S64_S1x64_1 x9 (ix2 (0 : Fin 1) j) (ix1 j) (fun a => match a with
      | ⟨0, _⟩ => by show j.val = if (64 : Nat) = 1 then 0 else j.val; rw [if_neg (by decide)]))
  unfold refUpd
  rw [maximumf_apply, addf_apply, h1, zeros_apply]

/-- Entry `(g, j)` of the per-graph sums: the sum over the nodes of graph `g` of their pooled rows' column `j`. -/
theorem refSum_apply (a : FArr S100000x64) (x9 : FArr S64) (x2 : IArr S100000) (g : Fin 256) (j : Fin 64) :
    refSum a x9 x2 (ix2 g j)
      = ∑ r ∈ Finset.univ.filter (fun r : Fin 100000 => (x2 (ix1 r)).toInt = (g.val : Int)), max (a (ix2 r j) + x9 (ix1 j)) 0 := by
  unfold refSum
  rw [RowOps.scatterAdd_apply_of scatter_S256x64_S100000x1_S100000x64_1_0_0_1 rfl, zeros_apply, zero_add]
  simp only [refCol_apply, refUpd_apply]

/-- Entry `g` of the per-graph counts: one per node of graph `g`. -/
theorem refCnt_apply (x2 : IArr S100000) (g : Fin 256) :
    refCnt x2 (ix1 g) = ∑ _r ∈ Finset.univ.filter (fun r : Fin 100000 => (x2 (ix1 r)).toInt = (g.val : Int)), (1 : EReal) := by
  unfold refCnt
  rw [RowOps.scatterAdd1_apply_of scatter_S256_S100000x1_S100000_n_0_0_1 rfl, zeros_apply, zero_add]
  simp only [refCol_apply]
  exact Finset.sum_congr rfl fun r _ => ones_apply _ _

/-- Entry `(g, j)` of the divisor: the count of graph `g` floored at one. -/
theorem refDen_apply (x2 : IArr S100000) (g : Fin 256) (j : Fin 64) :
    refDen x2 (ix2 g j)
      = max (∑ _r ∈ Finset.univ.filter (fun r : Fin 100000 => (x2 (ix1 r)).toInt = (g.val : Int)), (1 : EReal)) 1 := by
  unfold refDen
  refine ((broadcastInDim_apply _ bcast_S256x1_S256x64_0_1 _ (ix2 g j) (ix2 g (0 : Fin 1)) (fun a => match a with
      | ⟨0, _⟩ => by show g.val = if (256 : Nat) = 1 then 0 else g.val; rw [if_neg (by decide)]
      | ⟨1, _⟩ => by show 0 = if (1 : Nat) = 1 then 0 else j.val; rw [if_pos rfl])).trans
    (broadcastInDim_apply _ bcast_S256_S256x1_0 _ (ix2 g (0 : Fin 1)) (ix1 g) (fun a => match a with
      | ⟨0, _⟩ => by show g.val = if (256 : Nat) = 1 then 0 else g.val; rw [if_neg (by decide)]))).trans ?_
  rw [maximumf_apply, refCnt_apply, ones_apply]

/-- Entry `(g, j)` of the reference's pooling tail: the per-graph sum over the floored count. -/
theorem refPool_apply (a : FArr S100000x64) (x9 : FArr S64) (x2 : IArr S100000) (g : Fin 256) (j : Fin 64) :
    refPool a x9 x2 (ix2 g j)
      = Ideal.div (∑ r ∈ Finset.univ.filter (fun r : Fin 100000 => (x2 (ix1 r)).toInt = (g.val : Int)), max (a (ix2 r j) + x9 (ix1 j)) 0)
          (max (∑ _r ∈ Finset.univ.filter (fun r : Fin 100000 => (x2 (ix1 r)).toInt = (g.val : Int)), (1 : EReal)) 1) := by
  unfold refPool
  rw [hostDivf_apply, refSum_apply, refDen_apply]

end Reference

section Kernel
open Cert.KernelIdeal Cert.KernelIdeal.Facts₀ Cert.KernelIdeal.Facts

/-- The graph numbers as a column, by a reshape: row `r` is the vector at `r`. -/
theorem bcol_apply (bt : IArr S100000) (r : Fin 100000) : Stages.bcol bt (ix2 r 0) = bt (ix1 r) := by
  unfold Stages.bcol
  exact shapeCast_apply bt shapeCasts_S100000_S100000x1 (ix2 r (0 : Fin 1)) (ix1 r)
    (by rewrite [Shape.rowMajor_val_two, Shape.rowMajor_val_one]; show r.val = r.val * 1 + 0; omega)

/-- A 64-vector as one row: column `j` is the vector at `j`. -/
theorem row64_apply (b : FArr S64) (j : Fin 64) : Stages.row64 b (ix2 (0 : Fin 1) j) = b (ix1 j) := by
  unfold Stages.row64
  exact shapeCast_apply b shapeCasts_S64_S1x64 (ix2 (0 : Fin 1) j) (ix1 j)
    (by rewrite [Shape.rowMajor_val_two, Shape.rowMajor_val_one]; show j.val = 0 * 64 + j.val; omega)

/-- Entry `(g, j)` of the kernel's divisor: the count of graph `g` floored at one. -/
theorem kerDen_apply (bt : IArr S100000) (g : Fin 256) (j : Fin 64) :
    broadcastInDim S256x64 ![0, 1] bcast_S256x1_S256x64_0_1 (maximumf (shapeCast _ (GCN.poolCnt 256 (Stages.bcol bt)) shapeCasts_S1x256_S256x1)
        (broadcastInDim S256x1 ![] bcast_S_S256x1 (constant (F := Ideal) S_ .f32 0x3F800000#32))) (ix2 g j)
      = max (∑ _r ∈ Finset.univ.filter (fun r : Fin 100000 => (bt (ix1 r)).toInt = (g.val : Int)), (1 : EReal)) 1 := by
  refine (broadcastInDim_apply _ bcast_S256x1_S256x64_0_1 _ (ix2 g j) (ix2 g (0 : Fin 1)) (fun a => match a with
      | ⟨0, _⟩ => by show g.val = if (256 : Nat) = 1 then 0 else g.val; rw [if_neg (by decide)]
      | ⟨1, _⟩ => by show 0 = if (1 : Nat) = 1 then 0 else j.val; rw [if_pos rfl])).trans ?_
  rw [maximumf_apply, ones_apply]
  have hc : shapeCast S256x1 (GCN.poolCnt 256 (Stages.bcol bt)) shapeCasts_S1x256_S256x1 (ix2 g (0 : Fin 1))
      = GCN.poolCnt 256 (Stages.bcol bt) (ix2 (0 : Fin 1) g) :=
    shapeCast_apply _ shapeCasts_S1x256_S256x1 (ix2 g (0 : Fin 1)) (ix2 (0 : Fin 1) g)
      (by rewrite [Shape.rowMajor_val_two, Shape.rowMajor_val_two]; show 0 * 256 + g.val = g.val * 1 + 0; omega)
  rw [hc, GCN.poolCnt_apply]
  simp only [bcol_apply]

/-- The kernel's pooling tail is the reference's: at `(g, j)` both are the quotient of the same per-graph sum by the same
    floored count. -/
theorem pool_eq (a : FArr S100000x64) (b2 : FArr S64) (bt : IArr S100000) :
    Host.divf (F := Ideal) (GCN.poolSum 256 a (Stages.row64 b2) (Stages.bcol bt))
      (broadcastInDim S256x64 ![0, 1] bcast_S256x1_S256x64_0_1 (maximumf (shapeCast _ (GCN.poolCnt 256 (Stages.bcol bt)) shapeCasts_S1x256_S256x1)
        (broadcastInDim S256x1 ![] bcast_S_S256x1 (constant (F := Ideal) S_ .f32 0x3F800000#32))))
      = refPool a b2 bt := by
  funext i
  obtain ⟨g, j, rfl⟩ : ∃ (g : Fin 256) (j : Fin 64), i = ix2 g j := ⟨i 0, i 1, eq_ix2 i⟩
  rw [hostDivf_apply, kerDen_apply, GCN.poolSum_apply, refPool_apply]
  simp only [bcol_apply, row64_apply]

end Kernel

end Cert.Bridge

end
-- ==== Proof.DenseRef.lean ====
/-
  The reference's two host products read as the matrix product of the specification.

  A `dot_general` contracting the left operand's columns with the right operand's rows has, at the ideal values,
  entry `(r, j)` equal to the sum over its contraction index of left `(r, k)` times right `(k, j)`; its contraction
  shape has the one axis of extent 64 (or 16), so the sum is over `Fin 64` (`Fin 16`): `GCN.dense`.
-/
import proofs.«425248_j7627861918208_2_alg».proof.ReferenceIdeal
import proofs.«425248_j7627861918208_2_alg».proof.Proof.Gen.ReferenceIdeal
import proofs.«425248_j7627861918208_2_alg».proof.Proof.Spec
import Idealize.ShloMosaic.PureOps.Ideal.Laws
import Idealize.ShloMosaic.Lib.ValueIdx

set_option maxRecDepth 16384

noncomputable section

namespace Cert.KernelIdeal.RegionValue

open Cert.ReferenceIdeal Cert.ReferenceIdeal.Gen Idealize.ShloMosaic Idealize.ShloMosaic.ValueIdx
open scoped BigOperators

/-! ## The product with a `[64, 64]` right operand -/

/-- The left operand is read on the output's row -/
theorem lhs64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- and at the summation index on its columns. -/
theorem lhs64_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand is read at the summation index on its rows -/
theorem rhs64_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- and on the output's column. -/
theorem rhs64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's `dot_general` of a `[100000, 64]` by a `[64, 64]` matrix, contracting the left columns with the right
    rows, is the matrix product: the sum over its one contraction axis re-indexed to `Fin 64`. -/
theorem dense_eq_dotGeneral64 (h : GCN.Mat 100000 64) (w : GCN.Mat 64 64) :
    GCN.dense h w = Host.dotGeneral (F := Ideal) (φ₁ := .f32) (φ₂ := .f32) Cert.ReferenceIdeal.dot_S100000x64_S64x64_S100000x64_1_0_0_1_n_n none h w := by
  funext i
  obtain ⟨r, j, rfl⟩ : ∃ (r : Fin 100000) (j : Fin 64), i = ix2 r j := ⟨i 0, i 1, eq_ix2 i⟩
  rw [GCN.dense_apply]
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (rhs64_0 _ _).trans hk
    | ⟨1, _⟩ => exact rhs64_1 _ _)
  rw [el, er]

/-! ## The product with a `[16, 64]` right operand -/

/-- The left operand is read on the output's row -/
theorem lhs16_0 (i : S100000x64.Idx) (q : dot_S100000x16_S16x64_S100000x64_1_0_0_1_n_n.contr.Idx) :
    (dot_S100000x16_S16x64_S100000x64_1_0_0_1_n_n.lhsIdx i q 0).val = (i 0).val := by
  unfold DotDims.lhsIdx
  rw [dif_neg (show ¬(0 : Fin S100000x16.rank) ∈ dot_S100000x16_S16x64_S100000x64_1_0_0_1_n_n.lhsBatch by decide), dif_pos (show (0 : Fin S100000x16.rank) ∈ dot_S100000x16_S16x64_S100000x64_1_0_0_1_n_n.lhsNonContracting by decide)]
  rfl
/-- and at the summation index on its columns. -/
theorem lhs16_1 (i : S100000x64.Idx) (q : dot_S100000x16_S16x64_S100000x64_1_0_0_1_n_n.contr.Idx) :
    (dot_S100000x16_S16x64_S100000x64_1_0_0_1_n_n.lhsIdx i q 1).val = (q ⟨0, by decide⟩).val :=
  dot_S100000x16_S16x64_S100000x64_1_0_0_1_n_n.lhsIdx_val_of_single rfl i q
/-- The right operand is read at the summation index on its rows -/
theorem rhs16_0 (i : S100000x64.Idx) (q : dot_S100000x16_S16x64_S100000x64_1_0_0_1_n_n.contr.Idx) :
    (dot_S100000x16_S16x64_S100000x64_1_0_0_1_n_n.rhsIdx i q 0).val = (q ⟨0, by decide⟩).val :=
  dot_S100000x16_S16x64_S100000x64_1_0_0_1_n_n.rhsIdx_val_of_single rfl i q
/-- and on the output's column. -/
theorem rhs16_1 (i : S100000x64.Idx) (q : dot_S100000x16_S16x64_S100000x64_1_0_0_1_n_n.contr.Idx) :
    (dot_S100000x16_S16x64_S100000x64_1_0_0_1_n_n.rhsIdx i q 1).val = (i 1).val := by
  unfold DotDims.rhsIdx
  rw [dif_neg (show ¬(1 : Fin S16x64.rank) ∈ dot_S100000x16_S16x64_S100000x64_1_0_0_1_n_n.rhsBatch by decide), dif_pos (show (1 : Fin S16x64.rank) ∈ dot_S100000x16_S16x64_S100000x64_1_0_0_1_n_n.rhsNonContracting by decide)]
  rfl

/-- The host's `dot_general` of a `[100000, 16]` by a `[16, 64]` matrix, contracting the left columns with the right
    rows, is the matrix product: the sum over its one contraction axis re-indexed to `Fin 16`. -/
theorem dense_eq_dotGeneral16 (h : GCN.Mat 100000 16) (w : GCN.Mat 16 64) :
    GCN.dense h w = Host.dotGeneral (F := Ideal) (φ₁ := .f32) (φ₂ := .f32) Cert.ReferenceIdeal.dot_S100000x16_S16x64_S100000x64_1_0_0_1_n_n none h w := by
  funext i
  obtain ⟨r, j, rfl⟩ : ∃ (r : Fin 100000) (j : Fin 64), i = ix2 r j := ⟨i 0, i 1, eq_ix2 i⟩
  rw [GCN.dense_apply]
  simp only [Host.dotGeneral]
  rw [Ideal.dotGeneral_apply, ← Equiv.sum_comp (contrEquiv1 dot_S100000x16_S16x64_S100000x64_1_0_0_1_n_n 16 rfl rfl).symm]
  refine Finset.sum_congr rfl fun k _ => ?_
  have hk := contrEquiv1_symm_val dot_S100000x16_S16x64_S100000x64_1_0_0_1_n_n 16 rfl rfl k
  have el : dot_S100000x16_S16x64_S100000x64_1_0_0_1_n_n.lhsIdx (ix2 r j) ((contrEquiv1 dot_S100000x16_S16x64_S100000x64_1_0_0_1_n_n 16 rfl rfl).symm k) = ix2 r k := funext fun a => Fin.ext (by
    match a with
    | ⟨0, _⟩ => exact lhs16_0 _ _
    | ⟨1, _⟩ => exact (lhs16_1 _ _).trans hk)
  have er : dot_S100000x16_S16x64_S100000x64_1_0_0_1_n_n.rhsIdx (ix2 r j) ((contrEquiv1 dot_S100000x16_S16x64_S100000x64_1_0_0_1_n_n 16 rfl rfl).symm k) = ix2 k j := funext fun a => Fin.ext (by
    match a with
    | ⟨0, _⟩ => exact (rhs16_0 _ _).trans hk
    | ⟨1, _⟩ => exact rhs16_1 _ _)
  rw [el, er]

end Cert.KernelIdeal.RegionValue

end
-- ==== Proof.HeadRef.lean ====
/-
  The reference's last ten stages are the same two-layer head.

  After the two embeddings are joined side by side into `comb` [256, 128], the reference computes
    max (comb · x10 + x11) 0 · x12 + x13
  with each bias, a vector, first made a row and then repeated down the rows. `refHead` names that composition with the
  joined array as a parameter; read index by index it is
    (∑ a, max ((∑ q, comb (r, q) * x10 (q, a)) + x11 a) 0 * x12 (a, j)) + x13 j,
  which is `GCN.head` once each bias vector is reshaped to a single row.
-/
import proofs.«425248_j7627861918208_2_alg».proof.Proof.Gen.ReferenceIdeal.Read
import proofs.«425248_j7627861918208_2_alg».proof.Proof.Gen.KernelIdeal
import proofs.«425248_j7627861918208_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem

namespace Cert.KernelIdeal.RegionValue

open Idealize.ShloMosaic Idealize.ShloMosaic.ValueIdx Cert.ReferenceIdeal.Read

/-- The reference's head with the joined embeddings as a parameter: the two products, each followed by its bias repeated
    down the rows, the clamp at zero between them. -/
def refHead (comb : (⟨Cert.ReferenceIdeal.S256x128, .f32⟩ : BufTy).Contents (Elt Ideal))
    (x10 : (⟨Cert.ReferenceIdeal.S128x64, .f32⟩ : BufTy).Contents (Elt Ideal))
    (x11 : (⟨Cert.ReferenceIdeal.S64, .f32⟩ : BufTy).Contents (Elt Ideal))
    (x12 : (⟨Cert.ReferenceIdeal.S64x2, .f32⟩ : BufTy).Contents (Elt Ideal))
    (x13 : (⟨Cert.ReferenceIdeal.S2, .f32⟩ : BufTy).Contents (Elt Ideal)) :
    (⟨Cert.ReferenceIdeal.S256x2, .f32⟩ : BufTy).Contents (Elt Ideal) :=
  addf (F := Ideal)
    (Host.dotGeneral (F := Ideal) (φ₁ := .f32) (φ₂ := .f32) Cert.ReferenceIdeal.dot_S256x64_S64x2_S256x2_1_0_0_1_n_n none
      (maximumf (F := Ideal)
        (addf (F := Ideal) (Host.dotGeneral (F := Ideal) (φ₁ := .f32) (φ₂ := .f32) Cert.ReferenceIdeal.dot_S256x128_S128x64_S256x64_1_0_0_1_n_n none comb x10)
          (val_main_v199 (F := Ideal) x11))
        (val_main_call4_v0 (F := Ideal)))
      x12)
    (val_main_v204 (F := Ideal) x13)

namespace RefHeadAux

/-! ## The reference's two products and two biases read at an index -/

/-- The first product at row `r`, column `p`: the sum over the 128 shared coordinates. -/
theorem ref_first_product_apply (a : FVec Ideal Cert.ReferenceIdeal.S256x128 .f32) (b : FVec Ideal Cert.ReferenceIdeal.S128x64 .f32)
    (r : Fin 256) (p : Fin 64) :
    Host.dotGeneral (F := Ideal) Cert.ReferenceIdeal.dot_S256x128_S128x64_S256x64_1_0_0_1_n_n none a b (ix2 r p)
      = ∑ q : Fin 128, a (ix2 r q) * b (ix2 q p) := by
  simp only [Host.dotGeneral]
  rw [Ideal.dotGeneral_apply, ← Equiv.sum_comp (contrEquiv1 Cert.ReferenceIdeal.dot_S256x128_S128x64_S256x64_1_0_0_1_n_n 128 rfl rfl).symm]
  refine Finset.sum_congr rfl fun k _ => ?_
  have hk := contrEquiv1_symm_val Cert.ReferenceIdeal.dot_S256x128_S128x64_S256x64_1_0_0_1_n_n 128 rfl rfl k
  have el : Cert.ReferenceIdeal.dot_S256x128_S128x64_S256x64_1_0_0_1_n_n.lhsIdx (ix2 r p) ((contrEquiv1 Cert.ReferenceIdeal.dot_S256x128_S128x64_S256x64_1_0_0_1_n_n 128 rfl rfl).symm k) = ix2 r k := funext fun ax => Fin.ext (by
    match ax with
    | ⟨0, _⟩ => exact lhs_main_v197_0 _ _
    | ⟨1, _⟩ => exact (lhs_main_v197_1 _ _).trans hk)
  have er : Cert.ReferenceIdeal.dot_S256x128_S128x64_S256x64_1_0_0_1_n_n.rhsIdx (ix2 r p) ((contrEquiv1 Cert.ReferenceIdeal.dot_S256x128_S128x64_S256x64_1_0_0_1_n_n 128 rfl rfl).symm k) = ix2 k p := funext fun ax => Fin.ext (by
    match ax with
    | ⟨0, _⟩ => exact (rhs_main_v197_0 _ _).trans hk
    | ⟨1, _⟩ => exact rhs_main_v197_1 _ _)
  rw [el, er]

/-- The second product at row `r`, column `j`: the sum over the 64 hidden coordinates. -/
theorem ref_second_product_apply (a : FVec Ideal Cert.ReferenceIdeal.S256x64 .f32) (b : FVec Ideal Cert.ReferenceIdeal.S64x2 .f32)
    (r : Fin 256) (j : Fin 2) :
    Host.dotGeneral (F := Ideal) Cert.ReferenceIdeal.dot_S256x64_S64x2_S256x2_1_0_0_1_n_n none a b (ix2 r j)
      = ∑ q : Fin 64, a (ix2 r q) * b (ix2 q j) := by
  simp only [Host.dotGeneral]
  rw [Ideal.dotGeneral_apply, ← Equiv.sum_comp (contrEquiv1 Cert.ReferenceIdeal.dot_S256x64_S64x2_S256x2_1_0_0_1_n_n 64 rfl rfl).symm]
  refine Finset.sum_congr rfl fun k _ => ?_
  have hk := contrEquiv1_symm_val Cert.ReferenceIdeal.dot_S256x64_S64x2_S256x2_1_0_0_1_n_n 64 rfl rfl k
  have el : Cert.ReferenceIdeal.dot_S256x64_S64x2_S256x2_1_0_0_1_n_n.lhsIdx (ix2 r j) ((contrEquiv1 Cert.ReferenceIdeal.dot_S256x64_S64x2_S256x2_1_0_0_1_n_n 64 rfl rfl).symm k) = ix2 r k := funext fun ax => Fin.ext (by
    match ax with
    | ⟨0, _⟩ => exact lhs_main_v202_0 _ _
    | ⟨1, _⟩ => exact (lhs_main_v202_1 _ _).trans hk)
  have er : Cert.ReferenceIdeal.dot_S256x64_S64x2_S256x2_1_0_0_1_n_n.rhsIdx (ix2 r j) ((contrEquiv1 Cert.ReferenceIdeal.dot_S256x64_S64x2_S256x2_1_0_0_1_n_n 64 rfl rfl).symm k) = ix2 k j := funext fun ax => Fin.ext (by
    match ax with
    | ⟨0, _⟩ => exact (rhs_main_v202_0 _ _).trans hk
    | ⟨1, _⟩ => exact rhs_main_v202_1 _ _)
  rw [el, er]

/-- The first bias, made a row and repeated down the rows, reads the vector at the column. -/
theorem ref_bias1_apply (x11 : (⟨Cert.ReferenceIdeal.S64, .f32⟩ : BufTy).Contents (Elt Ideal)) (r : Fin 256) (a : Fin 64) :
    val_main_v199 (F := Ideal) x11 (ix2 r a) = x11 (ix1 a) := by
  rw [val_main_v199_apply, val_main_v198_apply]
  exact congrArg x11 (funext fun ax => match ax with | ⟨0, _⟩ => rfl)

/-- The second bias likewise. -/
theorem ref_bias2_apply (x13 : (⟨Cert.ReferenceIdeal.S2, .f32⟩ : BufTy).Contents (Elt Ideal)) (r : Fin 256) (j : Fin 2) :
    val_main_v204 (F := Ideal) x13 (ix2 r j) = x13 (ix1 j) := by
  rw [val_main_v204_apply, val_main_v203_apply]
  exact congrArg x13 (funext fun ax => match ax with | ⟨0, _⟩ => rfl)

/-- The clamp's other operand is the zero splat. -/
theorem ref_zero_apply (i : Cert.ReferenceIdeal.S256x64.Idx) : val_main_call4_v0 (F := Ideal) i = (0 : EReal) := by
  rw [val_main_call4_v0_apply, val_main_call4_cst_apply]
  exact Ideal.ofBits_zero_f32

end RefHeadAux

/-! ## The two statements -/

/-- The reference's result is `refHead` of its joined embeddings: the five stages in between are the composition's own terms. -/
theorem val_main_v205_eq_refHead
    (x0 : (⟨Cert.ReferenceIdeal.S100000x16, .f32⟩ : BufTy).Contents (Elt Ideal))
    (x1 : (⟨Cert.ReferenceIdeal.S2x1600000, .i32⟩ : BufTy).Contents (Elt Ideal))
    (x2 : (⟨Cert.ReferenceIdeal.S100000, .i32⟩ : BufTy).Contents (Elt Ideal))
    (x3 : (⟨Cert.ReferenceIdeal.S100000x16, .f32⟩ : BufTy).Contents (Elt Ideal))
    (x4 : (⟨Cert.ReferenceIdeal.S2x1600000, .i32⟩ : BufTy).Contents (Elt Ideal))
    (x5 : (⟨Cert.ReferenceIdeal.S100000, .i32⟩ : BufTy).Contents (Elt Ideal))
    (x6 : (⟨Cert.ReferenceIdeal.S16x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (x9 : (⟨Cert.ReferenceIdeal.S64, .f32⟩ : BufTy).Contents (Elt Ideal))
    (x10 : (⟨Cert.ReferenceIdeal.S128x64, .f32⟩ : BufTy).Contents (Elt Ideal))
    (x11 : (⟨Cert.ReferenceIdeal.S64, .f32⟩ : BufTy).Contents (Elt Ideal))
    (x12 : (⟨Cert.ReferenceIdeal.S64x2, .f32⟩ : BufTy).Contents (Elt Ideal))
    (x13 : (⟨Cert.ReferenceIdeal.S2, .f32⟩ : BufTy).Contents (Elt Ideal)) :
    val_main_v205 (F := Ideal) x0 x1 x2 x3 x4 x5 x6 x7 x8 x9 x10 x11 x12 x13
      = refHead (val_main_v196 (F := Ideal) x0 x1 x2 x3 x4 x5 x6 x7 x8 x9) x10 x11 x12 x13 := by
  unfold val_main_v205 val_main_v202 val_main_v201 val_main_v200 val_main_v197 refHead
  rfl

/-- Index by index both sides are `(∑ a, max ((∑ q, comb (r, q) * x10 (q, a)) + x11 a) 0 * x12 (a, j)) + x13 j`: a bias vector
    reshaped to one row reads, at column `a` of that row, the vector at `a`. -/
theorem head_eq_refHead (comb : (⟨Cert.ReferenceIdeal.S256x128, .f32⟩ : BufTy).Contents (Elt Ideal))
    (x10 : (⟨Cert.ReferenceIdeal.S128x64, .f32⟩ : BufTy).Contents (Elt Ideal))
    (x11 : (⟨Cert.ReferenceIdeal.S64, .f32⟩ : BufTy).Contents (Elt Ideal))
    (x12 : (⟨Cert.ReferenceIdeal.S64x2, .f32⟩ : BufTy).Contents (Elt Ideal))
    (x13 : (⟨Cert.ReferenceIdeal.S2, .f32⟩ : BufTy).Contents (Elt Ideal)) :
    GCN.head comb x10 (shapeCast Cert.KernelIdeal.S1x64 x11 Cert.KernelIdeal.Facts₀.shapeCasts_S64_S1x64) x12
        (shapeCast Cert.KernelIdeal.S1x2 x13 Cert.KernelIdeal.Facts₀.shapeCasts_S2_S1x2)
      = refHead comb x10 x11 x12 x13 := by
  funext y
  obtain ⟨r, j, rfl⟩ : ∃ (r : Fin 256) (j : Fin 2), y = ix2 r j := ⟨y 0, y 1, eq_ix2 y⟩
  rw [GCN.head_apply]
  unfold refHead
  rw [addf_apply, RefHeadAux.ref_second_product_apply, RefHeadAux.ref_bias2_apply, shapeCast_a_1a_apply]
  refine congrArg (· + x13 (ix1 j)) (Finset.sum_congr rfl fun a _ => ?_)
  rw [maximumf_apply, addf_apply, RefHeadAux.ref_first_product_apply, RefHeadAux.ref_bias1_apply, RefHeadAux.ref_zero_apply, shapeCast_a_1a_apply]

end Cert.KernelIdeal.RegionValue

end
-- ==== Proof.NormFinite.lean ====
/-
  Every per-edge factor of the graph convolution is a real number.

  Each node carries a self loop, so the count of list entries ending in it is a natural number, at least one; the
  inverse square root of a positive real is a real; a gather reads some node's entry, whichever position it is
  handed; and a product of two reals is a real.
-/
import proofs.«425248_j7627861918208_2_alg».proof.Proof.KernelStages
import proofs.«425248_j7627861918208_2_alg».proof.Proof.LibRowOps
import proofs.«425248_j7627861918208_2_alg».proof.Proof.LibVecOps
import proofs.«425248_j7627861918208_2_alg».proof.Proof.LibSums
import Idealize.ShloMosaic.Lib.IdealHost
import Idealize.ShloMosaic.Lib.Pipeline.Value
import Idealize.ShloMosaic.Lib.ValueIdx
import Idealize.ShloMosaic.PureOps.Ideal.Laws

noncomputable section

namespace Cert.Bridge

open Cert.KernelIdeal Cert.KernelIdeal.Stages Idealize.ShloMosaic Idealize.ShloMosaic.ValueIdx
open Cert.KernelIdeal.Facts₀ Cert.KernelIdeal.Facts

/-! ## The self loops -/

/-- Entry `1600000 + n` of the target list is the node number `n` itself: the position lies in the second piece
    of the concatenation, the node numbers `0 … 99999`, at position `n`. -/
theorem ends1_selfloop (e : IArr S2x1600000) (n : Fin 100000) :
    ends1 e (ix1 (⟨1600000 + n.val, by omega⟩ : Fin 1700000)) = BitVec.ofNat 32 n.val := by
  unfold ends1
  refine (concatenate_pair_apply_right (0 : Fin 1) _ _ concatenates_S1600000_S100000_S1700000_d0
    (ix1 (⟨1600000 + n.val, by omega⟩ : Fin 1700000)) rfl rfl (ix1 n) ?_ ?_).trans ?_
  · intro b hb
    exact absurd (Subsingleton.elim _ _) hb
  · show n.val + 1600000 = 1600000 + n.val
    omega
  · rfl

/-- A vector written as a column reads, at row `k`, the vector's entry `k`. -/
theorem col_apply (v : IArr S1700000) (k : Fin 1700000) : col v (ix2 k (0 : Fin 1)) = v (ix1 k) := by
  unfold col
  refine broadcastInDim_apply _ _ v _ (ix1 k) ?_
  intro a
  obtain rfl : a = 0 := Subsingleton.elim _ _
  rfl

/-- A node number below `100000`, written as a 32-bit word and read signed, is itself. -/
theorem toInt_node (n : Fin 100000) : (BitVec.ofNat 32 n.val).toInt = (n.val : Int) := by
  have hn := n.isLt
  rw [BitVec.toInt_eq_toNat_of_lt (by rw [BitVec.toNat_ofNat]; omega), BitVec.toNat_ofNat]
  omega

/-! ## The degree -/

/-- The degree of node `n` is `0` plus a one for every list entry whose target, read signed, is `n`. -/
theorem deg_apply (e : IArr S2x1600000) (n : Fin 100000) :
    deg e (ix1 n) = (0 : EReal) + ∑ _k ∈ Finset.univ.filter
      (fun k : Fin 1700000 => (col (ends1 e) (ix2 k (0 : Fin 1))).toInt = (n.val : Int)), (1 : EReal) := by
  unfold deg
  refine (RowOps.scatterAdd1_apply_of scatter_S100000_S1700000x1_S1700000_n_0_0_1 rfl _ _ _ n).trans ?_
  refine congrArg₂ (· + ·) ?_ (Finset.sum_congr rfl fun k _ => ?_)
  · rw [broadcastInDim_scalar_apply, constant_apply, Ideal.ofBits_zero_f32]
  · rw [broadcastInDim_scalar_apply, constant_apply, Ideal.ofBits_one_f32]

/-- Every node's degree is a natural number, at least one: its own self loop is counted. -/
theorem deg_nat (e : IArr S2x1600000) (n : Fin 100000) :
    ∃ m : ℕ, 1 ≤ m ∧ deg e (ix1 n) = ((m : ℝ) : EReal) := by
  rw [deg_apply]
  refine ESum.one_le_sum_one _ ⟨(⟨1600000 + n.val, by omega⟩ : Fin 1700000), ?_⟩
  rw [Finset.mem_filter]
  refine ⟨Finset.mem_univ _, ?_⟩
  rw [col_apply, ends1_selfloop, toInt_node]

/-! ## The inverse square root -/

/-- The inverse square root of an array, read at an index, is the inverse square root of the entry. -/
theorem hostRsqrt_apply {s : Shape} (x : FVec Ideal s .f32) (i : s.Idx) :
    Host.rsqrt (F := Ideal) x i = Ideal.rsqrt (x i) := rfl

/-- The inverse square root of a positive real is a real. -/
theorem rsqrt_real {r : ℝ} (h : 0 < r) : ∃ q : ℝ, Ideal.rsqrt (r : EReal) = (q : EReal) := by
  refine ⟨(Real.sqrt r)⁻¹, ?_⟩
  rw [Ideal.rsqrt_coe, if_neg (not_lt.mpr h.le), if_neg h.ne']

/-- So every node's `dinv` is a real. -/
theorem dinv_real (e : IArr S2x1600000) (n : Fin 100000) : ∃ q : ℝ, dinv e (ix1 n) = (q : EReal) := by
  obtain ⟨m, hm, hd⟩ := deg_nat e n
  have h0 : (0 : ℝ) < (m : ℝ) := Nat.cast_pos.mpr hm
  obtain ⟨q, hq⟩ := rsqrt_real h0
  refine ⟨q, ?_⟩
  unfold dinv
  rw [hostRsqrt_apply, hd, hq]

/-! ## The per-edge factor -/

/-- A gather of `dinv` picks some node's entry, whatever the position read is, hence a real. -/
theorem gather_dinv_real (e : IArr S2x1600000) (idx : IArr S1700000x1) (k : Fin 1700000) :
    ∃ q : ℝ, Host.gather gather_S100000_S1700000x1_S1700000_n_0_n_n_0_1_1 (dinv e) idx (ix1 k) = (q : EReal) := by
  rw [RowOps.gather1_apply_of (by decide) gather_S100000_S1700000x1_S1700000_n_0_n_n_0_1_1 rfl]
  exact dinv_real e _

/-- Every entry of the factor column is a real: the product of two gathered entries of `dinv`. -/
theorem norm_real (e : IArr S2x1600000) : ∀ i, ∃ r : ℝ, Stages.norm e i = (r : EReal) := by
  intro i
  obtain ⟨k, z, rfl⟩ : ∃ (k : Fin 1700000) (z : Fin 1), i = ix2 k z := ⟨i 0, i 1, eq_ix2 i⟩
  unfold Stages.norm
  rw [broadcastInDim_apply _ _ _ _ (ix1 k) (by
    intro a
    obtain rfl : a = 0 := Subsingleton.elim _ _
    rfl), mulf_apply]
  exact ESum.exists_real_mul (gather_dinv_real e _ k) (gather_dinv_real e _ k)

end Cert.Bridge

end
-- ==== Proof.Bridge.lean ====
/-
  The kernel program's result and the reference's are one function of the fourteen arguments, when the node
  features of both sides and the first weight matrix have real entries.

  Per side: the first convolution's outputs agree (the aggregation over the edges commutes with the product by `W1`
  for real entries; the per-edge factor is real because every degree is at least one), hence the second
  convolution's aggregated rows agree (the same gathers and scatter-adds on both sides, the dense product read as the
  host's), hence the pooled embeddings agree (per graph, the same sum over its nodes and the same count floored at
  one).  The two embeddings side by side then go through the same two-layer head.
-/
import proofs.«425248_j7627861918208_2_alg».proof.Proof.KernelStages
import proofs.«425248_j7627861918208_2_alg».proof.Proof.Gen.ReferenceIdeal.Read
import proofs.«425248_j7627861918208_2_alg».proof.Proof.BridgeLayer1
import proofs.«425248_j7627861918208_2_alg».proof.Proof.BridgeSide
import proofs.«425248_j7627861918208_2_alg».proof.Proof.BridgePool
import proofs.«425248_j7627861918208_2_alg».proof.Proof.DenseRef
import proofs.«425248_j7627861918208_2_alg».proof.Proof.HeadRef
import proofs.«425248_j7627861918208_2_alg».proof.Proof.NormFinite

noncomputable section

namespace Cert.Bridge

open Cert.KernelIdeal Cert.KernelIdeal.Stages Idealize.ShloMosaic

/-- The two sides' embeddings side by side are the reference's concatenated stage. -/
theorem combined_eq (x0 : FArr S100000x16) (x1 : IArr S2x1600000) (x2 : IArr S100000) (x3 : FArr S100000x16) (x4 : IArr S2x1600000) (x5 : IArr S100000)
    (x6 : FArr S16x64) (x7 : FArr S64) (x8 : FArr S64x64) (x9 : FArr S64)
    (h0 : ∀ i, ∃ r : ℝ, x0 i = (r : EReal)) (h3 : ∀ i, ∃ r : ℝ, x3 i = (r : EReal)) (h6 : ∀ i, ∃ r : ℝ, x6 i = (r : EReal)) :
    concatenate S256x128 1 [⟨S256x64, Stages.emb x0 x1 x2 x6 x7 x8 x9⟩, ⟨S256x64, Stages.emb x3 x4 x5 x6 x7 x8 x9⟩] Cert.KernelIdeal.Facts₀.concatenates_S256x64_S256x64_S256x128_d1
      = Cert.ReferenceIdeal.Read.val_main_v196 (F := Ideal) x0 x1 x2 x3 x4 x5 x6 x7 x8 x9 :=
  comb_eq (fun h w => Cert.KernelIdeal.RegionValue.dense_eq_dotGeneral64 h w) refPool val_main_v97_eq_refPool pool_eq
    x0 x1 x2 x3 x4 x5 x6 x7 x8 x9 (h1_eq x0 x1 x6 x7 h0 h6 (norm_real x1)) (h1_eq' x3 x4 x6 x7 h3 h6 (norm_real x4))

/-- The kernel program's result is the reference's last stage. -/
theorem out_eq (x0 : FArr S100000x16) (x1 : IArr S2x1600000) (x2 : IArr S100000) (x3 : FArr S100000x16) (x4 : IArr S2x1600000) (x5 : IArr S100000)
    (x6 : FArr S16x64) (x7 : FArr S64) (x8 : FArr S64x64) (x9 : FArr S64) (x10 : FArr S128x64) (x11 : FArr S64) (x12 : FArr S64x2) (x13 : FArr S2)
    (h0 : ∀ i, ∃ r : ℝ, x0 i = (r : EReal)) (h3 : ∀ i, ∃ r : ℝ, x3 i = (r : EReal)) (h6 : ∀ i, ∃ r : ℝ, x6 i = (r : EReal)) :
    Stages.out x0 x1 x2 x3 x4 x5 x6 x7 x8 x9 x10 x11 x12 x13
      = Cert.ReferenceIdeal.Read.val_main_v205 (F := Ideal) x0 x1 x2 x3 x4 x5 x6 x7 x8 x9 x10 x11 x12 x13 := by
  rw [Cert.KernelIdeal.RegionValue.val_main_v205_eq_refHead, ← combined_eq x0 x1 x2 x3 x4 x5 x6 x7 x8 x9 h0 h3 h6, ← Cert.KernelIdeal.RegionValue.head_eq_refHead]
  rfl

end Cert.Bridge

end
-- ==== Proof.lean ====
/-
  The certificate's claim: the three frames, the (empty) idealization ledger, and the equality of the two idealized
  programs' results over the extended reals.

  Both programs compute, for two batches of graphs, two normalised graph convolutions with a relu between them, a mean
  pool per graph and a two-layer head on the two embeddings side by side.  They share the normalisation
  `dinv (source) · dinv (target)` per edge (self loops appended, so every degree is at least one) and the gathers and
  scatter-adds along the edges.  They differ in three places.  In the first convolution the kernel adds up the 16 input
  features of the neighbours and THEN multiplies by `W1`, the reference multiplies first: for real entries the sum
  over the edges commutes with the product, and the entries are real because the inputs are finite and the per-edge
  factor is the product of two inverse square roots of positive whole numbers.  The dense products are tiled over
  blocks of 10000 rows on one side and whole on the other: the same sums.  The pooling is a product with the one-hot
  matrix of the graph numbers accumulated over 20 blocks of 5000 nodes on one side and a scatter-add by the graph
  numbers on the other: both are, per graph, the sum over its nodes.

  The kernel's result is read off its run region by region (`Thread.result_eq`), the reference's off its run
  (`Read.val_main_v205_eq`), and `Bridge.out_eq` says the two functions of the fourteen arguments are one.
-/
import proofs.«425248_j7627861918208_2_alg».proof.Defs
import proofs.«425248_j7627861918208_2_alg».proof.Proof.Gen.Kernel.Frame
import proofs.«425248_j7627861918208_2_alg».proof.Proof.Gen.KernelIdeal.Frame
import proofs.«425248_j7627861918208_2_alg».proof.Proof.Gen.ReferenceIdeal.Run
import proofs.«425248_j7627861918208_2_alg».proof.Proof.Gen.ReferenceIdeal.Read
import proofs.«425248_j7627861918208_2_alg».proof.Proof.Gen.Pre_finite_inputs
import proofs.«425248_j7627861918208_2_alg».proof.Proof.KernelRun
import proofs.«425248_j7627861918208_2_alg».proof.Proof.KernelThread
import proofs.«425248_j7627861918208_2_alg».proof.Proof.Region0
import proofs.«425248_j7627861918208_2_alg».proof.Proof.Region1
import proofs.«425248_j7627861918208_2_alg».proof.Proof.Region2
import proofs.«425248_j7627861918208_2_alg».proof.Proof.Region2b
import proofs.«425248_j7627861918208_2_alg».proof.Proof.Region6
import proofs.«425248_j7627861918208_2_alg».proof.Proof.FinitePre
import proofs.«425248_j7627861918208_2_alg».proof.Proof.Bridge
import Idealize.ShloMosaic.Adequacy
import Idealize.ShloMosaic.Init

noncomputable section

namespace Cert.Proof

open Idealize.ShloMosaic Idealize.ShloMosaic.TcCoe Idealize.SL.Sem

/-- What each region leaves in its output arrays, for any entry contents. -/
theorem regionFacts : Cert.KernelIdeal.Thread.RegionFacts where
  r0 := fun V c => Cert.KernelIdeal.RegionValue.region0_value V c
  r1 := fun V c => Cert.KernelIdeal.RegionValue.region1_value V c
  r2s := fun V c => Cert.KernelIdeal.RegionValue.region2_sum V c
  r2c := fun V c => Cert.KernelIdeal.RegionValue.region2_cnt V c
  r3 := fun V c => Cert.KernelIdeal.RegionValue.region3_value V c
  r4 := fun V c => Cert.KernelIdeal.RegionValue.region4_value V c
  r5s := fun V c => Cert.KernelIdeal.RegionValue.region5_sum V c
  r5c := fun V c => Cert.KernelIdeal.RegionValue.region5_cnt V c
  r6 := fun V c => Cert.KernelIdeal.RegionValue.region6_value V c

/-- From memories agreeing on the arguments both idealized programs end with the same result: the kernel's run leaves
    `Stages.out` of the arguments, the reference's its composed stages, and these are one function of finite inputs. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v129),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  obtain ⟨r0, r3, r6⟩ := Cert.Bridge.real_of_pre m hpre c
  rw [Cert.ReferenceIdeal.Read.val_main_v205_eq, a0, a1, a2, a3, a4, a5, a6, a7, a8, a9, a10, a11, a12, a13]
  exact ((Cert.KernelIdeal.Thread.result_eq regionFacts m ρ c).trans
    (Cert.Bridge.out_eq _ _ _ _ _ _ _ _ _ _ _ _ _ _ r0 r3 r6)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial, algebraic⟩

end Cert.Proof

end
